-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x48 : Shape := ⟨3, ![64, 8192, 48]⟩
abbrev S1848 : Shape := ⟨1, ![1848]⟩
abbrev S64x8192 : Shape := ⟨2, ![64, 8192]⟩
abbrev S64 : Shape := ⟨1, ![64]⟩
abbrev S_ : Shape := ⟨0, ![]⟩

class Facts : Prop where
  bcast_S_S64x8192 : S_.BroadcastsInDim S64x8192 (![] : Fin 0 → Fin S64x8192.rank)
  bcast_S_S64x8192x48 : S_.BroadcastsInDim S64x8192x48 (![] : Fin 0 → Fin S64x8192x48.rank)
  reducesTo_S64x8192x48_S_d0_1_2 : S64x8192x48.ReducesTo [0, 1, 2] S_
  h_S_ : 0 < S_.numel
  bcast_S_S1848 : S_.BroadcastsInDim S1848 (![] : Fin 0 → Fin S1848.rank)
  reducesTo_S1848_S_d0 : S1848.ReducesTo [0] S_
  natLt_1_32 : 1 < 32
  reducesTo_S64x8192_S64_d1 : S64x8192.ReducesTo [1] S64
  bcast_S_S64 : S_.BroadcastsInDim S64 (![] : Fin 0 → Fin S64.rank)
  reducesTo_S64_S_d0 : S64.ReducesTo [0] S_
  reducesTo_S64x8192_S_d0_1 : S64x8192.ReducesTo [0, 1] S_

variable [Facts]

def fn_part1 {F : FTy → Type} [FloatOps F] (main_arg2 : IVec S64x8192 32) (main_v10 : IVec S_ 1) (main_v15 : IVec S_ 1) : IVec S_ 1 :=
  let main_v16 : IVec S_ 1 := andi main_v10 main_v15
  let main_c_6 : IVec S_ 32 := constantI S_ 32 4294967196#32
  let main_v17 : IVec S64x8192 32 := broadcastInDim S64x8192 ![] bcast_S_S64x8192 main_c_6
  let main_v18 : IVec S64x8192 1 := cmpi .eq main_arg2 main_v17
  let main_c_7 : IVec S_ 32 := constantI S_ 32 1#32
  let main_v19 : IVec S64x8192 32 := broadcastInDim S64x8192 ![] bcast_S_S64x8192 main_c_7
  let main_v20 : IVec S64x8192 1 := cmpi .sge main_arg2 main_v19
  let main_c_8 : IVec S_ 32 := constantI S_ 32 42#32
  let main_v21 : IVec S64x8192 32 := broadcastInDim S64x8192 ![] bcast_S_S64x8192 main_c_8
  let main_v22 : IVec S64x8192 1 := cmpi .sle main_arg2 main_v21
  let main_v23 : IVec S64x8192 1 := andi main_v20 main_v22
  let main_v24 : IVec S64x8192 1 := ori main_v18 main_v23
  let main_c_9 : IVec S_ 1 := constantI S_ 1 1#1
  let main_v25 : IVec S_ 1 := (fun x v => Host.reduce IntOp.andi x v reducesTo_S64x8192_S_d0_1 h_S_) main_v24 main_c_9
  let main_v26 : IVec S_ 1 := andi main_v16 main_v25
  main_v26

def fn {F : FTy → Type} [FloatOps F] (main_arg0 : FVec F S64x8192x48 .f32) (main_arg1 : FVec F S1848 .f32) (main_arg2 : IVec S64x8192 32) (main_arg3 : IVec S64 32) : IVec S_ 1 :=
  let main_c : IVec S_ 32 := constantI S_ 32 4294967196#32
  let main_v0 : IVec S64x8192 32 := broadcastInDim S64x8192 ![] bcast_S_S64x8192 main_c
  let main_v1 : IVec S64x8192 1 := cmpi .ne main_arg2 main_v0
  let main_v2 : FVec F S64x8192x48 .f32 := Host.absf main_arg0
  let main_cst : FVec F S_ .f32 := constant S_ .f32 0x7F800000#32
  let main_v3 : FVec F S64x8192x48 .f32 := broadcastInDim S64x8192x48 ![] bcast_S_S64x8192x48 main_cst
  let main_v4 : IVec S64x8192x48 1 := cmpf .olt main_v2 main_v3
  let main_c_0 : IVec S_ 1 := constantI S_ 1 1#1
  let main_v5 : IVec S_ 1 := (fun x v => Host.reduce IntOp.andi x v reducesTo_S64x8192x48_S_d0_1_2 h_S_) main_v4 main_c_0
  let main_v6 : FVec F S1848 .f32 := Host.absf main_arg1
  let main_cst_1 : FVec F S_ .f32 := constant S_ .f32 0x7F800000#32
  let main_v7 : FVec F S1848 .f32 := broadcastInDim S1848 ![] bcast_S_S1848 main_cst_1
  let main_v8 : IVec S1848 1 := cmpf .olt main_v6 main_v7
  let main_c_2 : IVec S_ 1 := constantI S_ 1 1#1
  let main_v9 : IVec S_ 1 := (fun x v => Host.reduce IntOp.andi x v reducesTo_S1848_S_d0 h_S_) main_v8 main_c_2
  let main_v10 : IVec S_ 1 := andi main_v5 main_v9
  let main_v11 : IVec S64x8192 32 := (extui 32 · natLt_1_32) main_v1
  let main_c_3 : IVec S_ 32 := constantI S_ 32 0#32
  let main_v12 : IVec S64 32 := (fun x v => Host.reduce IntOp.addi x v reducesTo_S64x8192_S64_d1 h_S_) main_v11 main_c_3
  let main_c_4 : IVec S_ 32 := constantI S_ 32 4096#32
  let main_v13 : IVec S64 32 := broadcastInDim S64 ![] bcast_S_S64 main_c_4
  let main_v14 : IVec S64 1 := cmpi .eq main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg2 main_v10 main_v15
-- ==== Kernel.lean ====
abbrev S64x8192x48 : Shape := ⟨3, ![64, 8192, 48]⟩
abbrev S1848 : Shape := ⟨1, ![1848]⟩
abbrev S64x8192 : Shape := ⟨2, ![64, 8192]⟩
abbrev S64 : Shape := ⟨1, ![64]⟩
abbrev S_ : Shape := ⟨0, ![]⟩
abbrev S64x1 : Shape := ⟨2, ![64, 1]⟩
abbrev S8x2048x48 : Shape := ⟨3, ![8, 2048, 48]⟩
abbrev S8x2048 : Shape := ⟨2, ![8, 2048]⟩
abbrev S8x1 : Shape := ⟨2, ![8, 1]⟩
abbrev S8x2048x1 : Shape := ⟨3, ![8, 2048, 1]⟩
abbrev S8 : Shape := ⟨1, ![8]⟩
abbrev S64x4096 : Shape := ⟨2, ![64, 4096]⟩
abbrev S64x8192x1 : Shape := ⟨3, ![64, 8192, 1]⟩
abbrev S64x8192x2 : Shape := ⟨3, ![64, 8192, 2]⟩
abbrev S42 : Shape := ⟨1, ![42]⟩
abbrev S1 : Shape := ⟨1, ![1]⟩
abbrev S1806 : Shape := ⟨1, ![1806]⟩
abbrev S42x43 : Shape := ⟨2, ![42, 43]⟩
abbrev S42x1 : Shape := ⟨2, ![42, 1]⟩
abbrev S42x42 : Shape := ⟨2, ![42, 42]⟩
abbrev S64x4095 : Shape := ⟨2, ![64, 4095]⟩
abbrev S64x4095x1 : Shape := ⟨3, ![64, 4095, 1]⟩
abbrev S64x4095x2 : Shape := ⟨3, ![64, 4095, 2]⟩

abbrev nBuf : Space → Nat
  | .hbm => 135
  | .vmem => 6
  | .smem => 0
  | _ => 0

abbrev hbmTy0_0 (i : Nat) : BufTy := match i % 128 with
  | 0 => ⟨S64x8192x48, .f32⟩
  | 1 => ⟨S1848, .f32⟩
  | 2 => ⟨S64x8192, .i32⟩
  | 3 => ⟨S64, .i32⟩
  | 4 => ⟨S_, .i32⟩
  | 5 => ⟨S64x8192, .i32⟩
  | 6 => ⟨S64x8192, .i1⟩
  | 7 => ⟨S64x1, .f32⟩
  | 8 => ⟨S64, .f32⟩
  | 9 => ⟨S64x8192, .i32⟩
  | 10 => ⟨S_, .i32⟩
  | 11 => ⟨S_, .i32⟩
  | 12 => ⟨S64x8192, .i32⟩
  | 13 => ⟨S_, .i32⟩
  | 14 => ⟨S64x8192, .i32⟩
  | 15 => ⟨S64x8192, .i32⟩
  | 16 => ⟨S_, .i32⟩
  | 17 => ⟨S_, .i32⟩
  | 18 => ⟨S64x8192, .i32⟩
  | 19 => ⟨S64x8192, .i32⟩
  | 20 => ⟨S64, .i32⟩
  | 21 => ⟨S64x1, .i32⟩
  | 22 => ⟨S64x8192, .i32⟩
  | 23 => ⟨S_, .i32⟩
  | 24 => ⟨S64x4096, .i32⟩
  | 25 => ⟨S_, .i32⟩
  | 26 => ⟨S64x8192, .i32⟩
  | 27 => ⟨S64x8192, .i1⟩
  | 28 => ⟨S_, .i32⟩
  | 29 => ⟨S64x8192, .i32⟩
  | 30 => ⟨S64x8192, .i32⟩
  | 31 => ⟨S64x8192, .i32⟩
  | 32 => ⟨S_, .i32⟩
  | 33 => ⟨S64x8192, .i32⟩
  | 34 => ⟨S64x8192, .i1⟩
  | 35 => ⟨S_, .i32⟩
  | 36 => ⟨S64x8192, .i32⟩
  | 37 => ⟨S64x8192, .i32⟩
  | 38 => ⟨S64x8192, .i32⟩
  | 39 => ⟨S64x8192x1, .i32⟩
  | 40 => ⟨S64x8192x1, .i32⟩
  | 41 => ⟨S64x8192x2, .i32⟩
  | 42 => ⟨S64x4096, .i32⟩
  | 43 => ⟨S42, .f32⟩
  | 44 => ⟨S_, .f32⟩
  | 45 => ⟨S_, .f32⟩
  | 46 => ⟨S_, .f32⟩
  | 47 => ⟨S_, .f32⟩
  | 48 => ⟨S1, .f32⟩
  | 49 => ⟨S42, .f32⟩
  | 50 => ⟨S42, .f32⟩
  | 51 => ⟨S42, .f32⟩
  | 52 => ⟨S_, .f32⟩
  | 53 => ⟨S_, .f32⟩
  | 54 => ⟨S1, .f32⟩
  | 55 => ⟨S1, .f32⟩
  | 56 => ⟨S42, .f32⟩
  | 57 => ⟨S42, .f32⟩
  | 58 => ⟨S1806, .f32⟩
  | 59 => ⟨S42x43, .f32⟩
  | 60 => ⟨S_, .f32⟩
  | 61 => ⟨S42, .f32⟩
  | 62 => ⟨S_, .f32⟩
  | 63 => ⟨S42, .f32⟩
  | 64 => ⟨S42, .f32⟩
  | 65 => ⟨S42x1, .f32⟩
  | 66 => ⟨S42x43, .f32⟩
  | 67 => ⟨S42x43, .f32⟩
  | 68 => ⟨S42x43, .f32⟩
  | 69 => ⟨S_, .f32⟩
  | 70 => ⟨S42, .f32⟩
  | 71 => ⟨S42x1, .f32⟩
  | 72 => ⟨S42x1, .f32⟩
  | 73 => ⟨S42x43, .f32⟩
  | 74 => ⟨S42x43, .f32⟩
  | 75 => ⟨S42x42, .f32⟩
  | 76 => ⟨S42x1, .f32⟩
  | 77 => ⟨S42, .f32⟩
  | 78 => ⟨S_, .i32⟩
  | 79 => ⟨S64x4096, .i32⟩
  | 80 => ⟨S64x4096, .i32⟩
  | 81 => ⟨S64x1, .i32⟩
  | 82 => ⟨S64, .i32⟩
  | 83 => ⟨S_, .i32⟩
  | 84 => ⟨S64, .i32⟩
  | 85 => ⟨S64, .i1⟩
  | 86 => ⟨S_, .i32⟩
  | 87 => ⟨S64, .i32⟩
  | 88 => ⟨S64, .i32⟩
  | 89 => ⟨S64, .i32⟩
  | 90 => ⟨S64x1, .i32⟩
  | 91 => ⟨S64, .f32⟩
  | 92 => ⟨S64x4095, .i32⟩
  | 93 => ⟨S64x4095, .i32⟩
  | 94 => ⟨S_, .i32⟩
  | 95 => ⟨S64x4095, .i32⟩
  | 96 => ⟨S64x4095, .i1⟩
  | 97 => ⟨S_, .i32⟩
  | 98 => ⟨S64x4095, .i32⟩
  | 99 => ⟨S64x4095, .i32⟩
  | 100 => ⟨S64x4095, .i32⟩
  | 101 => ⟨S_, .i32⟩
  | 102 => ⟨S64x4095, .i32⟩
  | 103 => ⟨S64x4095, .i1⟩
  | 104 => ⟨S_, .i32⟩
  | 105 => ⟨S64x4095, .i32⟩
  | 106 => ⟨S64x4095, .i32⟩
  | 107 => ⟨S64x4095, .i32⟩
  | 108 => ⟨S64x4095x1, .i32⟩
  | 109 => ⟨S64x4095x1, .i32⟩
  | 110 => ⟨S64x4095x2, .i32⟩
  | 111 => ⟨S64x4095, .f32⟩
  | 112 => ⟨S_, .f32⟩
  | 113 => ⟨S64, .f32⟩
  | 114 => ⟨S64, .f32⟩
  | 115 => ⟨S64x1, .i32⟩
  | 116 => ⟨S64, .i32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S64x1, .i32⟩
  | 125 => ⟨S64, .f32⟩
  | 126 => ⟨S64, .f32⟩
  | 127 => ⟨S64, .f32⟩
  | _ => ⟨S64x8192x48, .f32⟩

abbrev hbmTy0_1 (i : Nat) : BufTy := match i % 128 with
  | 0 => ⟨S64x8192, .i32⟩
  | 1 => ⟨S_, .i32⟩
  | 2 => ⟨S_, .i32⟩
  | 3 => ⟨S_, .f32⟩
  | 4 => ⟨S_, .f32⟩
  | 5 => ⟨S_, .f32⟩
  | 6 => ⟨S_, .f32⟩
  | _ => ⟨S64x8192x48, .f32⟩

abbrev hbmTy (i : Nat) : BufTy := match i / 128 with
  | 0 => hbmTy0_0 i
  | 1 => hbmTy0_1 i
  | _ => ⟨S64x8192x48, .f32⟩

abbrev bufTy : (tb : Table) → Fin (tcTables nBuf tb) → BufTy
  | .hbm, ⟨i, _⟩ => hbmTy i
  | .local _ .vmem, ⟨0, _⟩ => ⟨S8x2048x48, .f32⟩
  | .local _ .vmem, ⟨1, _⟩ => ⟨S8x2048x48, .f32⟩
  | .local _ .vmem, ⟨2, _⟩ => ⟨S8x2048, .i32⟩
  | .local _ .vmem, ⟨3, _⟩ => ⟨S8x2048, .i32⟩
  | .local _ .vmem, ⟨4, _⟩ => ⟨S8x1, .f32⟩
  | .local _ .vmem, ⟨5, _⟩ => ⟨S8x1, .f32⟩
  | _, _ => ⟨S64x8192x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call2_cst : Ref sig .tc := ⟨.hbm, 44, rfl⟩
abbrev main_call2_v0 : Ref sig .tc := ⟨.hbm, 45, rfl⟩
abbrev main_call2_cst_0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_cst_1 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call3_cst : Ref sig .tc := ⟨.hbm, 60, rfl⟩
abbrev main_call3_v0 : Ref sig .tc := ⟨.hbm, 61, rfl⟩
abbrev main_call3_cst_0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_cst_1 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_7 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_c_8 : Ref sig .tc := ⟨.hbm, 83, rfl⟩
abbrev main_v39 : Ref sig .tc := ⟨.hbm, 84, rfl⟩
abbrev main_v40 : Ref sig .tc := ⟨.hbm, 85, rfl⟩
abbrev main_c_9 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_c_10 : Ref sig .tc := ⟨.hbm, 94, rfl⟩
abbrev main_v48 : Ref sig .tc := ⟨.hbm, 95, rfl⟩
abbrev main_v49 : Ref sig .tc := ⟨.hbm, 96, rfl⟩
abbrev main_c_11 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_c_12 : Ref sig .tc := ⟨.hbm, 101, rfl⟩
abbrev main_v53 : Ref sig .tc := ⟨.hbm, 102, rfl⟩
abbrev main_v54 : Ref sig .tc := ⟨.hbm, 103, rfl⟩
abbrev main_c_13 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_14 : Ref sig .tc := ⟨.hbm, 117, rfl⟩
abbrev main_v66 : Ref sig .tc := ⟨.hbm, 118, rfl⟩
abbrev main_v67 : Ref sig .tc := ⟨.hbm, 119, rfl⟩
abbrev main_c_15 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_16 : Ref sig .tc := ⟨.hbm, 129, rfl⟩
abbrev main_v76 : Ref sig .tc := ⟨.hbm, 130, rfl⟩
abbrev main_cst_17 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S64x8192 : S_.BroadcastsInDim S64x8192 (![] : Fin 0 → Fin S64x8192.rank)
  inb_S8x1_S8x1_0_0 : ∀ a, (![0, 0] : Fin 2 → Nat) a + S8x1.size a ≤ S8x1.size a
  h_S8x1 : 0 < S8x1.numel
  inb_S8x2048x48_S8x2048x48_0_0_0 : ∀ a, (![0, 0, 0] : Fin 3 → Nat) a + S8x2048x48.size a ≤ S8x2048x48.size a
  h_S8x2048x48 : 0 < S8x2048x48.numel
  inb_S8x2048_S8x2048_0_0 : ∀ a, (![0, 0] : Fin 2 → Nat) a + S8x2048.size a ≤ S8x2048.size a
  h_S8x2048 : 0 < S8x2048.numel
  iota_S8x2048x48_d2_w32 : S8x2048x48.Iotas .tc 32 [2]
  shapeCasts_S8x2048_S8x2048x1 : S8x2048.ShapeCasts S8x2048x1
  broadcasts_S8x2048x1_S8x2048x48 : S8x2048x1.Broadcasts S8x2048x48
  reduces_S8x2048x48_S8x2048 : S8x2048x48.Reduces [2] S8x2048
  reduces_S8x2048_S8 : S8x2048.Reduces [1] S8
  shapeCasts_S8_S8x1 : S8.ShapeCasts S8x1
  shapeCasts_S8x1_S8x1 : S8x1.ShapeCasts S8x1
  shapeCasts_S64x1_S64 : S64x1.ShapeCasts S64
  natLt_1_32 : 1 < 32
  bcast_S_S_ : S_.BroadcastsInDim S_ (![] : Fin 0 → Fin S_.rank)
  reduceWindows_S64x8192_S64x8192_w1s1p0_0_w8192s1p8191_0 : S64x8192.ReduceWindows (![1, 8192] : Fin 2 → Nat) ![1, 1] ![0, 8191] ![0, 0] S64x8192
  h_S_ : 0 < S_.numel
  bcast_S64_S64x1_0 : S64.BroadcastsInDim S64x1 (![0] : Fin 1 → Fin S64x1.rank)
  bcast_S64x1_S64x8192_0_1 : S64x1.BroadcastsInDim S64x8192 (![0, 1] : Fin 2 → Fin S64x8192.rank)
  bcast_S_S64x4096 : S_.BroadcastsInDim S64x4096 (![] : Fin 0 → Fin S64x4096.rank)
  bcast_S64x8192_S64x8192x1_0_1 : S64x8192.BroadcastsInDim S64x8192x1 (![0, 1] : Fin 2 → Fin S64x8192x1.rank)
  concatenates_S64x8192x1_S64x8192x1_S64x8192x2_d2 : Shape.Concatenates [S64x8192x1, S64x8192x1] S64x8192x2 2
  slices_S1848_S42_0 : S1848.Slices ![0] S42
  reducesTo_S42_S_d0 : S42.ReducesTo [0] S_
  bcast_S_S1 : S_.BroadcastsInDim S1 (![] : Fin 0 → Fin S1.rank)
  bcast_S1_S42_0 : S1.BroadcastsInDim S42 (![0] : Fin 1 → Fin S42.rank)
  slices_S1848_S1806_42 : S1848.Slices ![42] S1806
  shapeCasts_S1806_S42x43 : S1806.ShapeCasts S42x43
  reducesTo_S42x43_S42_d1 : S42x43.ReducesTo [1] S42
  bcast_S_S42 : S_.BroadcastsInDim S42 (![] : Fin 0 → Fin S42.rank)
  bcast_S42_S42x1_0 : S42.BroadcastsInDim S42x1 (![0] : Fin 1 → Fin S42x1.rank)
  bcast_S42x1_S42x43_0_1 : S42x1.BroadcastsInDim S42x43 (![0, 1] : Fin 2 → Fin S42x43.rank)
  slices_S42x43_S42x42_0_0 : S42x43.Slices ![0, 0] S42x42
  slices_S42x43_S42x1_0_42 : S42x43.Slices ![0, 42] S42x1
  shapeCasts_S42x1_S42 : S42x1.ShapeCasts S42
  slices_S64x4096_S64x1_0_0 : S64x4096.Slices ![0, 0] S64x1
  bcast_S_S64 : S_.BroadcastsInDim S64 (![] : Fin 0 → Fin S64.rank)
  slices_S64x4096_S64x4095_0_0 : S64x4096.Slices ![0, 0] S64x4095
  slices_S64x4096_S64x4095_0_1 : S64x4096.Slices ![0, 1] S64x4095
  bcast_S_S64x4095 : S_.BroadcastsInDim S64x4095 (![] : Fin 0 → Fin S64x4095.rank)
  bcast_S64x4095_S64x4095x1_0_1 : S64x4095.BroadcastsInDim S64x4095x1 (![0, 1] : Fin 2 → Fin S64x4095x1.rank)
  concatenates_S64x4095x1_S64x4095x1_S64x4095x2_d2 : Shape.Concatenates [S64x4095x1, S64x4095x1] S64x4095x2 2
  reducesTo_S64x4095_S64_d1 : S64x4095.ReducesTo [1] S64
  slices_S64x4096_S64x1_0_4095 : S64x4096.Slices ![0, 4095] S64x1
  reducesTo_S64x8192_S_d0_1 : S64x8192.ReducesTo [0, 1] S_
  reducesTo_S64_S_d0 : S64.ReducesTo [0] S_
  scatter_S64x4096_S64x8192x2_S64x8192_n_01_01_2_wf : ScatterDims.WF S64x4096 S64x8192x2 S64x8192 [] [0, 1] [0, 1] 2
  gather_S42_S64x1_S64_n_0_n_n_0_1_1_wf : GatherDims.WF S42 S64x1 S64 [] [0] [] [0] [] 1 ![1]
  gather_S42x42_S64x4095x2_S64x4095_n_01_n_n_01_2_11_wf : GatherDims.WF S42x42 S64x4095x2 S64x4095 [] [0, 1] [] [0, 1] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x48.size a ≤ S64x8192x48.size a
  hwx0_0 : ∀ i : grid0.Coords, EltTy.bits .f32 = 32 ∨ (Rect.block (s := S64x8192x48) S8x2048x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S64x8192.size a
  hwx0_1 : ∀ i : grid0.Coords, EltTy.bits .i32 = 32 ∨ (Rect.block (s := S64x8192) S8x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

def scatter_S64x4096_S64x8192x2_S64x8192_n_01_01_2 : ScatterDims S64x4096 S64x8192x2 S64x8192 where
  updateWindowDims := []
  insertedWindowDims := [0, 1]
  scatterDimsToOperandDims := [0, 1]
  indexVectorDim := 2
  wf := scatter_S64x4096_S64x8192x2_S64x8192_n_01_01_2_wf
def gather_S42_S64x1_S64_n_0_n_n_0_1_1 : GatherDims S42 S64x1 S64 where
  offsetDims := []
  collapsedSliceDims := [0]
  operandBatchingDims := []
  startIndicesBatchingDims := []
  startIndexMap := [0]
  indexVectorDim := 1
  sliceSizes := ![1]
  wf := gather_S42_S64x1_S64_n_0_n_n_0_1_1_wf
def gather_S42x42_S64x4095x2_S64x4095_n_01_n_n_01_2_11 : GatherDims S42x42 S64x4095x2 S64x4095 where
  offsetDims := []
  collapsedSliceDims := [0, 1]
  operandBatchingDims := []
  startIndicesBatchingDims := []
  startIndexMap := [0, 1]
  indexVectorDim := 2
  sliceSizes := ![1, 1]
  wf := gather_S42x42_S64x4095x2_S64x4095_n_01_n_n_01_2_11_wf

abbrev win0_0 : Pipeline.Window sig grid0 :=
  Pipeline.Window.ofSpec (Memref.whole main_arg0) S8x2048x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8192x48 : Shape := ⟨3, ![64, 8192, 48]⟩
abbrev S1848 : Shape := ⟨1, ![1848]⟩
abbrev S64x8192 : Shape := ⟨2, ![64, 8192]⟩
abbrev S64 : Shape := ⟨1, ![64]⟩
abbrev S_ : Shape := ⟨0, ![]⟩
abbrev S64x4096 : Shape := ⟨2, ![64, 4096]⟩
abbrev S64x4096x1 : Shape := ⟨3, ![64, 4096, 1]⟩
abbrev S1 : Shape := ⟨1, ![1]⟩
abbrev S1x1x1 : Shape := ⟨3, ![1, 1, 1]⟩
abbrev S64x4096x48 : Shape := ⟨3, ![64, 4096, 48]⟩
abbrev S64x4096x1x1 : Shape := ⟨4, ![64, 4096, 1, 1]⟩
abbrev S1x1x1x1 : Shape := ⟨4, ![1, 1, 1, 1]⟩
abbrev S42 : Shape := ⟨1, ![42]⟩
abbrev S1806 : Shape := ⟨1, ![1806]⟩
abbrev S42x43 : Shape := ⟨2, ![42, 43]⟩
abbrev S42x1 : Shape := ⟨2, ![42, 1]⟩
abbrev S42x42 : Shape := ⟨2, ![42, 42]⟩
abbrev S64x1 : Shape := ⟨2, ![64, 1]⟩
abbrev S64x4095 : Shape := ⟨2, ![64, 4095]⟩
abbrev S64x4095x1 : Shape := ⟨3, ![64, 4095, 1]⟩
abbrev S64x4095x2 : Shape := ⟨3, ![64, 4095, 2]⟩

abbrev nBuf : Space → Nat
  | .hbm => 180
  | .vmem => 0
  | .smem => 0
  | _ => 0

abbrev hbmTy0_0 (i : Nat) : BufTy := match i % 128 with
  | 0 => ⟨S64x8192x48, .f32⟩
  | 1 => ⟨S1848, .f32⟩
  | 2 => ⟨S64x8192, .i32⟩
  | 3 => ⟨S64, .i32⟩
  | 4 => ⟨S_, .i32⟩
  | 5 => ⟨S64x8192, .i32⟩
  | 6 => ⟨S64x8192, .i1⟩
  | 7 => ⟨S_, .i32⟩
  | 8 => ⟨S_, .i32⟩
  | 9 => ⟨S64x8192, .i32⟩
  | 10 => ⟨S64x8192, .i32⟩
  | 11 => ⟨S64x8192, .i32⟩
  | 12 => ⟨S64x8192, .i32⟩
  | 13 => ⟨S64x8192, .i32⟩
  | 14 => ⟨S64x8192, .i32⟩
  | 15 => ⟨S64x8192, .i32⟩
  | 16 => ⟨S64x4096, .i32⟩
  | 17 => ⟨S_, .i32⟩
  | 18 => ⟨S64x4096, .i32⟩
  | 19 => ⟨S64x4096, .i1⟩
  | 20 => ⟨S_, .i32⟩
  | 21 => ⟨S64x4096, .i32⟩
  | 22 => ⟨S64x4096, .i32⟩
  | 23 => ⟨S64x4096, .i32⟩
  | 24 => ⟨S64x4096x1, .i32⟩
  | 25 => ⟨S1, .i32⟩
  | 26 => ⟨S_, .i32⟩
  | 27 => ⟨S64x4096x1, .i32⟩
  | 28 => ⟨S64x4096x1, .i1⟩
  | 29 => ⟨S1x1x1, .i32⟩
  | 30 => ⟨S64x4096x1, .i32⟩
  | 31 => ⟨S64x4096x1, .i1⟩
  | 32 => ⟨S64x4096x1, .i1⟩
  | 33 => ⟨S_, .i1⟩
  | 34 => ⟨S64x4096, .i1⟩
  | 35 => ⟨S64x4096, .i32⟩
  | 36 => ⟨S_, .i32⟩
  | 37 => ⟨S64x4096, .i32⟩
  | 38 => ⟨S64x4096, .i32⟩
  | 39 => ⟨S64x4096x1, .i32⟩
  | 40 => ⟨S_, .i32⟩
  | 41 => ⟨S64x4096x1, .i32⟩
  | 42 => ⟨S64x4096x1, .i1⟩
  | 43 => ⟨S_, .i32⟩
  | 44 => ⟨S64x4096x1, .i32⟩
  | 45 => ⟨S64x4096x1, .i32⟩
  | 46 => ⟨S64x4096x1, .i32⟩
  | 47 => ⟨S1, .i32⟩
  | 48 => ⟨S_, .i32⟩
  | 49 => ⟨S64x4096x1, .i32⟩
  | 50 => ⟨S64x4096x1, .i1⟩
  | 51 => ⟨S1x1x1, .i32⟩
  | 52 => ⟨S64x4096x1, .i32⟩
  | 53 => ⟨S64x4096x1, .i1⟩
  | 54 => ⟨S64x4096x1, .i1⟩
  | 55 => ⟨S_, .i1⟩
  | 56 => ⟨S64x4096, .i1⟩
  | 57 => ⟨S64x4096x48, .f32⟩
  | 58 => ⟨S64x4096x48, .i1⟩
  | 59 => ⟨S_, .f32⟩
  | 60 => ⟨S64x4096x48, .f32⟩
  | 61 => ⟨S64x4096x48, .f32⟩
  | 62 => ⟨S64x4096x1, .i32⟩
  | 63 => ⟨S_, .i32⟩
  | 64 => ⟨S64x4096x1, .i32⟩
  | 65 => ⟨S64x4096x1, .i1⟩
  | 66 => ⟨S_, .i32⟩
  | 67 => ⟨S64x4096x1, .i32⟩
  | 68 => ⟨S64x4096x1, .i32⟩
  | 69 => ⟨S64x4096x1, .i32⟩
  | 70 => ⟨S64x4096x1x1, .i32⟩
  | 71 => ⟨S1, .i32⟩
  | 72 => ⟨S_, .i32⟩
  | 73 => ⟨S64x4096x1x1, .i32⟩
  | 74 => ⟨S64x4096x1x1, .i1⟩
  | 75 => ⟨S1x1x1x1, .i32⟩
  | 76 => ⟨S64x4096x1x1, .i32⟩
  | 77 => ⟨S64x4096x1x1, .i1⟩
  | 78 => ⟨S64x4096x1x1, .i1⟩
  | 79 => ⟨S_, .i1⟩
  | 80 => ⟨S64x4096x1, .i1⟩
  | 81 => ⟨S64x4096x1, .f32⟩
  | 82 => ⟨S_, .f32⟩
  | 83 => ⟨S64x4096x1, .f32⟩
  | 84 => ⟨S64x4096x1, .f32⟩
  | 85 => ⟨S64x4096, .f32⟩
  | 86 => ⟨S42, .f32⟩
  | 87 => ⟨S_, .f32⟩
  | 88 => ⟨S_, .f32⟩
  | 89 => ⟨S_, .f32⟩
  | 90 => ⟨S_, .f32⟩
  | 91 => ⟨S1, .f32⟩
  | 92 => ⟨S42, .f32⟩
  | 93 => ⟨S42, .f32⟩
  | 94 => ⟨S42, .f32⟩
  | 95 => ⟨S_, .f32⟩
  | 96 => ⟨S_, .f32⟩
  | 97 => ⟨S1, .f32⟩
  | 98 => ⟨S1, .f32⟩
  | 99 => ⟨S42, .f32⟩
  | 100 => ⟨S42, .f32⟩
  | 101 => ⟨S1806, .f32⟩
  | 102 => ⟨S42x43, .f32⟩
  | 103 => ⟨S_, .f32⟩
  | 104 => ⟨S42, .f32⟩
  | 105 => ⟨S_, .f32⟩
  | 106 => ⟨S42, .f32⟩
  | 107 => ⟨S42, .f32⟩
  | 108 => ⟨S42x1, .f32⟩
  | 109 => ⟨S42x43, .f32⟩
  | 110 => ⟨S42x43, .f32⟩
  | 111 => ⟨S42x43, .f32⟩
  | 112 => ⟨S_, .f32⟩
  | 113 => ⟨S42, .f32⟩
  | 114 => ⟨S42x1, .f32⟩
  | 115 => ⟨S42x1, .f32⟩
  | 116 => ⟨S42x43, .f32⟩
  | 117 => ⟨S42x43, .f32⟩
  | 118 => ⟨S42x42, .f32⟩
  | 119 => ⟨S42x1, .f32⟩
  | 120 => ⟨S42, .f32⟩
  | 121 => ⟨S_, .i32⟩
  | 122 => ⟨S64x4096, .i32⟩
  | 123 => ⟨S64x4096, .i32⟩
  | 124 => ⟨S64x1, .i32⟩
  | 125 => ⟨S64, .i32⟩
  | 126 => ⟨S_, .i32⟩
  | 127 => ⟨S64, .i32⟩
  | _ => ⟨S64x8192x48, .f32⟩

abbrev hbmTy0_1 (i : Nat) : BufTy := match i % 128 with
  | 0 => ⟨S64, .i1⟩
  | 1 => ⟨S_, .i32⟩
  | 2 => ⟨S64, .i32⟩
  | 3 => ⟨S64, .i32⟩
  | 4 => ⟨S64, .i32⟩
  | 5 => ⟨S64x1, .i32⟩
  | 6 => ⟨S64, .f32⟩
  | 7 => ⟨S64x4095, .i32⟩
  | 8 => ⟨S64x4095, .i32⟩
  | 9 => ⟨S_, .i32⟩
  | 10 => ⟨S64x4095, .i32⟩
  | 11 => ⟨S64x4095, .i1⟩
  | 12 => ⟨S_, .i32⟩
  | 13 => ⟨S64x4095, .i32⟩
  | 14 => ⟨S64x4095, .i32⟩
  | 15 => ⟨S64x4095, .i32⟩
  | 16 => ⟨S_, .i32⟩
  | 17 => ⟨S64x4095, .i32⟩
  | 18 => ⟨S64x4095, .i1⟩
  | 19 => ⟨S_, .i32⟩
  | 20 => ⟨S64x4095, .i32⟩
  | 21 => ⟨S64x4095, .i32⟩
  | 22 => ⟨S64x4095, .i32⟩
  | 23 => ⟨S64x4095x1, .i32⟩
  | 24 => ⟨S64x4095x1, .i32⟩
  | 25 => ⟨S64x4095x2, .i32⟩
  | 26 => ⟨S64x4095, .f32⟩
  | 27 => ⟨S_, .f32⟩
  | 28 => ⟨S64, .f32⟩
  | 29 => ⟨S64, .f32⟩
  | 30 => ⟨S64x1, .i32⟩
  | 31 => ⟨S64, .i32⟩
  | 32 => ⟨S_, .i32⟩
  | 33 => ⟨S64, .i32⟩
  | 34 => ⟨S64, .i1⟩
  | 35 => ⟨S_, .i32⟩
  | 36 => ⟨S64, .i32⟩
  | 37 => ⟨S64, .i32⟩
  | 38 => ⟨S64, .i32⟩
  | 39 => ⟨S64x1, .i32⟩
  | 40 => ⟨S64, .f32⟩
  | 41 => ⟨S64, .f32⟩
  | 42 => ⟨S_, .f32⟩
  | 43 => ⟨S64, .f32⟩
  | 44 => ⟨S64, .f32⟩
  | 45 => ⟨S64x8192, .i32⟩
  | 46 => ⟨S_, .i32⟩
  | 47 => ⟨S_, .i32⟩
  | 48 => ⟨S_, .f32⟩
  | 49 => ⟨S_, .f32⟩
  | 50 => ⟨S_, .f32⟩
  | 51 => ⟨S_, .f32⟩
  | _ => ⟨S64x8192x48, .f32⟩

abbrev hbmTy (i : Nat) : BufTy := match i / 128 with
  | 0 => hbmTy0_0 i
  | 1 => hbmTy0_1 i
  | _ => ⟨S64x8192x48, .f32⟩

abbrev bufTy : (tb : Table) → Fin (tcTables nBuf tb) → BufTy
  | .hbm, ⟨i, _⟩ => hbmTy i
  | _, _ => ⟨S64x8192x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_call1_v0 : Ref sig .tc := ⟨.hbm, 13, rfl⟩
abbrev main_call1_v1_0 : Ref sig .tc := ⟨.hbm, 14, rfl⟩
abbrev main_v4 : Ref sig .tc := ⟨.hbm, 15, rfl⟩
abbrev main_v5 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_c_4 : Ref sig .tc := ⟨.hbm, 36, rfl⟩
abbrev main_call2_v14 : Ref sig .tc := ⟨.hbm, 37, rfl⟩
abbrev main_v6 : Ref sig .tc := ⟨.hbm, 38, rfl⟩
abbrev main_v7 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_c_1 : Ref sig .tc := ⟨.hbm, 47, rfl⟩
abbrev main_call3_c_2 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_c_3 : Ref sig .tc := ⟨.hbm, 55, rfl⟩
abbrev main_call3_v11 : Ref sig .tc := ⟨.hbm, 56, rfl⟩
abbrev main_call3_v12 : Ref sig .tc := ⟨.hbm, 57, rfl⟩
abbrev main_call3_v13 : Ref sig .tc := ⟨.hbm, 58, rfl⟩
abbrev main_call3_cst : Ref sig .tc := ⟨.hbm, 59, rfl⟩
abbrev main_call3_v14 : Ref sig .tc := ⟨.hbm, 60, rfl⟩
abbrev main_v8 : Ref sig .tc := ⟨.hbm, 61, rfl⟩
abbrev main_v9 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_c_1 : Ref sig .tc := ⟨.hbm, 71, rfl⟩
abbrev main_call4_c_2 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_3 : Ref sig .tc := ⟨.hbm, 79, rfl⟩
abbrev main_call4_v12 : Ref sig .tc := ⟨.hbm, 80, rfl⟩
abbrev main_call4_v13 : Ref sig .tc := ⟨.hbm, 81, rfl⟩
abbrev main_call4_cst : Ref sig .tc := ⟨.hbm, 82, rfl⟩
abbrev main_call4_v14 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_call5_cst : Ref sig .tc := ⟨.hbm, 87, rfl⟩
abbrev main_call5_v0 : Ref sig .tc := ⟨.hbm, 88, rfl⟩
abbrev main_call5_cst_0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_cst_1 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_v13 : Ref sig .tc := ⟨.hbm, 100, rfl⟩
abbrev main_v14 : Ref sig .tc := ⟨.hbm, 101, rfl⟩
abbrev main_v15 : Ref sig .tc := ⟨.hbm, 102, rfl⟩
abbrev main_call6_cst : Ref sig .tc := ⟨.hbm, 103, rfl⟩
abbrev main_call6_v0 : Ref sig .tc := ⟨.hbm, 104, rfl⟩
abbrev main_call6_cst_0 : Ref sig .tc := ⟨.hbm, 105, rfl⟩
abbrev main_call6_v1 : Ref sig .tc := ⟨.hbm, 106, rfl⟩
abbrev main_call6_v2 : Ref sig .tc := ⟨.hbm, 107, rfl⟩
abbrev main_call6_v3 : Ref sig .tc := ⟨.hbm, 108, rfl⟩
abbrev main_call6_v4 : Ref sig .tc := ⟨.hbm, 109, rfl⟩
abbrev main_call6_v5 : Ref sig .tc := ⟨.hbm, 110, rfl⟩
abbrev main_call6_v6 : Ref sig .tc := ⟨.hbm, 111, rfl⟩
abbrev main_call6_cst_1 : Ref sig .tc := ⟨.hbm, 112, rfl⟩
abbrev main_call6_v7 : Ref sig .tc := ⟨.hbm, 113, rfl⟩
abbrev main_call6_v8 : Ref sig .tc := ⟨.hbm, 114, rfl⟩
abbrev main_call6_v9 : Ref sig .tc := ⟨.hbm, 115, rfl⟩
abbrev main_call6_v10 : Ref sig .tc := ⟨.hbm, 116, rfl⟩
abbrev main_v16 : Ref sig .tc := ⟨.hbm, 117, rfl⟩
abbrev main_v17 : Ref sig .tc := ⟨.hbm, 118, rfl⟩
abbrev main_v18 : Ref sig .tc := ⟨.hbm, 119, rfl⟩
abbrev main_v19 : Ref sig .tc := ⟨.hbm, 120, rfl⟩
abbrev main_c_2 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_c_3 : Ref sig .tc := ⟨.hbm, 126, rfl⟩
abbrev main_v24 : Ref sig .tc := ⟨.hbm, 127, rfl⟩
abbrev main_v25 : Ref sig .tc := ⟨.hbm, 128, rfl⟩
abbrev main_c_4 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_c_5 : Ref sig .tc := ⟨.hbm, 137, rfl⟩
abbrev main_v33 : Ref sig .tc := ⟨.hbm, 138, rfl⟩
abbrev main_v34 : Ref sig .tc := ⟨.hbm, 139, rfl⟩
abbrev main_c_6 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_c_7 : Ref sig .tc := ⟨.hbm, 144, rfl⟩
abbrev main_v38 : Ref sig .tc := ⟨.hbm, 145, rfl⟩
abbrev main_v39 : Ref sig .tc := ⟨.hbm, 146, rfl⟩
abbrev main_c_8 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_cst : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_c_9 : Ref sig .tc := ⟨.hbm, 160, rfl⟩
abbrev main_v51 : Ref sig .tc := ⟨.hbm, 161, rfl⟩
abbrev main_v52 : Ref sig .tc := ⟨.hbm, 162, rfl⟩
abbrev main_c_10 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_cst_11 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_c_12 : Ref sig .tc := ⟨.hbm, 174, rfl⟩
abbrev main_v62 : Ref sig .tc := ⟨.hbm, 175, rfl⟩
abbrev main_cst_13 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩

abbrev nD : Nat := 1
abbrev τ : Topo := Topo.v7x

variable {F : FTy → Type} [FloatOps F]

class Facts₀ : Prop where
  bcast_S_S64x8192 : S_.BroadcastsInDim S64x8192 (![] : Fin 0 → Fin S64x8192.rank)
  slices_S64x8192_S64x4096_0_0 : S64x8192.Slices ![0, 0] S64x4096
  bcast_S_S64x4096 : S_.BroadcastsInDim S64x4096 (![] : Fin 0 → Fin S64x4096.rank)
  shapeCasts_S64x4096_S64x4096x1 : S64x4096.ShapeCasts S64x4096x1
  bcast_S_S64x4096x1 : S_.BroadcastsInDim S64x4096x1 (![] : Fin 0 → Fin S64x4096x1.rank)
  bcast_S1_S1x1x1_2 : S1.BroadcastsInDim S1x1x1 (![2] : Fin 1 → Fin S1x1x1.rank)
  bcast_S1x1x1_S64x4096x1_0_1_2 : S1x1x1.BroadcastsInDim S64x4096x1 (![0, 1, 2] : Fin 3 → Fin S64x4096x1.rank)
  reducesTo_S64x4096x1_S64x4096_d2 : S64x4096x1.ReducesTo [2] S64x4096
  h_S_ : 0 < S_.numel
  bcast_S64x4096_S64x4096x1_0_1 : S64x4096.BroadcastsInDim S64x4096x1 (![0, 1] : Fin 2 → Fin S64x4096x1.rank)
  bcast_S64x4096_S64x4096x48_0_1 : S64x4096.BroadcastsInDim S64x4096x48 (![0, 1] : Fin 2 → Fin S64x4096x48.rank)
  bcast_S_S64x4096x48 : S_.BroadcastsInDim S64x4096x48 (![] : Fin 0 → Fin S64x4096x48.rank)
  shapeCasts_S64x4096x1_S64x4096x1x1 : S64x4096x1.ShapeCasts S64x4096x1x1
  bcast_S_S64x4096x1x1 : S_.BroadcastsInDim S64x4096x1x1 (![] : Fin 0 → Fin S64x4096x1x1.rank)
  bcast_S1_S1x1x1x1_3 : S1.BroadcastsInDim S1x1x1x1 (![3] : Fin 1 → Fin S1x1x1x1.rank)
  bcast_S1x1x1x1_S64x4096x1x1_0_1_2_3 : S1x1x1x1.BroadcastsInDim S64x4096x1x1 (![0, 1, 2, 3] : Fin 4 → Fin S64x4096x1x1.rank)
  reducesTo_S64x4096x1x1_S64x4096x1_d3 : S64x4096x1x1.ReducesTo [3] S64x4096x1
  shapeCasts_S64x4096x1_S64x4096 : S64x4096x1.ShapeCasts S64x4096
  slices_S1848_S42_0 : S1848.Slices ![0] S42
  reducesTo_S42_S_d0 : S42.ReducesTo [0] S_
  bcast_S_S1 : S_.BroadcastsInDim S1 (![] : Fin 0 → Fin S1.rank)
  bcast_S1_S42_0 : S1.BroadcastsInDim S42 (![0] : Fin 1 → Fin S42.rank)
  slices_S1848_S1806_42 : S1848.Slices ![42] S1806
  shapeCasts_S1806_S42x43 : S1806.ShapeCasts S42x43
  reducesTo_S42x43_S42_d1 : S42x43.ReducesTo [1] S42
  bcast_S_S42 : S_.BroadcastsInDim S42 (![] : Fin 0 → Fin S42.rank)
  bcast_S42_S42x1_0 : S42.BroadcastsInDim S42x1 (![0] : Fin 1 → Fin S42x1.rank)
  bcast_S42x1_S42x43_0_1 : S42x1.BroadcastsInDim S42x43 (![0, 1] : Fin 2 → Fin S42x43.rank)
  slices_S42x43_S42x42_0_0 : S42x43.Slices ![0, 0] S42x42
  slices_S42x43_S42x1_0_42 : S42x43.Slices ![0, 42] S42x1
  shapeCasts_S42x1_S42 : S42x1.ShapeCasts S42
  slices_S64x4096_S64x1_0_0 : S64x4096.Slices ![0, 0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  slices_S64x4096_S64x4095_0_0 : S64x4096.Slices ![0, 0] S64x4095
  slices_S64x4096_S64x4095_0_1 : S64x4096.Slices ![0, 1] S64x4095
  bcast_S_S64x4095 : S_.BroadcastsInDim S64x4095 (![] : Fin 0 → Fin S64x4095.rank)
  bcast_S64x4095_S64x4095x1_0_1 : S64x4095.BroadcastsInDim S64x4095x1 (![0, 1] : Fin 2 → Fin S64x4095x1.rank)
  concatenates_S64x4095x1_S64x4095x1_S64x4095x2_d2 : Shape.Concatenates [S64x4095x1, S64x4095x1] S64x4095x2 2
  reducesTo_S64x4095_S64_d1 : S64x4095.ReducesTo [1] S64
  slices_S64x4096_S64x1_0_4095 : S64x4096.Slices ![0, 4095] S64x1
  reducesTo_S64x4096_S64_d1 : S64x4096.ReducesTo [1] S64
  natLt_1_32 : 1 < 32
  reducesTo_S64x8192_S_d0_1 : S64x8192.ReducesTo [0, 1] S_
  reducesTo_S64_S_d0 : S64.ReducesTo [0] S_
  gather_S64x8192_S64x4096x1_S64x4096_n_1_0_0_1_2_11_wf : GatherDims.WF S64x8192 S64x4096x1 S64x4096 [] [1] [0] [1] [0] 2 ![1, 1]
  gather_S64x8192x48_S64x4096x1_S64x4096x48_2_1_0_0_1_2_1148_wf : GatherDims.WF S64x8192x48 S64x4096x1 S64x4096x48 [2] [1] [0] [1] [0] 2 ![1, 1, 48]
  gather_S64x4096x48_S64x4096x1x1_S64x4096x1_n_2_01_01_2_3_111_wf : GatherDims.WF S64x4096x48 S64x4096x1x1 S64x4096x1 [] [2] [0, 1] [2] [0, 1] 3 ![1, 1, 1]
  gather_S42_S64x1_S64_n_0_n_n_0_1_1_wf : GatherDims.WF S42 S64x1 S64 [] [0] [] [0] [] 1 ![1]
  gather_S42x42_S64x4095x2_S64x4095_n_01_n_n_01_2_11_wf : GatherDims.WF S42x42 S64x4095x2 S64x4095 [] [0, 1] [] [0, 1] [] 2 ![1, 1]

variable [Facts₀]

def comparator_i32_i32_d1 : BitVec 32 × BitVec 32 → BitVec 32 × BitVec 32 → BitVec 1 :=
  fun l r =>
    let v2 := IntOp.cmpi .slt l.1 r.1
    v2
def gather_S64x8192_S64x4096x1_S64x4096_n_1_0_0_1_2_11 : GatherDims S64x8192 S64x4096x1 S64x4096 where
  offsetDims := []
  collapsedSliceDims := [1]
  operandBatchingDims := [0]
  startIndicesBatchingDims := [0]
  startIndexMap := [1]
  indexVectorDim := 2
  sliceSizes := ![1, 1]
  wf := gather_S64x8192_S64x4096x1_S64x4096_n_1_0_0_1_2_11_wf
def gather_S64x8192x48_S64x4096x1_S64x4096x48_2_1_0_0_1_2_1148 : GatherDims S64x8192x48 S64x4096x1 S64x4096x48 where
  offsetDims := [2]
  collapsedSliceDims := [1]
  operandBatchingDims := [0]
  startIndicesBatchingDims := [0]
  startIndexMap := [1]
  indexVectorDim := 2
  sliceSizes := ![1, 1, 48]
  wf := gather_S64x8192x48_S64x4096x1_S64x4096x48_2_1_0_0_1_2_1148_wf
def gather_S64x4096x48_S64x4096x1x1_S64x4096x1_n_2_01_01_2_3_111 : GatherDims S64x4096x48 S64x4096x1x1 S64x4096x1 where
  offsetDims := []
  collapsedSliceDims := [2]
  operandBatchingDims := [0, 1]
  startIndicesBatchingDims := [0, 1]
  startIndexMap := [2]
  indexVectorDim := 3
  sliceSizes := ![1, 1, 1]
  wf := gather_S64x4096x48_S64x4096x1x1_S64x4096x1_n_2_01_01_2_3_111_wf
def gather_S42_S64x1_S64_n_0_n_n_0_1_1 : GatherDims S42 S64x1 S64 where
  offsetDims := []
  collapsedSliceDims := [0]
  operandBatchingDims := []
  startIndicesBatchingDims := []
  startIndexMap := [0]
  indexVectorDim := 1
  sliceSizes := ![1]
  wf := gather_S42_S64x1_S64_n_0_n_n_0_1_1_wf
def gather_S42x42_S64x4095x2_S64x4095_n_01_n_n_01_2_11 : GatherDims S42x42 S64x4095x2 S64x4095 where
  offsetDims := []
  collapsedSliceDims := [0, 1]
  operandBatchingDims := []
  startIndicesBatchingDims := []
  startIndexMap := [0, 1]
  indexVectorDim := 2
  sliceSizes := ![1, 1]
  wf := gather_S42x42_S64x4095x2_S64x4095_n_01_n_n_01_2_11_wf

class Facts : Prop extends Facts₀ where

variable [Facts]
-- ==== Proof.KFrame.lean ====
import proofs.«417459_j46256797778252_2_alg».proof.Proof.Gen.Kernel.Launch
import proofs.«417459_j46256797778252_2_alg».proof.Proof.Gen.Kernel.Skeleton
import proofs.«417459_j46256797778252_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The host operations after the region, stretch by stretch: 127 operations in nine stretches. -/
abbrev tailOps : List (List (HloOp τ sig (Elt F))) := [hostOps1, hostOps1_1, hostOps1_2, hostOps1_3, hostOps1_4, hostOps1_5, hostOps1_6, hostOps1_7, hostOps1_8]

/-- Core `c`'s TensorCore buffer contents when the region is entered, as a valuation: the launch contents after the
    three host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three operations before the region write their own result buffers only: none of the four argument arrays. -/
theorem hostOps0_keeps (b : Ref sig .tc) (hb : b ∈ [main_arg0, main_arg1, main_arg2, main_arg3]) :
    ∀ op ∈ (List.flatten [hostOps0] : List (HloOp τ sig (Elt F))), Proc.devRef .tc b ∉ op.writes :=
  List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false] at hb
    rcases hb with rfl | rfl | rfl | rfl
    all_goals
      repeat' apply And.intro
      all_goals exact StableHlo.devRef_ne_of_ne (by decide))

/-- So the region finds each argument array as launched. -/
theorem V_main_arg0 (c : Dev nD) : V m c main_arg0 = m ((c : Thread nD τ).loc main_arg0) :=
  StableHlo.after_of_forall_not_mem (b := Proc.devRef .tc main_arg0) _ _ (hostOps0_keeps main_arg0 (by decide))
theorem V_main_arg1 (c : Dev nD) : V m c main_arg1 = m ((c : Thread nD τ).loc main_arg1) :=
  StableHlo.after_of_forall_not_mem (b := Proc.devRef .tc main_arg1) _ _ (hostOps0_keeps main_arg1 (by decide))
theorem V_main_arg2 (c : Dev nD) : V m c main_arg2 = m ((c : Thread nD τ).loc main_arg2) :=
  StableHlo.after_of_forall_not_mem (b := Proc.devRef .tc main_arg2) _ _ (hostOps0_keeps main_arg2 (by decide))
theorem V_main_arg3 (c : Dev nD) : V m c main_arg3 = m ((c : Thread nD τ).loc main_arg3) :=
  StableHlo.after_of_forall_not_mem (b := Proc.devRef .tc main_arg3) _ _ (hostOps0_keeps main_arg3 (by decide))

/-! ## What the output's staging buffer holds after each point -/

/-- THE ACCUMULATION. What the output's staging buffer holds after the body at position `n`: at a point with
    `k = 0` (`n % 4 = 0`) the partial sum of the point's blocks over the zero vector the body has just stored; at any other
    point the partial sum over what the point before left (the buffer is carried, not written back, between). -/
def outsAt0 (c : Dev nD) : (n : ℕ) → n < cfg0.N → Vec F S8x1 .f32
  | 0, hn => k0_pay2 (iblk m c 0 ⟨0, hn⟩) (iblk m c 1 ⟨0, hn⟩) (k0_pay1 (F := F))
  | n + 1, hn =>
    if h0 : (n + 1) % 4 = 0 then
      k0_pay2 (iblk m c 0 ⟨n + 1, hn⟩) (iblk m c 1 ⟨n + 1, hn⟩) (k0_pay1 (F := F))
    else
      k0_pay2 (iblk m c 0 ⟨n + 1, hn⟩) (iblk m c 1 ⟨n + 1, hn⟩) (outsAt0 c n (Nat.lt_of_succ_lt hn))

/-- `outsAt0` at a point with `k = 0`: the partial sum over zeros. -/
theorem outsAt0_A (c : Dev nD) (t : Fin cfg0.N) (h0 : t.val % 4 = 0) :
    outsAt0 m c t.val t.isLt = k0_pay2 (iblk m c 0 t) (iblk m c 1 t) (k0_pay1 (F := F)) := by
  obtain ⟨n, hn⟩ := t
  cases n with
  | zero => exact rfl
  | succ n => exact (dif_pos h0).trans rfl

/-- `outsAt0` at a point with `k ≠ 0`: the partial sum over what the point before left. -/
theorem outsAt0_B (c : Dev nD) (t : Fin cfg0.N) (h0 : ¬ t.val % 4 = 0) :
    outsAt0 m c t.val t.isLt = k0_pay2 (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the output's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt0 m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt0 m c t.val t.isLt := by dsimp only [dats]

/-! ## @main around the region -/

/-- The arrays the frame speaks of: the four arguments and the region's result array. -/
abbrev keptRefs : List (Ref sig .tc) := [main_arg0, main_arg1, main_arg2, main_arg3, main_v2]

/-- The three operations before the region allocate nothing. -/
theorem hostOps0_fresh : (hostOps0 : List (HloOp τ sig (Elt F))).Forall fun op => op.fresh = ∅ := by
  simp only [List.Forall]; repeat' constructor

/-- The operations of this stretch allocate nothing, -/
theorem hostOps1_fresh : (hostOps1 : List (HloOp τ sig (Elt F))).Forall fun op => op.fresh = ∅ := by
  simp only [List.Forall]; repeat' constructor
/-- and each writes its own result buffer only, which is none of the arrays the frame speaks of. -/
theorem hostOps1_keeps : (hostOps1 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_1_fresh : (hostOps1_1 : List (HloOp τ sig (Elt F))).Forall fun op => op.fresh = ∅ := by
  simp only [List.Forall]; repeat' constructor
/-- and each writes its own result buffer only, which is none of the arrays the frame speaks of. -/
theorem hostOps1_1_keeps : (hostOps1_1 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_2_fresh : (hostOps1_2 : List (HloOp τ sig (Elt F))).Forall fun op => op.fresh = ∅ := by
  simp only [List.Forall]; repeat' constructor
/-- and each writes its own result buffer only, which is none of the arrays the frame speaks of. -/
theorem hostOps1_2_keeps : (hostOps1_2 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_3_fresh : (hostOps1_3 : List (HloOp τ sig (Elt F))).Forall fun op => op.fresh = ∅ := by
  simp only [List.Forall]; repeat' constructor
/-- and each writes its own result buffer only, which is none of the arrays the frame speaks of. -/
theorem hostOps1_3_keeps : (hostOps1_3 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_4_fresh : (hostOps1_4 : List (HloOp τ sig (Elt F))).Forall fun op => op.fresh = ∅ := by
  simp only [List.Forall]; repeat' constructor
/-- and each writes its own result buffer only, which is none of the arrays the frame speaks of. -/
theorem hostOps1_4_keeps : (hostOps1_4 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_5_fresh : (hostOps1_5 : List (HloOp τ sig (Elt F))).Forall fun op => op.fresh = ∅ := by
  simp only [List.Forall]; repeat' constructor
/-- and each writes its own result buffer only, which is none of the arrays the frame speaks of. -/
theorem hostOps1_5_keeps : (hostOps1_5 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_6_fresh : (hostOps1_6 : List (HloOp τ sig (Elt F))).Forall fun op => op.fresh = ∅ := by
  simp only [List.Forall]; repeat' constructor
/-- and each writes its own result buffer only, which is none of the arrays the frame speaks of. -/
theorem hostOps1_6_keeps : (hostOps1_6 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_7_fresh : (hostOps1_7 : List (HloOp τ sig (Elt F))).Forall fun op => op.fresh = ∅ := by
  simp only [List.Forall]; repeat' constructor
/-- and each writes its own result buffer only, which is none of the arrays the frame speaks of. -/
theorem hostOps1_7_keeps : (hostOps1_7 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_8_fresh : (hostOps1_8 : List (HloOp τ sig (Elt F))).Forall fun op => op.fresh = ∅ := by
  simp only [List.Forall]; repeat' constructor
/-- and each writes its own result buffer only, which is none of the arrays the frame speaks of. -/
theorem hostOps1_8_keeps : (hostOps1_8 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- No operation after the region writes an array the frame speaks of. -/
theorem tail_keeps : ∀ ops ∈ (tailOps : List (List (HloOp τ sig (Elt F)))), ∀ op ∈ ops, ∀ b ∈ keptRefs, Proc.devRef .tc b ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- @main around the region: the three host operations before it, the region, the nine stretches after it: it
    reduces to the region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And write no array of the pipeline: the three staged arrays are among the arrays the frame speaks of. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_keeps ops hops op hop (Pipeline.arrRef spec0 w) (by fin_cases w <;> decide)

/-! ## The body's branch condition -/

/-- The condition of the body's `scf.if` (`k == 0`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The kernel body on any whole staging memrefs -/

set_option maxHeartbeats 1000000 in
/-- CASE A (`k == 0`). What the body's stores leave in the output's staging memref, as pieces (last first), WITH the proof that on
    whole staging memrefs, the inputs' at their contents and the output's at anything, the body runs to the continuation
    holding the inputs' as they were and the output's buffer with the pieces written. -/
noncomputable def kernelRun0_A (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : cond0_0 i)
    (x0 : Vec F S8x2048x48 .f32) (x1 : Vec F S8x2048 .i32) :
    { L2 : List (View.Piece (Elt F) S8x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__emis_kernel i arg2 harg2 arg3 harg3 arg4 harg4) K } := by
  refine ⟨?_, fun E K => ?run⟩
  case run =>
    simp only [cc0__emis_kernel_eq_skeleton]; unfold cc0__emis_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- CASE B (`k ≠ 0`). The same with the output's staging memref at its running contents `xo2`, which the body reads before it
    stores. -/
noncomputable def kernelRun0_B (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : ¬cond0_0 i)
    (x0 : Vec F S8x2048x48 .f32) (x1 : Vec F S8x2048 .i32) (xo2 : Vec F S8x1 .f32) :
    { L2 : List (View.Piece (Elt F) S8x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__emis_kernel i arg2 harg2 arg3 harg3 arg4 harg4) K } := by
  refine ⟨?_, fun E K => ?run⟩
  case run =>
    simp only [cc0__emis_kernel_eq_skeleton]; unfold cc0__emis_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the runs leave in the output's buffer -/

/-- The zero offsets of a whole-buffer access of the output's block. -/
theorem hz2 : (![0, 0] : Fin 2 → Nat) = fun _ => 0 := by funext a; fin_cases a <;> rfl
theorem hz3 : (![0, 0, 0] : Fin 3 → Nat) = fun _ => 0 := by funext a; fin_cases a <;> rfl

/-- Case A's pieces cover the output's block. -/
theorem cover0_A (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : cond0_0 i)
    (x0 : Vec F S8x2048x48 .f32) (x1 : Vec F S8x2048 .i32) (y : S8x1.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S8x1.size (by sl_kernel_rfl) y

/-- Case B's pieces cover the output's block. -/
theorem cover0_B (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : ¬cond0_0 i)
    (x0 : Vec F S8x2048x48 .f32) (x1 : Vec F S8x2048 .i32) (xo2 : Vec F S8x1 .f32) (y : S8x1.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S8x1.size (by sl_kernel_rfl) y

/-- What case A leaves, read back through any view over any earlier contents: the partial sum over the zero vector. -/
theorem out0_A_eq (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : cond0_0 i)
    (x0 : Vec F S8x2048x48 .f32) (x1 : Vec F S8x2048 .i32) (v : View sig .tc .vmem S8x1 .f32) (f : v.ty.Contents (Elt F)) :
    v.read (Elt F) (v.writes (Elt F) f (kernelRun0_A c i arg2 harg2 arg3 harg3 arg4 harg4 hc0 x0 x1).1) = k0_pay2 x0 x1 (k0_pay1 (F := F)) := by
  rw [View.read_writes_eq_canon _ _ _ (cover0_A c i arg2 harg2 arg3 harg3 arg4 harg4 hc0 x0 x1)]
  unfold kernelRun0_A
  dsimp only
  sl_unfold_words
  rw [View.canon_cons_unit_zero (S := S8x1) hz2]
  simp only [View.readAt_eq_ld, harg2.read_unread, harg3.read_unread, View.ld_unit_zero (S := S8x2048x48) hz3,
    View.ld_unit_zero (S := S8x2048) hz2, View.readCov_unit_zero (S := S8x1) _ hz2]

/-- What case B leaves: the partial sum over the running contents. -/
theorem out0_B_eq (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : ¬cond0_0 i)
    (x0 : Vec F S8x2048x48 .f32) (x1 : Vec F S8x2048 .i32) (xo2 : Vec F S8x1 .f32) (v : View sig .tc .vmem S8x1 .f32) (f : v.ty.Contents (Elt F)) :
    v.read (Elt F) (v.writes (Elt F) f (kernelRun0_B c i arg2 harg2 arg3 harg3 arg4 harg4 hc0 x0 x1 xo2).1) = k0_pay2 x0 x1 xo2 := by
  rw [View.read_writes_eq_canon _ _ _ (cover0_B c i arg2 harg2 arg3 harg3 arg4 harg4 hc0 x0 x1 xo2)]
  unfold kernelRun0_B
  dsimp only
  sl_unfold_words
  rw [View.canon_unit_zero (S := S8x1) hz2]
  simp only [View.readAt_eq_ld, harg2.read_unread, harg3.read_unread, harg4.read_unread, View.ld_unit_zero (S := S8x2048x48) hz3,
    View.ld_unit_zero (S := S8x2048) hz2, View.ld_unit_zero (S := S8x1) hz2]

/-! ## The staging buffers at a point -/

/-- Each window's current staging memref at point `t`, spelled as the pipeline passes it, and its wholeness. -/
abbrev ms0_0 (t : Fin cfg0.N) : Memref sig .tc .vmem S8x2048x48 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1 .f32 := win0_2.stage (cfg0.slots t 2)
abbrev hs0_2 (t : Fin cfg0.N) : (ms0_2 t).IsWhole := hstage0_2 ((cfg0.slots t 2).cast nbuf0_2)

/-- Each input's current staging buffer holds its block at every point, fetched there or not: the windows are uncut
    and never idle, and the body leaves the blocks in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- At a point with `k ≠ 0` the output's current staging buffer holds what the body left at the point before: the point is
    not the first, the buffer was not written back between (that happens after `k = 3` only), the window is live and
    uncut. -/
theorem before0_2_B (c : Dev nD) (t : Fin cfg0.N) (h0 : ¬t.val % 4 = 0) (d) :
    (dats m 0 c).before 2 t d = outsAt0 m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; the closed form says which case the point is in; at a
    point with `k ≠ 0` the output's buffer holds what the point before left; so the case's run applies, and what it leaves
    reads back as `outsAt0`; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 4 = 0
  · rw [outsAt0_A m c t h0]
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact out0_A_eq c _ _ _ _ _ _ _ _ _ _ _ _
  · rw [outsAt0_B m c t h0]
    simp only [before0_2_B m c t h0]
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact out0_B_eq c _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument array no window stages, after the operations that follow the region: none of them writes it, it is no
    array of the pipeline, and the operations before the region did not write it either. -/
theorem tail_main_arg1 (c : Dev nD) : Pipeline.afterTail₀ cfgs (dats m) 0 (V0 m) tailOps c main_arg1 = m ((c : Thread nD τ).loc main_arg1) := by
  unfold Pipeline.afterTail₀
  rw [StableHlo.after_of_forall_not_mem _ _ fun op hop => ?_, Pipeline.withArrays_of_ne _ c (V0 m c) _ main_arg1 (by decide)]
  · exact V_main_arg1 m c
  · obtain ⟨ops, hops, hop'⟩ := List.mem_flatten.mp hop
    exact tail_keeps ops hops op hop' main_arg1 (by decide)
theorem tail_main_arg3 (c : Dev nD) : Pipeline.afterTail₀ cfgs (dats m) 0 (V0 m) tailOps c main_arg3 = m ((c : Thread nD τ).loc main_arg3) := by
  unfold Pipeline.afterTail₀
  rw [StableHlo.after_of_forall_not_mem _ _ fun op hop => ?_, Pipeline.withArrays_of_ne _ c (V0 m c) _ main_arg3 (by decide)]
  · exact V_main_arg3 m c
  · obtain ⟨ops, hops, hop'⟩ := List.mem_flatten.mp hop
    exact tail_keeps ops hops op hop' main_arg3 (by decide)

/-- The frame run's post read at the four argument arrays: a staged input by the library's reading of an input
    window's array, an array no window stages by the post's second clause. -/
theorem args_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).2 main_arg1 (Pipeline.mem_restRefs_of main_arg1 (by decide) (by decide))).trans (tail_main_arg1 m c),
   ((h c).1 1).trans (((dats m 0 c).arrAt_in 1 rfl _).trans ((A_eq m c 1).trans (V_main_arg2 m c))),
   ((h c).2 main_arg3 (Pipeline.mem_restRefs_of main_arg3 (by decide) (by decide))).trans (tail_main_arg3 m c)⟩

/-- The same post read at the program's result: what the operations after the region leave there. -/
theorem res_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v79) = Pipeline.afterTail₀ cfgs (dats m) 0 (V0 m) tailOps c main_v79 :=
  (h c).2 main_v79 (Pipeline.mem_restRefs_of main_v79 (by decide) (by decide))

/-- THE FRAME: the program runs, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c => args_of_post m r h c) (run_main m ρ)

end Cert.Kernel.HF

end
-- ==== Proof.KIFrame.lean ====
import proofs.«417459_j46256797778252_2_alg».proof.Proof.Gen.KernelIdeal.Launch
import proofs.«417459_j46256797778252_2_alg».proof.Proof.Gen.KernelIdeal.Skeleton
import proofs.«417459_j46256797778252_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The host operations after the region, stretch by stretch: 127 operations in nine stretches. -/
abbrev tailOps : List (List (HloOp τ sig (Elt F))) := [hostOps1, hostOps1_1, hostOps1_2, hostOps1_3, hostOps1_4, hostOps1_5, hostOps1_6, hostOps1_7, hostOps1_8]

/-- Core `c`'s TensorCore buffer contents when the region is entered, as a valuation: the launch contents after the
    three host operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three operations before the region write their own result buffers only: none of the four argument arrays. -/
theorem hostOps0_keeps (b : Ref sig .tc) (hb : b ∈ [main_arg0, main_arg1, main_arg2, main_arg3]) :
    ∀ op ∈ (List.flatten [hostOps0] : List (HloOp τ sig (Elt F))), Proc.devRef .tc b ∉ op.writes :=
  List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false] at hb
    rcases hb with rfl | rfl | rfl | rfl
    all_goals
      repeat' apply And.intro
      all_goals exact StableHlo.devRef_ne_of_ne (by decide))

/-- So the region finds each argument array as launched. -/
theorem V_main_arg0 (c : Dev nD) : V m c main_arg0 = m ((c : Thread nD τ).loc main_arg0) :=
  StableHlo.after_of_forall_not_mem (b := Proc.devRef .tc main_arg0) _ _ (hostOps0_keeps main_arg0 (by decide))
theorem V_main_arg1 (c : Dev nD) : V m c main_arg1 = m ((c : Thread nD τ).loc main_arg1) :=
  StableHlo.after_of_forall_not_mem (b := Proc.devRef .tc main_arg1) _ _ (hostOps0_keeps main_arg1 (by decide))
theorem V_main_arg2 (c : Dev nD) : V m c main_arg2 = m ((c : Thread nD τ).loc main_arg2) :=
  StableHlo.after_of_forall_not_mem (b := Proc.devRef .tc main_arg2) _ _ (hostOps0_keeps main_arg2 (by decide))
theorem V_main_arg3 (c : Dev nD) : V m c main_arg3 = m ((c : Thread nD τ).loc main_arg3) :=
  StableHlo.after_of_forall_not_mem (b := Proc.devRef .tc main_arg3) _ _ (hostOps0_keeps main_arg3 (by decide))

/-! ## What the output's staging buffer holds after each point -/

/-- THE ACCUMULATION. What the output's staging buffer holds after the body at position `n`: at a point with
    `k = 0` (`n % 4 = 0`) the partial sum of the point's blocks over the zero vector the body has just stored; at any other
    point the partial sum over what the point before left (the buffer is carried, not written back, between). -/
def outsAt0 (c : Dev nD) : (n : ℕ) → n < cfg0.N → Vec F S8x1 .f32
  | 0, hn => k0_pay2 (iblk m c 0 ⟨0, hn⟩) (iblk m c 1 ⟨0, hn⟩) (k0_pay1 (F := F))
  | n + 1, hn =>
    if h0 : (n + 1) % 4 = 0 then
      k0_pay2 (iblk m c 0 ⟨n + 1, hn⟩) (iblk m c 1 ⟨n + 1, hn⟩) (k0_pay1 (F := F))
    else
      k0_pay2 (iblk m c 0 ⟨n + 1, hn⟩) (iblk m c 1 ⟨n + 1, hn⟩) (outsAt0 c n (Nat.lt_of_succ_lt hn))

/-- `outsAt0` at a point with `k = 0`: the partial sum over zeros. -/
theorem outsAt0_A (c : Dev nD) (t : Fin cfg0.N) (h0 : t.val % 4 = 0) :
    outsAt0 m c t.val t.isLt = k0_pay2 (iblk m c 0 t) (iblk m c 1 t) (k0_pay1 (F := F)) := by
  obtain ⟨n, hn⟩ := t
  cases n with
  | zero => exact rfl
  | succ n => exact (dif_pos h0).trans rfl

/-- `outsAt0` at a point with `k ≠ 0`: the partial sum over what the point before left. -/
theorem outsAt0_B (c : Dev nD) (t : Fin cfg0.N) (h0 : ¬ t.val % 4 = 0) :
    outsAt0 m c t.val t.isLt = k0_pay2 (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the output's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt0 m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt0 m c t.val t.isLt := by dsimp only [dats]

/-! ## @main around the region -/

/-- The arrays the frame speaks of: the four arguments and the region's result array. -/
abbrev keptRefs : List (Ref sig .tc) := [main_arg0, main_arg1, main_arg2, main_arg3, main_v2]

/-- The three operations before the region allocate nothing. -/
theorem hostOps0_fresh : (hostOps0 : List (HloOp τ sig (Elt F))).Forall fun op => op.fresh = ∅ := by
  simp only [List.Forall]; repeat' constructor

/-- The operations of this stretch allocate nothing, -/
theorem hostOps1_fresh : (hostOps1 : List (HloOp τ sig (Elt F))).Forall fun op => op.fresh = ∅ := by
  simp only [List.Forall]; repeat' constructor
/-- and each writes its own result buffer only, which is none of the arrays the frame speaks of. -/
theorem hostOps1_keeps : (hostOps1 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_1_fresh : (hostOps1_1 : List (HloOp τ sig (Elt F))).Forall fun op => op.fresh = ∅ := by
  simp only [List.Forall]; repeat' constructor
/-- and each writes its own result buffer only, which is none of the arrays the frame speaks of. -/
theorem hostOps1_1_keeps : (hostOps1_1 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_2_fresh : (hostOps1_2 : List (HloOp τ sig (Elt F))).Forall fun op => op.fresh = ∅ := by
  simp only [List.Forall]; repeat' constructor
/-- and each writes its own result buffer only, which is none of the arrays the frame speaks of. -/
theorem hostOps1_2_keeps : (hostOps1_2 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_3_fresh : (hostOps1_3 : List (HloOp τ sig (Elt F))).Forall fun op => op.fresh = ∅ := by
  simp only [List.Forall]; repeat' constructor
/-- and each writes its own result buffer only, which is none of the arrays the frame speaks of. -/
theorem hostOps1_3_keeps : (hostOps1_3 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_4_fresh : (hostOps1_4 : List (HloOp τ sig (Elt F))).Forall fun op => op.fresh = ∅ := by
  simp only [List.Forall]; repeat' constructor
/-- and each writes its own result buffer only, which is none of the arrays the frame speaks of. -/
theorem hostOps1_4_keeps : (hostOps1_4 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_5_fresh : (hostOps1_5 : List (HloOp τ sig (Elt F))).Forall fun op => op.fresh = ∅ := by
  simp only [List.Forall]; repeat' constructor
/-- and each writes its own result buffer only, which is none of the arrays the frame speaks of. -/
theorem hostOps1_5_keeps : (hostOps1_5 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_6_fresh : (hostOps1_6 : List (HloOp τ sig (Elt F))).Forall fun op => op.fresh = ∅ := by
  simp only [List.Forall]; repeat' constructor
/-- and each writes its own result buffer only, which is none of the arrays the frame speaks of. -/
theorem hostOps1_6_keeps : (hostOps1_6 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_7_fresh : (hostOps1_7 : List (HloOp τ sig (Elt F))).Forall fun op => op.fresh = ∅ := by
  simp only [List.Forall]; repeat' constructor
/-- and each writes its own result buffer only, which is none of the arrays the frame speaks of. -/
theorem hostOps1_7_keeps : (hostOps1_7 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- The operations of this stretch allocate nothing, -/
theorem hostOps1_8_fresh : (hostOps1_8 : List (HloOp τ sig (Elt F))).Forall fun op => op.fresh = ∅ := by
  simp only [List.Forall]; repeat' constructor
/-- and each writes its own result buffer only, which is none of the arrays the frame speaks of. -/
theorem hostOps1_8_keeps : (hostOps1_8 : List (HloOp τ sig (Elt F))).Forall fun op => ∀ b ∈ keptRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    simp only [keptRefs, List.mem_cons, List.mem_nil_iff, or_false] at hb
    rcases hb with rfl | rfl | rfl | rfl | rfl <;> exact StableHlo.devRef_ne_of_ne (by decide)

/-- No operation after the region writes an array the frame speaks of. -/
theorem tail_keeps : ∀ ops ∈ (tailOps : List (List (HloOp τ sig (Elt F)))), ∀ op ∈ ops, ∀ b ∈ keptRefs, Proc.devRef .tc b ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- @main around the region: the three host operations before it, the region, the nine stretches after it: it
    reduces to the region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And write no array of the pipeline: the three staged arrays are among the arrays the frame speaks of. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_keeps ops hops op hop (Pipeline.arrRef spec0 w) (by fin_cases w <;> decide)

/-! ## The body's branch condition -/

/-- The condition of the body's `scf.if` (`k == 0`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The kernel body on any whole staging memrefs -/

set_option maxHeartbeats 1000000 in
/-- CASE A (`k == 0`). What the body's stores leave in the output's staging memref, as pieces (last first), WITH the proof that on
    whole staging memrefs, the inputs' at their contents and the output's at anything, the body runs to the continuation
    holding the inputs' as they were and the output's buffer with the pieces written. -/
noncomputable def kernelRun0_A (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : cond0_0 i)
    (x0 : Vec F S8x2048x48 .f32) (x1 : Vec F S8x2048 .i32) :
    { L2 : List (View.Piece (Elt F) S8x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__emis_kernel i arg2 harg2 arg3 harg3 arg4 harg4) K } := by
  refine ⟨?_, fun E K => ?run⟩
  case run =>
    simp only [cc0__emis_kernel_eq_skeleton]; unfold cc0__emis_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- CASE B (`k ≠ 0`). The same with the output's staging memref at its running contents `xo2`, which the body reads before it
    stores. -/
noncomputable def kernelRun0_B (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : ¬cond0_0 i)
    (x0 : Vec F S8x2048x48 .f32) (x1 : Vec F S8x2048 .i32) (xo2 : Vec F S8x1 .f32) :
    { L2 : List (View.Piece (Elt F) S8x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__emis_kernel i arg2 harg2 arg3 harg3 arg4 harg4) K } := by
  refine ⟨?_, fun E K => ?run⟩
  case run =>
    simp only [cc0__emis_kernel_eq_skeleton]; unfold cc0__emis_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the runs leave in the output's buffer -/

/-- The zero offsets of a whole-buffer access of the output's block. -/
theorem hz2 : (![0, 0] : Fin 2 → Nat) = fun _ => 0 := by funext a; fin_cases a <;> rfl
theorem hz3 : (![0, 0, 0] : Fin 3 → Nat) = fun _ => 0 := by funext a; fin_cases a <;> rfl

/-- Case A's pieces cover the output's block. -/
theorem cover0_A (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : cond0_0 i)
    (x0 : Vec F S8x2048x48 .f32) (x1 : Vec F S8x2048 .i32) (y : S8x1.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S8x1.size (by sl_kernel_rfl) y

/-- Case B's pieces cover the output's block. -/
theorem cover0_B (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : ¬cond0_0 i)
    (x0 : Vec F S8x2048x48 .f32) (x1 : Vec F S8x2048 .i32) (xo2 : Vec F S8x1 .f32) (y : S8x1.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S8x1.size (by sl_kernel_rfl) y

/-- What case A leaves, read back through any view over any earlier contents: the partial sum over the zero vector. -/
theorem out0_A_eq (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : cond0_0 i)
    (x0 : Vec F S8x2048x48 .f32) (x1 : Vec F S8x2048 .i32) (v : View sig .tc .vmem S8x1 .f32) (f : v.ty.Contents (Elt F)) :
    v.read (Elt F) (v.writes (Elt F) f (kernelRun0_A c i arg2 harg2 arg3 harg3 arg4 harg4 hc0 x0 x1).1) = k0_pay2 x0 x1 (k0_pay1 (F := F)) := by
  rw [View.read_writes_eq_canon _ _ _ (cover0_A c i arg2 harg2 arg3 harg3 arg4 harg4 hc0 x0 x1)]
  unfold kernelRun0_A
  dsimp only
  sl_unfold_words
  rw [View.canon_cons_unit_zero (S := S8x1) hz2]
  simp only [View.readAt_eq_ld, harg2.read_unread, harg3.read_unread, View.ld_unit_zero (S := S8x2048x48) hz3,
    View.ld_unit_zero (S := S8x2048) hz2, View.readCov_unit_zero (S := S8x1) _ hz2]

/-- What case B leaves: the partial sum over the running contents. -/
theorem out0_B_eq (c : Dev nD) (i : grid0.Coords) (arg2 : Memref sig .tc .vmem S8x2048x48 .f32) (harg2 : arg2.IsWhole) (arg3 : Memref sig .tc .vmem S8x2048 .i32) (harg3 : arg3.IsWhole) (arg4 : Memref sig .tc .vmem S8x1 .f32) (harg4 : arg4.IsWhole) (hc0 : ¬cond0_0 i)
    (x0 : Vec F S8x2048x48 .f32) (x1 : Vec F S8x2048 .i32) (xo2 : Vec F S8x1 .f32) (v : View sig .tc .vmem S8x1 .f32) (f : v.ty.Contents (Elt F)) :
    v.read (Elt F) (v.writes (Elt F) f (kernelRun0_B c i arg2 harg2 arg3 harg3 arg4 harg4 hc0 x0 x1 xo2).1) = k0_pay2 x0 x1 xo2 := by
  rw [View.read_writes_eq_canon _ _ _ (cover0_B c i arg2 harg2 arg3 harg3 arg4 harg4 hc0 x0 x1 xo2)]
  unfold kernelRun0_B
  dsimp only
  sl_unfold_words
  rw [View.canon_unit_zero (S := S8x1) hz2]
  simp only [View.readAt_eq_ld, harg2.read_unread, harg3.read_unread, harg4.read_unread, View.ld_unit_zero (S := S8x2048x48) hz3,
    View.ld_unit_zero (S := S8x2048) hz2, View.ld_unit_zero (S := S8x1) hz2]

/-! ## The staging buffers at a point -/

/-- Each window's current staging memref at point `t`, spelled as the pipeline passes it, and its wholeness. -/
abbrev ms0_0 (t : Fin cfg0.N) : Memref sig .tc .vmem S8x2048x48 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1 .f32 := win0_2.stage (cfg0.slots t 2)
abbrev hs0_2 (t : Fin cfg0.N) : (ms0_2 t).IsWhole := hstage0_2 ((cfg0.slots t 2).cast nbuf0_2)

/-- Each input's current staging buffer holds its block at every point, fetched there or not: the windows are uncut
    and never idle, and the body leaves the blocks in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- At a point with `k ≠ 0` the output's current staging buffer holds what the body left at the point before: the point is
    not the first, the buffer was not written back between (that happens after `k = 3` only), the window is live and
    uncut. -/
theorem before0_2_B (c : Dev nD) (t : Fin cfg0.N) (h0 : ¬t.val % 4 = 0) (d) :
    (dats m 0 c).before 2 t d = outsAt0 m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; the closed form says which case the point is in; at a
    point with `k ≠ 0` the output's buffer holds what the point before left; so the case's run applies, and what it leaves
    reads back as `outsAt0`; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 4 = 0
  · rw [outsAt0_A m c t h0]
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact out0_A_eq c _ _ _ _ _ _ _ _ _ _ _ _
  · rw [outsAt0_B m c t h0]
    simp only [before0_2_B m c t h0]
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact out0_B_eq c _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument array no window stages, after the operations that follow the region: none of them writes it, it is no
    array of the pipeline, and the operations before the region did not write it either. -/
theorem tail_main_arg1 (c : Dev nD) : Pipeline.afterTail₀ cfgs (dats m) 0 (V0 m) tailOps c main_arg1 = m ((c : Thread nD τ).loc main_arg1) := by
  unfold Pipeline.afterTail₀
  rw [StableHlo.after_of_forall_not_mem _ _ fun op hop => ?_, Pipeline.withArrays_of_ne _ c (V0 m c) _ main_arg1 (by decide)]
  · exact V_main_arg1 m c
  · obtain ⟨ops, hops, hop'⟩ := List.mem_flatten.mp hop
    exact tail_keeps ops hops op hop' main_arg1 (by decide)
theorem tail_main_arg3 (c : Dev nD) : Pipeline.afterTail₀ cfgs (dats m) 0 (V0 m) tailOps c main_arg3 = m ((c : Thread nD τ).loc main_arg3) := by
  unfold Pipeline.afterTail₀
  rw [StableHlo.after_of_forall_not_mem _ _ fun op hop => ?_, Pipeline.withArrays_of_ne _ c (V0 m c) _ main_arg3 (by decide)]
  · exact V_main_arg3 m c
  · obtain ⟨ops, hops, hop'⟩ := List.mem_flatten.mp hop
    exact tail_keeps ops hops op hop' main_arg3 (by decide)

/-- The frame run's post read at the four argument arrays: a staged input by the library's reading of an input
    window's array, an array no window stages by the post's second clause. -/
theorem args_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).2 main_arg1 (Pipeline.mem_restRefs_of main_arg1 (by decide) (by decide))).trans (tail_main_arg1 m c),
   ((h c).1 1).trans (((dats m 0 c).arrAt_in 1 rfl _).trans ((A_eq m c 1).trans (V_main_arg2 m c))),
   ((h c).2 main_arg3 (Pipeline.mem_restRefs_of main_arg3 (by decide) (by decide))).trans (tail_main_arg3 m c)⟩

/-- The same post read at the program's result: what the operations after the region leave there. -/
theorem res_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v79) = Pipeline.afterTail₀ cfgs (dats m) 0 (V0 m) tailOps c main_v79 :=
  (h c).2 main_v79 (Pipeline.mem_restRefs_of main_v79 (by decide) (by decide))

/-- THE FRAME: the program runs, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c => args_of_post m r h c) (run_main m ρ)

end Cert.KernelIdeal.HF

end
-- ==== Proof.Spec.lean ====
/-
  The mathematics both programs compute, stated once over the argument arrays.

  Row b of the label array marks a position s as SCORED when its label is not the ignore word (-100).
  Sorting the positions of a row stably by "scored before unscored" lists the scored positions first, in
  increasing order: `pos lab b t` is the t-th scored position of row b.  The gold sequence of row b is the
  labels read at those positions (`ySpec`); the emission score of row b is the sum over all positions and
  classes of the log-probability whose class is the position's label (`eSpec`: an ignored position, whose
  label is no class, contributes nothing); the language-model score of a gold sequence under the arc scores
  is `lmScore`; the result is the rows' total score divided by the number of scored positions (`total`).
-/
import proofs.«417459_j46256797778252_2_alg».proof.ReferenceIdeal
import Idealize.ShloMosaic.Lib.ValueIdx
import Idealize.ShloMosaic.Lib.StableHlo.Predicate
import Idealize.ShloMosaic.PureOps.Ideal

noncomputable section

namespace Cert.Crf

open Idealize.ShloMosaic Idealize.ShloMosaic.ValueIdx Idealize.ShloMosaic.StableHlo.Predicate
open Cert.ReferenceIdeal

/-- The ignore word: -100 as a 32-bit word. -/
abbrev IGN : BitVec 32 := 4294967196#32

/-- Position s of row b is scored: its label is not the ignore word. -/
abbrev scored (lab : IVec S64x8192 32) (b : Fin 64) (s : Fin 8192) : Bool := decide (lab (ij b s) ≠ IGN)

/-- "Position a sorts strictly before position a'": a is scored and a' is not. -/
abbrev before (lab : IVec S64x8192 32) (b : Fin 64) : Fin 8192 → Fin 8192 → Bool :=
  fun a a' => scored lab b a && !scored lab b a'

/-- The t-th scored position of row b (t < 4096): where the stable sort by `before` puts rank t. -/
def pos (lab : IVec S64x8192 32) (b : Fin 64) (t : Fin 4096) : Fin 8192 :=
  sortedFrom (before lab b) ⟨t.val, lt_trans t.isLt (by decide)⟩

/-- The gold sequence: row b, slot t holds the label at the t-th scored position. -/
def ySpec (lab : IVec S64x8192 32) : IVec S64x4096 32 := fun j => lab (ij (j 0) (pos lab (j 0) (j 1)))

/-- The emission score of row b: over every position and class, the log-probability of the class that is
    the position's label. -/
def eSpec (lp : FVec Ideal S64x8192x48 .f32) (lab : IVec S64x8192 32) : FVec Ideal S64 .f32 :=
  fun j => ∑ s : Fin 8192, ∑ c : Fin 48, if lab (ij (j 0) s) = BitVec.ofNat 32 c.val then lp (ix3 (j 0) s c) else (0 : EReal)

variable [Cert.ReferenceIdeal.Facts]
open Cert.ReferenceIdeal.Facts₀ Cert.ReferenceIdeal.Facts
variable {F : FTy → Type} [FloatOps F]

/-! The language-model score of a gold sequence y under the arc scores A, one operation per definition: the
    per-state log-softmax of the arc scores (start arcs; transition and final arcs), the label ids shifted to
    states, and the start, transition and final arcs read at them. -/
def lm_main_v12 (A : (⟨S1848, .f32⟩ : BufTy).Contents (Elt F)) (y : (⟨S64x4096, .i32⟩ : BufTy).Contents (Elt F)) : (⟨S42, .f32⟩ : BufTy).Contents (Elt F) :=
  extractStridedSlice S42 ![0] A slices_S1848_S42_0
def lm_main_call5_cst (A : (⟨S1848, .f32⟩ : BufTy).Contents (Elt F)) (y : (⟨S64x4096, .i32⟩ : BufTy).Contents (Elt F)) : (⟨S_, .f32⟩ : BufTy).Contents (Elt F) :=
  constant S_ .f32 0xFF800000#32
def lm_main_call5_v0 (A : (⟨S1848, .f32⟩ : BufTy).Contents (Elt F)) (y : (⟨S64x4096, .i32⟩ : BufTy).Contents (Elt F)) : (⟨S_, .f32⟩ : BufTy).Contents (Elt F) :=
  Host.reduce FloatOps.maximumf (lm_main_v12 (F := F) A y) (lm_main_call5_cst (F := F) A y) reducesTo_S42_S_d0 h_S_
def lm_main_call5_cst_0 (A : (⟨S1848, .f32⟩ : BufTy).Contents (Elt F)) (y : (⟨S64x4096, .i32⟩ : BufTy).Contents (Elt F)) : (⟨S_, .f32⟩ : BufTy).Contents (Elt F) :=
  constant S_ .f32 0xFF800000#32
def lm_main_call5_v1 (A : (⟨S1848, .f32⟩ : BufTy).Contents (Elt F)) (y : (⟨S64x4096, .i32⟩ : BufTy).Contents (Elt F)) : (⟨S_, .f32⟩ : BufTy).Contents (Elt F) :=
  maximumf (lm_main_call5_cst_0 (F := F) A y) (lm_main_call5_v0 (F := F) A y)
def lm_main_call5_v2 (A : (⟨S1848, .f32⟩ : BufTy).Contents (Elt F)) (y : (⟨S64x4096, .i32⟩ : BufTy).Contents (Elt F)) : (⟨S1, .f32⟩ : BufTy).Contents (Elt F) :=
  broadcastInDim S1 ![] bcast_S_S1 (lm_main_call5_v1 (F := F) A y)
def lm_main_call5_v3 (A : (⟨S1848, .f32⟩ : BufTy).Contents (Elt F)) (y : (⟨S64x4096, .i32⟩ : BufTy).Contents (Elt F)) : (⟨S42, .f32⟩ : BufTy).Contents (Elt F) :=
  broadcastInDim S42 ![0] bcast_S1_S42_0 (lm_main_call5_v2 (F := F) A y)
def lm_main_call5_v4 (A : (⟨S1848, .f32⟩ : BufTy).Contents (Elt F)) (y : (⟨S64x4096, .i32⟩ : BufTy).Contents (Elt F)) : (⟨S42, .f32⟩ : BufTy).Contents (Elt F) :=
  subf (lm_main_v12 (F := F) A y) (lm_main_call5_v3 (F := F) A y)
def lm_main_call5_v5 (A : (⟨S1848, .f32⟩ : BufTy).Contents (Elt F)) (y : (⟨S64x4096, .i32⟩ : BufTy).Contents (Elt F)) : (⟨S42, .f32⟩ : BufTy).Contents (Elt F) :=
  Host.exp (lm_main_call5_v4 (F := F) A y)
def lm_main_call5_cst_1 (A : (⟨S1848, .f32⟩ : BufTy).Contents (Elt F)) (y : (⟨S64x4096, .i32⟩ : BufTy).Contents (Elt F)) : (⟨S_, .f32⟩ : BufTy).Contents (Elt F) :=
  constant S_ .f32 0x00000000#32
def lm_main_call5_v6 (A : (⟨S1848, .f32⟩ : BufTy).Contents (Elt F)) (y : (⟨S64x4096, .i32⟩ : BufTy).Contents (Elt F)) : (⟨S_, .f32⟩ : BufTy).Contents (Elt F) :=
  Host.reduceAdd (lm_main_call5_v5 (F := F) A y) (lm_main_call5_cst_1 (F := F) A y) reducesTo_S42_S_d0 h_S_
def lm_main_call5_v7 (A : (⟨S1848, .f32⟩ : BufTy).Contents (Elt F)) (y : (⟨S64x4096, .i32⟩ : BufTy).Contents (Elt F)) : (⟨S1, .f32⟩ : BufTy).Contents (Elt F) :=
  broadcastInDim S1 ![] bcast_S_S1 (lm_main_call5_v6 (F := F) A y)
def lm_main_call5_v8 (A : (⟨S1848, .f32⟩ : BufTy).Contents (Elt F)) (y : (⟨S64x4096, .i32⟩ : BufTy).Contents (Elt F)) : (⟨S1, .f32⟩ : BufTy).Contents (Elt F) :=
  Host.log (lm_main_call5_v7 (F := F) A y)
def lm_main_call5_v9 (A : (⟨S1848, .f32⟩ : BufTy).Contents (Elt F)) (y : (⟨S64x4096, .i32⟩ : BufTy).Contents (Elt F)) : (⟨S42, .f32⟩ : BufTy).Contents (Elt F) :=
  broadcastInDim S42 ![0] bcast_S1_S42_0 (lm_main_call5_v8 (F := F) A y)
def lm_main_v13 (A : (⟨S1848, .f32⟩ : BufTy).Contents (Elt F)) (y : (⟨S64x4096, .i32⟩ : BufTy).Contents (Elt F)) : (⟨S42, .f32⟩ : BufTy).Contents (Elt F) :=
  subf (lm_main_call5_v4 (F := F) A y) (lm_main_call5_v9 (F := F) A y)
def lm_main_v14 (A : (⟨S1848, .f32⟩ : BufTy).Contents (Elt F)) (y : (⟨S64x4096, .i32⟩ : BufTy).Contents (Elt F)) : (⟨S1806, .f32⟩ : BufTy).Contents (Elt F) :=
  extractStridedSlice S1806 ![42] A slices_S1848_S1806_42
def lm_main_v15 (A : (⟨S1848, .f32⟩ : BufTy).Contents (Elt F)) (y : (⟨S64x4096, .i32⟩ : BufTy).Contents (Elt F)) : (⟨S42x43, .f32⟩ : BufTy).Contents (Elt F) :=
  shapeCast _ (lm_main_v14 (F := F) A y) shapeCasts_S1806_S42x43
def lm_main_call6_cst (A : (⟨S1848, .f32⟩ : BufTy).Contents (Elt F)) (y : (⟨S64x4096, .i32⟩ : BufTy).Contents (Elt F)) : (⟨S_, .f32⟩ : BufTy).Contents (Elt F) :=
  constant S_ .f32 0xFF800000#32
def lm_main_call6_v0 (A : (⟨S1848, .f32⟩ : BufTy).Contents (Elt F)) (y : (⟨S64x4096, .i32⟩ : BufTy).Contents (Elt F)) : (⟨S42, .f32⟩ : BufTy).Contents (Elt F) :=
  Host.reduce FloatOps.maximumf (lm_main_v15 (F := F) A y) (lm_main_call6_cst (F := F) A y) reducesTo_S42x43_S42_d1 h_S_
def lm_main_call6_cst_0 (A : (⟨S1848, .f32⟩ : BufTy).Contents (Elt F)) (y : (⟨S64x4096, .i32⟩ : BufTy).Contents (Elt F)) : (⟨S_, .f32⟩ : BufTy).Contents (Elt F) :=
  constant S_ .f32 0xFF800000#32
def lm_main_call6_v1 (A : (⟨S1848, .f32⟩ : BufTy).Contents (Elt F)) (y : (⟨S64x4096, .i32⟩ : BufTy).Contents (Elt F)) : (⟨S42, .f32⟩ : BufTy).Contents (Elt F) :=
  broadcastInDim S42 ![] bcast_S_S42 (lm_main_call6_cst_0 (F := F) A y)
def lm_main_call6_v2 (A : (⟨S1848, .f32⟩ : BufTy).Contents (Elt F)) (y : (⟨S64x4096, .i32⟩ : BufTy).Contents (Elt F)) : (⟨S42, .f32⟩ : BufTy).Contents (Elt F) :=
  maximumf (lm_main_call6_v1 (F := F) A y) (lm_main_call6_v0 (F := F) A y)
def lm_main_call6_v3 (A : (⟨S1848, .f32⟩ : BufTy).Contents (Elt F)) (y : (⟨S64x4096, .i32⟩ : BufTy).Contents (Elt F)) : (⟨S42x1, .f32⟩ : BufTy).Contents (Elt F) :=
  broadcastInDim S42x1 ![0] bcast_S42_S42x1_0 (lm_main_call6_v2 (F := F) A y)
def lm_main_call6_v4 (A : (⟨S1848, .f32⟩ : BufTy).Contents (Elt F)) (y : (⟨S64x4096, .i32⟩ : BufTy).Contents (Elt F)) : (⟨S42x43, .f32⟩ : BufTy).Contents (Elt F) :=
  broadcastInDim S42x43 ![0, 1] bcast_S42x1_S42x43_0_1 (lm_main_call6_v3 (F := F) A y)
def lm_main_call6_v5 (A : (⟨S1848, .f32⟩ : BufTy).Contents (Elt F)) (y : (⟨S64x4096, .i32⟩ : BufTy).Contents (Elt F)) : (⟨S42x43, .f32⟩ : BufTy).Contents (Elt F) :=
  subf (lm_main_v15 (F := F) A y) (lm_main_call6_v4 (F := F) A y)
def lm_main_call6_v6 (A : (⟨S1848, .f32⟩ : BufTy).Contents (Elt F)) (y : (⟨S64x4096, .i32⟩ : BufTy).Contents (Elt F)) : (⟨S42x43, .f32⟩ : BufTy).Contents (Elt F) :=
  Host.exp (lm_main_call6_v5 (F := F) A y)
def lm_main_call6_cst_1 (A : (⟨S1848, .f32⟩ : BufTy).Contents (Elt F)) (y : (⟨S64x4096, .i32⟩ : BufTy).Contents (Elt F)) : (⟨S_, .f32⟩ : BufTy).Contents (Elt F) :=
  constant S_ .f32 0x00000000#32
def lm_main_call6_v7 (A : (⟨S1848, .f32⟩ : BufTy).Contents (Elt F)) (y : (⟨S64x4096, .i32⟩ : BufTy).Contents (Elt F)) : (⟨S42, .f32⟩ : BufTy).Contents (Elt F) :=
  Host.reduceAdd (lm_main_call6_v6 (F := F) A y) (lm_main_call6_cst_1 (F := F) A y) reducesTo_S42x43_S42_d1 h_S_
def lm_main_call6_v8 (A : (⟨S1848, .f32⟩ : BufTy).Contents (Elt F)) (y : (⟨S64x4096, .i32⟩ : BufTy).Contents (Elt F)) : (⟨S42x1, .f32⟩ : BufTy).Contents (Elt F) :=
  broadcastInDim S42x1 ![0] bcast_S42_S42x1_0 (lm_main_call6_v7 (F := F) A y)
def lm_main_call6_v9 (A : (⟨S1848, .f32⟩ : BufTy).Contents (Elt F)) (y : (⟨S64x4096, .i32⟩ : BufTy).Contents (Elt F)) : (⟨S42x1, .f32⟩ : BufTy).Contents (Elt F) :=
  Host.log (lm_main_call6_v8 (F := F) A y)
def lm_main_call6_v10 (A : (⟨S1848, .f32⟩ : BufTy).Contents (Elt F)) (y : (⟨S64x4096, .i32⟩ : BufTy).Contents (Elt F)) : (⟨S42x43, .f32⟩ : BufTy).Contents (Elt F) :=
  broadcastInDim S42x43 ![0, 1] bcast_S42x1_S42x43_0_1 (lm_main_call6_v9 (F := F) A y)
def lm_main_v16 (A : (⟨S1848, .f32⟩ : BufTy).Contents (Elt F)) (y : (⟨S64x4096, .i32⟩ : BufTy).Contents (Elt F)) : (⟨S42x43, .f32⟩ : BufTy).Contents (Elt F) :=
  subf (lm_main_call6_v5 (F := F) A y) (lm_main_call6_v10 (F := F) A y)
def lm_main_v17 (A : (⟨S1848, .f32⟩ : BufTy).Contents (Elt F)) (y : (⟨S64x4096, .i32⟩ : BufTy).Contents (Elt F)) : (⟨S42x42, .f32⟩ : BufTy).Contents (Elt F) :=
  extractStridedSlice S42x42 ![0, 0] (lm_main_v16 (F := F) A y) slices_S42x43_S42x42_0_0
def lm_main_v18 (A : (⟨S1848, .f32⟩ : BufTy).Contents (Elt F)) (y : (⟨S64x4096, .i32⟩ : BufTy).Contents (Elt F)) : (⟨S42x1, .f32⟩ : BufTy).Contents (Elt F) :=
  extractStridedSlice S42x1 ![0, 42] (lm_main_v16 (F := F) A y) slices_S42x43_S42x1_0_42
def lm_main_v19 (A : (⟨S1848, .f32⟩ : BufTy).Contents (Elt F)) (y : (⟨S64x4096, .i32⟩ : BufTy).Contents (Elt F)) : (⟨S42, .f32⟩ : BufTy).Contents (Elt F) :=
  shapeCast _ (lm_main_v18 (F := F) A y) shapeCasts_S42x1_S42
def lm_main_c_2 (A : (⟨S1848, .f32⟩ : BufTy).Contents (Elt F)) (y : (⟨S64x4096, .i32⟩ : BufTy).Contents (Elt F)) : (⟨S_, .i32⟩ : BufTy).Contents (Elt F) :=
  constantI S_ 32 1#32
def lm_main_v20 (A : (⟨S1848, .f32⟩ : BufTy).Contents (Elt F)) (y : (⟨S64x4096, .i32⟩ : BufTy).Contents (Elt F)) : (⟨S64x4096, .i32⟩ : BufTy).Contents (Elt F) :=
  broadcastInDim S64x4096 ![] bcast_S_S64x4096 (lm_main_c_2 (F := F) A y)
def lm_main_v21 (A : (⟨S1848, .f32⟩ : BufTy).Contents (Elt F)) (y : (⟨S64x4096, .i32⟩ : BufTy).Contents (Elt F)) : (⟨S64x4096, .i32⟩ : BufTy).Contents (Elt F) :=
  subi y (lm_main_v20 (F := F) A y)
def lm_main_v22 (A : (⟨S1848, .f32⟩ : BufTy).Contents (Elt F)) (y : (⟨S64x4096, .i32⟩ : BufTy).Contents (Elt F)) : (⟨S64x1, .i32⟩ : BufTy).Contents (Elt F) :=
  extractStridedSlice S64x1 ![0, 0] (lm_main_v21 (F := F) A y) slices_S64x4096_S64x1_0_0
def lm_main_v23 (A : (⟨S1848, .f32⟩ : BufTy).Contents (Elt F)) (y : (⟨S64x4096, .i32⟩ : BufTy).Contents (Elt F)) : (⟨S64, .i32⟩ : BufTy).Contents (Elt F) :=
  shapeCast _ (lm_main_v22 (F := F) A y) shapeCasts_S64x1_S64
def lm_main_c_3 (A : (⟨S1848, .f32⟩ : BufTy).Contents (Elt F)) (y : (⟨S64x4096, .i32⟩ : BufTy).Contents (Elt F)) : (⟨S_, .i32⟩ : BufTy).Contents (Elt F) :=
  constantI S_ 32 0#32
def lm_main_v24 (A : (⟨S1848, .f32⟩ : BufTy).Contents (Elt F)) (y : (⟨S64x4096, .i32⟩ : BufTy).Contents (Elt F)) : (⟨S64, .i32⟩ : BufTy).Contents (Elt F) :=
  broadcastInDim S64 ![] bcast_S_S64 (lm_main_c_3 (F := F) A y)
def lm_main_v25 (A : (⟨S1848, .f32⟩ : BufTy).Contents (Elt F)) (y : (⟨S64x4096, .i32⟩ : BufTy).Contents (Elt F)) : (⟨S64, .i1⟩ : BufTy).Contents (Elt F) :=
  cmpi .slt (lm_main_v23 (F := F) A y) (lm_main_v24 (F := F) A y)
def lm_main_c_4 (A : (⟨S1848, .f32⟩ : BufTy).Contents (Elt F)) (y : (⟨S64x4096, .i32⟩ : BufTy).Contents (Elt F)) : (⟨S_, .i32⟩ : BufTy).Contents (Elt F) :=
  constantI S_ 32 42#32
def lm_main_v26 (A : (⟨S1848, .f32⟩ : BufTy).Contents (Elt F)) (y : (⟨S64x4096, .i32⟩ : BufTy).Contents (Elt F)) : (⟨S64, .i32⟩ : BufTy).Contents (Elt F) :=
  broadcastInDim S64 ![] bcast_S_S64 (lm_main_c_4 (F := F) A y)
def lm_main_v27 (A : (⟨S1848, .f32⟩ : BufTy).Contents (Elt F)) (y : (⟨S64x4096, .i32⟩ : BufTy).Contents (Elt F)) : (⟨S64, .i32⟩ : BufTy).Contents (Elt F) :=
  addi (lm_main_v23 (F := F) A y) (lm_main_v26 (F := F) A y)
def lm_main_v28 (A : (⟨S1848, .f32⟩ : BufTy).Contents (Elt F)) (y : (⟨S64x4096, .i32⟩ : BufTy).Contents (Elt F)) : (⟨S64, .i32⟩ : BufTy).Contents (Elt F) :=
  select (lm_main_v25 (F := F) A y) (lm_main_v27 (F := F) A y) (lm_main_v23 (F := F) A y)
def lm_main_v29 (A : (⟨S1848, .f32⟩ : BufTy).Contents (Elt F)) (y : (⟨S64x4096, .i32⟩ : BufTy).Contents (Elt F)) : (⟨S64x1, .i32⟩ : BufTy).Contents (Elt F) :=
  broadcastInDim S64x1 ![0] bcast_S64_S64x1_0 (lm_main_v28 (F := F) A y)
def lm_main_v30 (A : (⟨S1848, .f32⟩ : BufTy).Contents (Elt F)) (y : (⟨S64x4096, .i32⟩ : BufTy).Contents (Elt F)) : (⟨S64, .f32⟩ : BufTy).Contents (Elt F) :=
  Host.gather gather_S42_S64x1_S64_n_0_n_n_0_1_1 (lm_main_v13 (F := F) A y) (lm_main_v29 (F := F) A y)
def lm_main_v31 (A : (⟨S1848, .f32⟩ : BufTy).Contents (Elt F)) (y : (⟨S64x4096, .i32⟩ : BufTy).Contents (Elt F)) : (⟨S64x4095, .i32⟩ : BufTy).Contents (Elt F) :=
  extractStridedSlice S64x4095 ![0, 0] (lm_main_v21 (F := F) A y) slices_S64x4096_S64x4095_0_0
def lm_main_v32 (A : (⟨S1848, .f32⟩ : BufTy).Contents (Elt F)) (y : (⟨S64x4096, .i32⟩ : BufTy).Contents (Elt F)) : (⟨S64x4095, .i32⟩ : BufTy).Contents (Elt F) :=
  extractStridedSlice S64x4095 ![0, 1] (lm_main_v21 (F := F) A y) slices_S64x4096_S64x4095_0_1
def lm_main_c_5 (A : (⟨S1848, .f32⟩ : BufTy).Contents (Elt F)) (y : (⟨S64x4096, .i32⟩ : BufTy).Contents (Elt F)) : (⟨S_, .i32⟩ : BufTy).Contents (Elt F) :=
  constantI S_ 32 0#32
def lm_main_v33 (A : (⟨S1848, .f32⟩ : BufTy).Contents (Elt F)) (y : (⟨S64x4096, .i32⟩ : BufTy).Contents (Elt F)) : (⟨S64x4095, .i32⟩ : BufTy).Contents (Elt F) :=
  broadcastInDim S64x4095 ![] bcast_S_S64x4095 (lm_main_c_5 (F := F) A y)
def lm_main_v34 (A : (⟨S1848, .f32⟩ : BufTy).Contents (Elt F)) (y : (⟨S64x4096, .i32⟩ : BufTy).Contents (Elt F)) : (⟨S64x4095, .i1⟩ : BufTy).Contents (Elt F) :=
  cmpi .slt (lm_main_v31 (F := F) A y) (lm_main_v33 (F := F) A y)
def lm_main_c_6 (A : (⟨S1848, .f32⟩ : BufTy).Contents (Elt F)) (y : (⟨S64x4096, .i32⟩ : BufTy).Contents (Elt F)) : (⟨S_, .i32⟩ : BufTy).Contents (Elt F) :=
  constantI S_ 32 42#32
def lm_main_v35 (A : (⟨S1848, .f32⟩ : BufTy).Contents (Elt F)) (y : (⟨S64x4096, .i32⟩ : BufTy).Contents (Elt F)) : (⟨S64x4095, .i32⟩ : BufTy).Contents (Elt F) :=
  broadcastInDim S64x4095 ![] bcast_S_S64x4095 (lm_main_c_6 (F := F) A y)
def lm_main_v36 (A : (⟨S1848, .f32⟩ : BufTy).Contents (Elt F)) (y : (⟨S64x4096, .i32⟩ : BufTy).Contents (Elt F)) : (⟨S64x4095, .i32⟩ : BufTy).Contents (Elt F) :=
  addi (lm_main_v31 (F := F) A y) (lm_main_v35 (F := F) A y)
def lm_main_v37 (A : (⟨S1848, .f32⟩ : BufTy).Contents (Elt F)) (y : (⟨S64x4096, .i32⟩ : BufTy).Contents (Elt F)) : (⟨S64x4095, .i32⟩ : BufTy).Contents (Elt F) :=
  select (lm_main_v34 (F := F) A y) (lm_main_v36 (F := F) A y) (lm_main_v31 (F := F) A y)
def lm_main_c_7 (A : (⟨S1848, .f32⟩ : BufTy).Contents (Elt F)) (y : (⟨S64x4096, .i32⟩ : BufTy).Contents (Elt F)) : (⟨S_, .i32⟩ : BufTy).Contents (Elt F) :=
  constantI S_ 32 0#32
def lm_main_v38 (A : (⟨S1848, .f32⟩ : BufTy).Contents (Elt F)) (y : (⟨S64x4096, .i32⟩ : BufTy).Contents (Elt F)) : (⟨S64x4095, .i32⟩ : BufTy).Contents (Elt F) :=
  broadcastInDim S64x4095 ![] bcast_S_S64x4095 (lm_main_c_7 (F := F) A y)
def lm_main_v39 (A : (⟨S1848, .f32⟩ : BufTy).Contents (Elt F)) (y : (⟨S64x4096, .i32⟩ : BufTy).Contents (Elt F)) : (⟨S64x4095, .i1⟩ : BufTy).Contents (Elt F) :=
  cmpi .slt (lm_main_v32 (F := F) A y) (lm_main_v38 (F := F) A y)
def lm_main_c_8 (A : (⟨S1848, .f32⟩ : BufTy).Contents (Elt F)) (y : (⟨S64x4096, .i32⟩ : BufTy).Contents (Elt F)) : (⟨S_, .i32⟩ : BufTy).Contents (Elt F) :=
  constantI S_ 32 42#32
def lm_main_v40 (A : (⟨S1848, .f32⟩ : BufTy).Contents (Elt F)) (y : (⟨S64x4096, .i32⟩ : BufTy).Contents (Elt F)) : (⟨S64x4095, .i32⟩ : BufTy).Contents (Elt F) :=
  broadcastInDim S64x4095 ![] bcast_S_S64x4095 (lm_main_c_8 (F := F) A y)
def lm_main_v41 (A : (⟨S1848, .f32⟩ : BufTy).Contents (Elt F)) (y : (⟨S64x4096, .i32⟩ : BufTy).Contents (Elt F)) : (⟨S64x4095, .i32⟩ : BufTy).Contents (Elt F) :=
  addi (lm_main_v32 (F := F) A y) (lm_main_v40 (F := F) A y)
def lm_main_v42 (A : (⟨S1848, .f32⟩ : BufTy).Contents (Elt F)) (y : (⟨S64x4096, .i32⟩ : BufTy).Contents (Elt F)) : (⟨S64x4095, .i32⟩ : BufTy).Contents (Elt F) :=
  select (lm_main_v39 (F := F) A y) (lm_main_v41 (F := F) A y) (lm_main_v32 (F := F) A y)
def lm_main_v43 (A : (⟨S1848, .f32⟩ : BufTy).Contents (Elt F)) (y : (⟨S64x4096, .i32⟩ : BufTy).Contents (Elt F)) : (⟨S64x4095x1, .i32⟩ : BufTy).Contents (Elt F) :=
  broadcastInDim S64x4095x1 ![0, 1] bcast_S64x4095_S64x4095x1_0_1 (lm_main_v37 (F := F) A y)
def lm_main_v44 (A : (⟨S1848, .f32⟩ : BufTy).Contents (Elt F)) (y : (⟨S64x4096, .i32⟩ : BufTy).Contents (Elt F)) : (⟨S64x4095x1, .i32⟩ : BufTy).Contents (Elt F) :=
  broadcastInDim S64x4095x1 ![0, 1] bcast_S64x4095_S64x4095x1_0_1 (lm_main_v42 (F := F) A y)
def lm_main_v45 (A : (⟨S1848, .f32⟩ : BufTy).Contents (Elt F)) (y : (⟨S64x4096, .i32⟩ : BufTy).Contents (Elt F)) : (⟨S64x4095x2, .i32⟩ : BufTy).Contents (Elt F) :=
  concatenate S64x4095x2 2 [⟨S64x4095x1, (lm_main_v43 (F := F) A y)⟩, ⟨S64x4095x1, (lm_main_v44 (F := F) A y)⟩] concatenates_S64x4095x1_S64x4095x1_S64x4095x2_d2
def lm_main_v46 (A : (⟨S1848, .f32⟩ : BufTy).Contents (Elt F)) (y : (⟨S64x4096, .i32⟩ : BufTy).Contents (Elt F)) : (⟨S64x4095, .f32⟩ : BufTy).Contents (Elt F) :=
  Host.gather gather_S42x42_S64x4095x2_S64x4095_n_01_n_n_01_2_11 (lm_main_v17 (F := F) A y) (lm_main_v45 (F := F) A y)
def lm_main_cst (A : (⟨S1848, .f32⟩ : BufTy).Contents (Elt F)) (y : (⟨S64x4096, .i32⟩ : BufTy).Contents (Elt F)) : (⟨S_, .f32⟩ : BufTy).Contents (Elt F) :=
  constant S_ .f32 0x00000000#32
def lm_main_v47 (A : (⟨S1848, .f32⟩ : BufTy).Contents (Elt F)) (y : (⟨S64x4096, .i32⟩ : BufTy).Contents (Elt F)) : (⟨S64, .f32⟩ : BufTy).Contents (Elt F) :=
  Host.reduceAdd (lm_main_v46 (F := F) A y) (lm_main_cst (F := F) A y) reducesTo_S64x4095_S64_d1 h_S_
def lm_main_v48 (A : (⟨S1848, .f32⟩ : BufTy).Contents (Elt F)) (y : (⟨S64x4096, .i32⟩ : BufTy).Contents (Elt F)) : (⟨S64, .f32⟩ : BufTy).Contents (Elt F) :=
  addf (lm_main_v30 (F := F) A y) (lm_main_v47 (F := F) A y)
def lm_main_v49 (A : (⟨S1848, .f32⟩ : BufTy).Contents (Elt F)) (y : (⟨S64x4096, .i32⟩ : BufTy).Contents (Elt F)) : (⟨S64x1, .i32⟩ : BufTy).Contents (Elt F) :=
  extractStridedSlice S64x1 ![0, 4095] (lm_main_v21 (F := F) A y) slices_S64x4096_S64x1_0_4095
def lm_main_v50 (A : (⟨S1848, .f32⟩ : BufTy).Contents (Elt F)) (y : (⟨S64x4096, .i32⟩ : BufTy).Contents (Elt F)) : (⟨S64, .i32⟩ : BufTy).Contents (Elt F) :=
  shapeCast _ (lm_main_v49 (F := F) A y) shapeCasts_S64x1_S64
def lm_main_c_9 (A : (⟨S1848, .f32⟩ : BufTy).Contents (Elt F)) (y : (⟨S64x4096, .i32⟩ : BufTy).Contents (Elt F)) : (⟨S_, .i32⟩ : BufTy).Contents (Elt F) :=
  constantI S_ 32 0#32
def lm_main_v51 (A : (⟨S1848, .f32⟩ : BufTy).Contents (Elt F)) (y : (⟨S64x4096, .i32⟩ : BufTy).Contents (Elt F)) : (⟨S64, .i32⟩ : BufTy).Contents (Elt F) :=
  broadcastInDim S64 ![] bcast_S_S64 (lm_main_c_9 (F := F) A y)
def lm_main_v52 (A : (⟨S1848, .f32⟩ : BufTy).Contents (Elt F)) (y : (⟨S64x4096, .i32⟩ : BufTy).Contents (Elt F)) : (⟨S64, .i1⟩ : BufTy).Contents (Elt F) :=
  cmpi .slt (lm_main_v50 (F := F) A y) (lm_main_v51 (F := F) A y)
def lm_main_c_10 (A : (⟨S1848, .f32⟩ : BufTy).Contents (Elt F)) (y : (⟨S64x4096, .i32⟩ : BufTy).Contents (Elt F)) : (⟨S_, .i32⟩ : BufTy).Contents (Elt F) :=
  constantI S_ 32 42#32
def lm_main_v53 (A : (⟨S1848, .f32⟩ : BufTy).Contents (Elt F)) (y : (⟨S64x4096, .i32⟩ : BufTy).Contents (Elt F)) : (⟨S64, .i32⟩ : BufTy).Contents (Elt F) :=
  broadcastInDim S64 ![] bcast_S_S64 (lm_main_c_10 (F := F) A y)
def lm_main_v54 (A : (⟨S1848, .f32⟩ : BufTy).Contents (Elt F)) (y : (⟨S64x4096, .i32⟩ : BufTy).Contents (Elt F)) : (⟨S64, .i32⟩ : BufTy).Contents (Elt F) :=
  addi (lm_main_v50 (F := F) A y) (lm_main_v53 (F := F) A y)
def lm_main_v55 (A : (⟨S1848, .f32⟩ : BufTy).Contents (Elt F)) (y : (⟨S64x4096, .i32⟩ : BufTy).Contents (Elt F)) : (⟨S64, .i32⟩ : BufTy).Contents (Elt F) :=
  select (lm_main_v52 (F := F) A y) (lm_main_v54 (F := F) A y) (lm_main_v50 (F := F) A y)
def lm_main_v56 (A : (⟨S1848, .f32⟩ : BufTy).Contents (Elt F)) (y : (⟨S64x4096, .i32⟩ : BufTy).Contents (Elt F)) : (⟨S64x1, .i32⟩ : BufTy).Contents (Elt F) :=
  broadcastInDim S64x1 ![0] bcast_S64_S64x1_0 (lm_main_v55 (F := F) A y)
def lm_main_v57 (A : (⟨S1848, .f32⟩ : BufTy).Contents (Elt F)) (y : (⟨S64x4096, .i32⟩ : BufTy).Contents (Elt F)) : (⟨S64, .f32⟩ : BufTy).Contents (Elt F) :=
  Host.gather gather_S42_S64x1_S64_n_0_n_n_0_1_1 (lm_main_v19 (F := F) A y) (lm_main_v56 (F := F) A y)
def lm_main_v58 (A : (⟨S1848, .f32⟩ : BufTy).Contents (Elt F)) (y : (⟨S64x4096, .i32⟩ : BufTy).Contents (Elt F)) : (⟨S64, .f32⟩ : BufTy).Contents (Elt F) :=
  addf (lm_main_v48 (F := F) A y) (lm_main_v57 (F := F) A y)

/-- The language-model score of a gold sequence y under the arc scores A, row by row: the start arc of the
    first label, the transition arcs of consecutive labels, the final arc of the last label, each read from
    the per-state log-softmax of A. -/
def lmScore (A : (⟨S1848, .f32⟩ : BufTy).Contents (Elt F)) (y : (⟨S64x4096, .i32⟩ : BufTy).Contents (Elt F)) :
    (⟨S64, .f32⟩ : BufTy).Contents (Elt F) :=
  lm_main_v58 (F := F) A y

/-- The result: the sum over the rows of (language-model score + emission score), divided by the number of
    scored positions. -/
def total (lm e : (⟨S64, .f32⟩ : BufTy).Contents (Elt F)) (lab : (⟨S64x8192, .i32⟩ : BufTy).Contents (Elt F)) :
    (⟨S_, .f32⟩ : BufTy).Contents (Elt F) :=
  let v1 : (⟨S64x8192, .i1⟩ : BufTy).Contents (Elt F) :=
    cmpi .ne lab (broadcastInDim S64x8192 ![] bcast_S_S64x8192 (constantI S_ 32 4294967196#32))
  let cnt : (⟨S_, .i32⟩ : BufTy).Contents (Elt F) :=
    Host.reduce IntOp.addi (extui 32 v1 natLt_1_32) (constantI S_ 32 0#32) reducesTo_S64x8192_S_d0_1 h_S_
  let tot : (⟨S_, .f32⟩ : BufTy).Contents (Elt F) :=
    Host.reduceAdd (addf lm e) (constant S_ .f32 0x00000000#32) reducesTo_S64_S_d0 h_S_
  Host.divf tot (sitofp .f32 cnt)

end Cert.Crf

end
-- ==== Proof.KIPayload.lean ====
/-
  THE BODY'S ARITHMETIC AT AN INDEX, at the exact values (floats are extended reals, every operation exact).

  One grid step holds an [8 × 2048 × 48] block x of log-probabilities, the [8 × 2048] block ℓ of labels of the same rows
  and positions, and the [8 × 1] accumulator column. The first payload is the column of zeros the accumulator starts from.
  The second is the step's update: the class coordinate c (an iota along the last axis) is compared with the label ℓ(r, s)
  broadcast along that axis; where they agree the block's entry is kept, elsewhere 0 is taken; the result is summed over
  the classes, then over the positions, and added to the accumulator. At row r it is therefore

      acc(r) + ∑ s < 2048, ∑ c < 48, (if ℓ(r, s) = c then x(r, s, c) else 0)

  (pay2_apply), each layout operation read at an index by its own small lemma. Four such steps over consecutive
  tiles of 2048 positions sum, as one sum, over all 8192 positions (sum_tiles): the pair (tile, position in the tile)
  numbers the positions by 2048 · tile + position.
-/
import proofs.«417459_j46256797778252_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

namespace Cert.KIPayload

open Idealize.ShloMosaic Idealize.ShloMosaic.ValueIdx Cert.KernelIdeal Cert.KernelIdeal.Gen

/-- The first payload, a column of the f32 zero pattern, is 0 at every row. -/
theorem pay1_apply (r : Fin 8) : k0_pay1 (F := Ideal) (ix2 r (0 : Fin 1)) = (0 : EReal) :=
  Ideal.ofBits_zero_f32

section Pieces
variable {α : Type}

/-- A vector of `a` entries viewed as an [a × 1] column reads, at (i, u), the vector at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The label block viewed [8 × 2048 × 1] and broadcast along the class axis reads, at (r, s, c), the label at (r, s). -/
theorem label_apply (v4 : IVec S8x2048 32) (r : Fin 8) (s : Fin 2048) (c : Fin 48) :
    broadcastTo S8x2048x48 (shapeCast S8x2048x1 v4 shapeCasts_S8x2048_S8x2048x1) broadcasts_S8x2048x1_S8x2048x48 (ix3 r s c)
      = v4 (ix2 r s) := by
  refine (broadcastTo_apply _ broadcasts_S8x2048x1_S8x2048x48 (ix3 r s c) (ix3 r s (0 : Fin 1)) fun a => ?_).trans ?_
  · match a with
    | ⟨0, _⟩ => rfl
    | ⟨1, _⟩ => rfl
    | ⟨2, _⟩ => rfl
  · exact shapeCast_apply v4 shapeCasts_S8x2048_S8x2048x1 _ _ (by
      rw [Shape.rowMajor_val_two, Shape.rowMajor_val_three]
      show r.val * 2048 + s.val = (r.val * 2048 + s.val) * 1 + 0
      omega)

/-- The sum over the class axis of an [8 × 2048 × 48] block, at (r, s), is the sum over `c` of the block at (r, s, c): the
    index (r, s) with `c` inserted on the last axis is (r, s, c). -/
theorem classes_sum (x : FVec Ideal S8x2048x48 .f32) (hφ : FKind.Formats .f32)
    (hacc : (0x00000000#32 : BitVec 32) = FKind.add.neutral .f32 hφ) (r : Fin 8) (s : Fin 2048) :
    multiReduction (F := Ideal) .add [2] S8x2048 x 0x00000000#32 reduces_S8x2048x48_S8x2048 hφ hacc (ix2 r s)
      = ∑ c : Fin 48, x (ix3 r s c) := by
  refine (Ideal.multiReduction_add_single x _ reduces_S8x2048x48_S8x2048 hφ hacc (ix2 r s)).trans ?_
  refine Finset.sum_congr rfl fun c _ => congrArg x ?_
  funext a
  match a with
  | ⟨0, _⟩ => rfl
  | ⟨1, _⟩ => rfl
  | ⟨2, _⟩ => rfl

/-- The sum over the position axis of an [8 × 2048] block, at row r, is the sum over `s` of the block at (r, s). -/
theorem positions_sum (x : FVec Ideal S8x2048 .f32) (hφ : FKind.Formats .f32)
    (hacc : (0x00000000#32 : BitVec 32) = FKind.add.neutral .f32 hφ) (r : Fin 8) :
    multiReduction (F := Ideal) .add [1] S8 x 0x00000000#32 reduces_S8x2048_S8 hφ hacc (ix1 r)
      = ∑ s : Fin 2048, x (ix2 r s) := by
  refine (Ideal.multiReduction_add_single x _ reduces_S8x2048_S8 hφ hacc (ix1 r)).trans ?_
  refine Finset.sum_congr rfl fun s _ => congrArg x ?_
  funext a
  match a with
  | ⟨0, _⟩ => rfl
  | ⟨1, _⟩ => rfl

/-- A select on the equality test of two words takes its first value exactly when the words are equal. -/
theorem select_cmpi_eq (a b : BitVec 32) (x y : α) :
    Scalar.select (IntOp.cmpi .eq a b) x y = if b = a then x else y := by
  have hc : IntOp.cmpi .eq a b = BitVec.ofBool (a == b) := rfl
  rw [hc]
  by_cases h : b = a
  · subst h
    rw [if_pos rfl, beq_self_eq_true]
    exact select_one _ _
  · rw [if_neg h, beq_eq_false_iff_ne.2 fun e => h e.symm]
    exact select_zero _ _

end Pieces

/-- The second payload at row r: the accumulator's entry plus, over the positions and then the classes, the block's entry
    where the class is the position's label and 0 elsewhere. -/
theorem pay2_apply (v3 : Vec Ideal S8x2048x48 .f32) (v4 : Vec Ideal S8x2048 .i32) (v14 : Vec Ideal S8x1 .f32) (r : Fin 8) :
    k0_pay2 (F := Ideal) v3 v4 v14 (ix2 r (0 : Fin 1)) = v14 (ix2 r (0 : Fin 1)) + ∑ s : Fin 2048, ∑ c : Fin 48, (if v4 (ix2 r s) = BitVec.ofNat 32 c.val then v3 (ix3 r s c) else (0 : EReal)) := by
  unfold k0_pay2
  simp only [addf_apply, shapeCast_self]
  congr 1
  refine (shapeCast_a_a1_apply _ shapeCasts_S8_S8x1 r 0).trans ?_
  refine (positions_sum _ _ _ r).trans ?_
  refine Finset.sum_congr rfl fun s _ => ?_
  refine (classes_sum _ _ _ r s).trans ?_
  refine Finset.sum_congr rfl fun c _ => ?_
  show Scalar.select (IntOp.cmpi .eq (iota .tc S8x2048x48 32 [2] iota_S8x2048x48_d2_w32 (ix3 r s c))
      (broadcastTo S8x2048x48 (shapeCast S8x2048x1 v4 shapeCasts_S8x2048_S8x2048x1) broadcasts_S8x2048x1_S8x2048x48 (ix3 r s c)))
    (v3 (ix3 r s c)) (Ideal.ofBits .f32 0x00000000#32) = _
  rw [iota_single_apply, label_apply, select_cmpi_eq, Ideal.ofBits_zero_f32]

/-- Four consecutive tiles of 2048 positions are the 8192 positions: (k, s) ↦ 2048·k + s is a bijection from
    [0, 4) × [0, 2048) onto [0, 8192), and a finite sum does not depend on how its index set is numbered. -/
theorem sum_tiles (f : Fin 8192 → EReal) :
    (∑ k : Fin 4, ∑ s : Fin 2048, f ⟨2048 * k.val + s.val, by omega⟩) = ∑ s : Fin 8192, f s := by
  calc (∑ k : Fin 4, ∑ s : Fin 2048, f ⟨2048 * k.val + s.val, by omega⟩)
      = ∑ p : Fin 4 × Fin 2048, f (finProdFinEquiv p) := by
        rw [Fintype.sum_prod_type]
        refine Finset.sum_congr rfl fun k _ => Finset.sum_congr rfl fun s _ => congrArg f (Fin.ext ?_)
        show 2048 * k.val + s.val = s.val + 2048 * k.val
        omega
    _ = ∑ s : Fin 8192, f s := Equiv.sum_comp (finProdFinEquiv : Fin 4 × Fin 2048 ≃ Fin (4 * 2048)) f

end Cert.KIPayload
-- ==== Proof.KIValue.lean ====
/-
  What the pallas_call writes: the [64,1] output array holds, at row b, the emission score of row b.

  The grid is (8, 4): point t = 4·i + k works on rows 8i … 8i+7 and on tile k of the positions, 2048k … 2048k+2047.
  At that point the log-probability block is those rows and positions with all 48 classes, the label block the same
  rows and positions, and the output block rows 8i … 8i+7 of the one column.  The body adds, onto what the output's
  buffer holds (zeros at k = 0, what the point before left otherwise), each row's sum over the tile's positions and
  the classes of the log-probability whose class is the position's label.  So after point 4·i + k row r of the buffer
  holds tiles 0 … k of row 8i + r, after k = 3 the whole row's double sum, and that is when the block is written
  back; the rows 8i … 8i+7 over the eight i cover the array.  Only commutativity and associativity of the sum are
  used.
-/
import proofs.«417459_j46256797778252_2_alg».proof.Proof.KIFrame
import proofs.«417459_j46256797778252_2_alg».proof.Proof.Spec
import proofs.«417459_j46256797778252_2_alg».proof.Proof.KIPayload
import Idealize.ShloMosaic.Lib.Pipeline.Value
import Idealize.ShloMosaic.Lib.ValueIdx

set_option maxRecDepth 16384

noncomputable section

namespace Cert.KernelIdeal.HF

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The two argument arrays the kernel reads, and their blocks at point t, at their literal types. -/
abbrev lpArr (c : Dev nD) : Vec Ideal S64x8192x48 .f32 := m ((c : Thread nD τ).loc main_arg0)
abbrev labArr (c : Dev nD) : Vec Ideal S64x8192 .i32 := m ((c : Thread nD τ).loc main_arg2)
abbrev lpblk (c : Dev nD) (t : Fin cfg0.N) : Vec Ideal S8x2048x48 .f32 := iblk m c 0 t
abbrev labblk (c : Dev nD) (t : Fin cfg0.N) : Vec Ideal S8x2048 .i32 := iblk m c 1 t

/-- The three index maps over the grid: point t is row block t / 4 and tile t % 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = t.val / 4 ∧ win0_1.index t (1 : Fin 2) = t.val % 4
    ∧ win0_2.index t (0 : Fin 2) = t.val / 4 ∧ win0_2.index t (1 : Fin 2) = 0 :=
  (by decide +kernel : ∀ t : Fin grid0.N, _)

/-- Entry (r, s, cl) of the log-probability block at point t is entry (8·(t/4) + r, 2048·(t%4) + s, cl) of the array. -/
theorem lpblk_apply (c : Dev nD) (t : Fin cfg0.N) (x : S8x2048x48.Idx) (k : S64x8192x48.Idx)
    (hk0 : (k 0).val = 8 * (t.val / 4) + (x 0).val) (hk1 : (k 1).val = 2048 * (t.val % 4) + (x 1).val)
    (hk2 : (k 2).val = (x 2).val) :
    lpblk m c t x = lpArr m c k := by
  obtain ⟨e0, e1, e2, -⟩ := idx_facts t
  unfold lpblk iblk
  rw [View.read_apply]
  show V m c main_arg0 _ = m (c.tc.loc main_arg0) _
  rw [V_main_arg0]
  congr 1
  funext a
  apply Fin.ext
  match a with
  | ⟨0, _⟩ => show win0_0.index t 0 * 8 + 1 * (x 0).val = (k 0).val; rw [e0, hk0]; omega
  | ⟨1, _⟩ => show win0_0.index t 1 * 2048 + 1 * (x 1).val = (k 1).val; rw [e1, hk1]; omega
  | ⟨2, _⟩ => show win0_0.index t 2 * 48 + 1 * (x 2).val = (k 2).val; rw [e2, hk2]; omega

/-- Entry (r, s) of the label block at point t is entry (8·(t/4) + r, 2048·(t%4) + s) of the array. -/
theorem labblk_apply (c : Dev nD) (t : Fin cfg0.N) (x : S8x2048.Idx) (k : S64x8192.Idx)
    (hk0 : (k 0).val = 8 * (t.val / 4) + (x 0).val) (hk1 : (k 1).val = 2048 * (t.val % 4) + (x 1).val) :
    labblk m c t x = labArr m c k := by
  obtain ⟨-, -, -, e0, e1, -⟩ := idx_facts t
  unfold labblk iblk
  rw [View.read_apply]
  show V m c main_arg2 _ = m (c.tc.loc main_arg2) _
  rw [V_main_arg2]
  congr 1
  funext a
  apply Fin.ext
  match a with
  | ⟨0, _⟩ => show win0_1.index t 0 * 8 + 1 * (x 0).val = (k 0).val; rw [e0, hk0]; omega
  | ⟨1, _⟩ => show win0_1.index t 1 * 2048 + 1 * (x 1).val = (k 1).val; rw [e1, hk1]; omega

/-- What position s of row R contributes: the log-probability of the class that is its label (nothing when the
    label is no class). -/
abbrev posTerm (c : Dev nD) (R : Fin 64) (s : Fin 8192) : EReal :=
  ∑ cl : Fin 48, if labArr m c (ix2 R s) = BitVec.ofNat 32 cl.val then lpArr m c (ix3 R s cl) else (0 : EReal)

/-- The contributions of tile k of row R (positions 2048k … 2048k + 2047), summed; nothing past the fourth tile. -/
def tileSum (c : Dev nD) (R : Fin 64) (k : ℕ) : EReal :=
  if h : k < 4 then ∑ s : Fin 2048, posTerm m c R ⟨2048 * k + s.val, by omega⟩ else 0

/-- The row of the arrays that row r of the blocks at point n is. -/
abbrev rowOf (n : ℕ) (h : n < cfg0.N) (r : Fin 8) : Fin 64 :=
  ⟨8 * (n / 4) + r.val, by have hN : cfg0.N = 32 := N_0; have := r.isLt; omega⟩

/-- One point's step: the body adds, onto what the buffer held, the point's tile of the point's rows. -/
theorem step_apply (c : Dev nD) (t : Fin cfg0.N) (prev : Vec Ideal S8x1 .f32) (r : Fin 8) :
    k0_pay2 (F := Ideal) (lpblk m c t) (labblk m c t) prev (ix2 r (0 : Fin 1))
      = prev (ix2 r (0 : Fin 1)) + tileSum m c (rowOf t.val t.isLt r) (t.val % 4) := by
  refine (Cert.KIPayload.pay2_apply (lpblk m c t) (labblk m c t) prev r).trans ?_
  congr 1
  unfold tileSum
  rw [dif_pos (Nat.mod_lt _ (by decide))]
  refine Finset.sum_congr rfl fun s _ => Finset.sum_congr rfl fun cl _ => ?_
  rw [labblk_apply m c t (ix2 r s) (ix2 (rowOf t.val t.isLt r) ⟨2048 * (t.val % 4) + s.val, by omega⟩) rfl rfl,
    lpblk_apply m c t (ix3 r s cl) (ix3 (rowOf t.val t.isLt r) ⟨2048 * (t.val % 4) + s.val, by omega⟩ cl) rfl rfl rfl]

/-- THE ACCUMULATOR: after the point n = 4·i + k the buffer's row r holds tiles 0 … k of row 8·i + r. -/
theorem outsAt0_row (c : Dev nD) : ∀ (n : ℕ) (h : n < cfg0.N) (r : Fin 8),
    outsAt0 m c n h (ix2 r (0 : Fin 1)) = ∑ k ∈ Finset.range (n % 4 + 1), tileSum m c (rowOf n h r) k := by
  intro n
  induction n using Nat.strong_induction_on with
  | _ n ih =>
    intro h r
    by_cases h0 : n % 4 = 0
    · rw [outsAt0_A m c ⟨n, h⟩ h0]
      refine (step_apply m c ⟨n, h⟩ (k0_pay1 (F := Ideal)) r).trans ?_
      rw [Cert.KIPayload.pay1_apply r, zero_add, h0, Finset.sum_range_one]
    · rw [outsAt0_B m c ⟨n, h⟩ h0]
      refine (step_apply m c ⟨n, h⟩ _ r).trans ?_
      show outsAt0 m c (n - 1) _ (ix2 r (0 : Fin 1)) + tileSum m c (rowOf n h r) (n % 4) = _
      have e1 : (n - 1) % 4 + 1 = n % 4 := by omega
      have e2 : rowOf (n - 1) (Nat.lt_of_le_of_lt (Nat.sub_le _ _) h) r = rowOf n h r :=
        Fin.ext (by show 8 * ((n - 1) / 4) + r.val = 8 * (n / 4) + r.val; omega)
      rw [ih (n - 1) (by omega) _ r, e1, e2, Finset.sum_range_succ]

/-- What the output array ends holding: row R, the one column, is the emission score of row R. -/
abbrev G (c : Dev nD) : S64x1.Idx → EReal :=
  fun j => Cert.Crf.eSpec (lpArr m c) (labArr m c) (ix1 (j 0))

/-- After the last tile's point of a row block, the buffer's entry is the row's emission score. -/
theorem outsAt0_last (c : Dev nD) (t : Fin cfg0.N) (h3 : t.val % 4 = 3) (y : S8x1.Idx) (i : S64x1.Idx)
    (hi : (i 0).val = 8 * (t.val / 4) + (y 0).val) : outsAt0 m c t.val t.isLt y = G m c i := by
  obtain ⟨r, rfl⟩ : ∃ r : Fin 8, y = ix2 r (0 : Fin 1) := ⟨y 0, by
    funext a
    apply Fin.ext
    match a with
    | ⟨0, _⟩ => rfl
    | ⟨1, _⟩ => show (y 1).val = 0; have : (y 1).val < 1 := (y 1).isLt; omega⟩
  have hR : rowOf t.val t.isLt r = i 0 := Fin.ext hi.symm
  have e4 : t.val % 4 + 1 = 4 := by omega
  rw [outsAt0_row m c t.val t.isLt r, e4, hR, Finset.sum_range]
  show _ = ∑ s : Fin 8192, posTerm m c (i 0) s
  rw [← Cert.KIPayload.sum_tiles]
  refine Finset.sum_congr rfl fun k _ => ?_
  unfold tileSum
  rw [dif_pos k.isLt]

/-- What a point with k = 3 writes back is its block of the emission scores. -/
theorem flushed2_eq (c : Dev nD) (t : Fin cfg0.N) (hf : (cfg0.win 2).flush t = true) :
    (dats (F := Ideal) m 0 c).flushed 2 t = ((cfg0.win 2).blk t).view.read (Elt Ideal) (G m c) := by
  have h3 : t.val % 4 = 3 := (flush0_2 t).mp hf
  obtain ⟨-, -, -, -, -, e0, -⟩ := idx_facts t
  show (cfg0.win 2).cut (grid0.coords t) ((dats (F := Ideal) m 0 c).after 2 t) = _
  rw [after0_2]
  funext j
  rw [View.read_apply]
  show outsAt0 m c t.val t.isLt ((cfg0.win 2).xinj (grid0.coords t) j) = G m c (((cfg0.win 2).blk t).view.emb j)
  refine outsAt0_last m c t h3 _ _ ?_
  show win0_2.index t 0 * 8 + 1 * (j 0).val = 8 * (t.val / 4) + (j 0).val
  rw [e0]; omega

/-- An index of the output array is in point t's block iff each coordinate is in the block's range on its axis. -/
theorem mem_blk2 (t : Fin cfg0.N) (i : S64x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v2).slice (win0_2.rect t)).set ↔ _
  rw [View.set_slice_whole, Rect.mem_set_unit]
  exact Iff.rfl

/-- Row R of the output is written back by the last tile's point of its row block, 4·(R / 8) + 3. -/
theorem cover2 (i : S64x1.Idx) : ∃ t : Fin cfg0.N, (cfg0.win 2).flush t = true ∧ i ∈ ((cfg0.win 2).blk t).view.set := by
  have hN : cfg0.N = 32 := N_0
  have hi0 : (i 0).val < 64 := (i 0).isLt
  have hi1 : (i 1).val < 1 := (i 1).isLt
  let t : Fin cfg0.N := ⟨4 * ((i 0).val / 8) + 3, by omega⟩
  have ht : t.val = 4 * ((i 0).val / 8) + 3 := rfl
  obtain ⟨-, -, -, -, -, e0, e1⟩ := idx_facts t
  refine ⟨t, (flush0_2 t).mpr (by rw [ht]; omega), ?_⟩
  rw [mem_blk2]
  intro a
  match a with
  | ⟨0, _⟩ => show win0_2.index t 0 * 8 ≤ (i 0).val ∧ (i 0).val < win0_2.index t 0 * 8 + 8; rw [e0, ht]; omega
  | ⟨1, _⟩ => show win0_2.index t 1 * 1 ≤ (i 1).val ∧ (i 1).val < win0_2.index t 1 * 1 + 1; rw [e1]; omega

/-- THE ARRAY after the run: row b of the [64,1] output holds the emission score of row b of the arguments. -/
theorem final2 (c : Dev nD) : (dats (F := Ideal) m 0 c).arrAt 2 cfg0.N = fun j => Cert.Crf.eSpec (m ((c.tc : Thread nD τ).loc main_arg0)) (m ((c.tc : Thread nD τ).loc main_arg2)) (ValueIdx.ix1 (j 0)) :=
  (dats (F := Ideal) m 0 c).arrAt_eq_of_cover 2 (G m c) (flushed2_eq m c) cover2

end Cert.KernelIdeal.HF

end
-- ==== Proof.LibScatterSet.lean ====
/-
  A scatter whose body returns the update (a `set` scatter), read at one element.

  `Host.scatter` is the left fold, over the update indices in row-major order, of the step "replace the element at
  the update's result index by the body applied to it and the update; drop the update when it has no result index".
  Reading the fold at one operand index `i`:
  * an update whose result index is not `i` leaves the value at `i` alone (`step_apply_of_ne`), so when no update
    lands at `i` the operand's value stays (`scatter_of_none`, for any body);
  * with the body `fun _ b => b` an update that lands at `i` leaves its own value there (`step_apply_of_eq`), so when
    exactly one update index `j₀` lands at `i` the result at `i` is `upd j₀` (`scatter_set_of_unique`).
  The second half reads `ScatterDims.resultIdx?` for the dimension numbers of a two-coordinate point scatter of a
  `[64, 8192]` update into a `[64, 4096]` operand through a `[64, 8192, 2]` array of (row, col) pairs.
-/
import Idealize.ShloMosaic.PureOps

namespace Cert.ScatterSet

open Idealize.ShloMosaic

/-! ## The fold read at one element -/

section Fold

variable {s si u : Shape} {w : Nat} {α : Type}

/-- One step of the scatter's fold: update number `n` (in row-major order) applied to the running result `r`. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

/-- The scatter is the fold of `step` over all update numbers. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update does not land at `i` leaves the value at `i`. -/
theorem step_apply_of_ne (d : ScatterDims s si u) (f : α → α → α) (idx : IVec si w) (upd : u.Idx → α) (r : s.Idx → α)
    (n : Fin u.numel) (i : s.Idx) (h : d.resultIdx? (u.rowMajor.symm n) idx ≠ some i) : step d f idx upd r n i = r i := by
  unfold step
  generalize d.resultIdx? (u.rowMajor.symm n) idx = q at h
  cases q with
  | none => rfl
  | some i₀ =>
    have hne : i ≠ i₀ := fun e => h (by rw [e])
    show (if i = i₀ then _ else r i) = r i
    rw [if_neg hne]

/-- A step whose update lands at `i` puts the body's value there. -/
theorem step_apply_of_eq (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  show (if i = i then _ else r i) = _
  rw [if_pos rfl]

/-- Folding over update numbers none of which lands at `i` leaves the value at `i`. -/
theorem foldl_apply_of_none (d : ScatterDims s si u) (f : α → α → α) (idx : IVec si w) (upd : u.Idx → α) (i : s.Idx)
    (L : List (Fin u.numel)) (hL : ∀ n ∈ L, d.resultIdx? (u.rowMajor.symm n) idx ≠ some i) (r : s.Idx → α) :
    L.foldl (step d f idx upd) r i = r i := by
  induction L generalizing r with
  | nil => rfl
  | cons a L ih =>
    rw [List.foldl_cons, ih (fun n hn => hL n (List.mem_cons_of_mem a hn))]
    exact step_apply_of_ne d f idx upd r a i (hL a List.mem_cons_self)

/-- With the body returning the update: when `n₀` lands at `i` and is the only update number of `L` that can, the fold
    over `L` holds `n₀`'s update at `i` if `n₀` is in `L`, and the start value otherwise. (A repeated `n₀` writes the
    same value again.) -/
theorem foldl_set_apply (d : ScatterDims s si u) (idx : IVec si w) (upd : u.Idx → α) (i : s.Idx) (n₀ : Fin u.numel)
    (h₀ : d.resultIdx? (u.rowMajor.symm n₀) idx = some i) (L : List (Fin u.numel))
    (hL : ∀ n ∈ L, d.resultIdx? (u.rowMajor.symm n) idx = some i → n = n₀) (r : s.Idx → α) :
    L.foldl (step d (fun _ b => b) idx upd) r i = if n₀ ∈ L then upd (u.rowMajor.symm n₀) else r i := by
  induction L generalizing r with
  | nil => simp
  | cons a L ih =>
    rw [List.foldl_cons, ih (fun n hn => hL n (List.mem_cons_of_mem a hn))]
    by_cases ha : a = n₀
    · subst ha
      rw [step_apply_of_eq d _ idx upd r a i h₀]
      simp
    · have hne : d.resultIdx? (u.rowMajor.symm a) idx ≠ some i := fun e => ha (hL a List.mem_cons_self e)
      rw [step_apply_of_ne d _ idx upd r a i hne]
      have hiff : n₀ ∈ a :: L ↔ n₀ ∈ L := by
        rw [List.mem_cons]
        exact ⟨fun h => h.elim (fun e => absurd e.symm ha) id, Or.inr⟩
      simp only [hiff]

end Fold

/-- With the body `fun _ b => b`, an element that exactly one update index `j₀` lands at holds that update. -/
theorem scatter_set_of_unique {s si u : Shape} {w : Nat} {α : Type} (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  rw [scatter_eq_foldl]
  have h₀' : d.resultIdx? (u.rowMajor.symm (u.rowMajor j₀)) idx = some i := by rw [Equiv.symm_apply_apply]; exact h₀
  rw [foldl_set_apply d idx upd i (u.rowMajor j₀) h₀' (List.finRange u.numel)
    (fun n _ hn => by rw [← huniq _ hn, Equiv.apply_symm_apply]) x]
  rw [if_pos (List.mem_finRange _), Equiv.symm_apply_apply]

/-- An element no update index lands at keeps the operand's value, whatever the body. -/
theorem scatter_of_none {s si u : Shape} {w : Nat} {α : Type} (d : ScatterDims s si u) (f : α → α → α) (x : s.Idx → α) (idx : IVec si w) (upd : u.Idx → α)
    (i : s.Idx) (hnone : ∀ j, d.resultIdx? j idx ≠ some i) : Host.scatter d f x idx upd i = x i := by
  rw [scatter_eq_foldl]
  exact foldl_apply_of_none d f idx upd i _ (fun n _ => hnone _) x

/-! ## The point scatter of a `[64, 8192]` update into a `[64, 4096]` operand at (row, col) pairs, out-of-range pairs dropped

The dimension numbers: no update window axes, both operand axes inserted, the index vector (axis 2 of the `[64, 8192, 2]`
index array) naming operand axes 0 and 1 in order. Update index `(a, b)` then reads its start index at `(a, b, 0)` and
`(a, b, 1)`, signed; its window coordinate is 0 on both operand axes; so it lands at `(row, col)` when both are inside
the operand and is dropped otherwise. -/

/-- The operand's shape. -/
abbrev S64x4096 : Shape := ⟨2, ![64, 4096]⟩
/-- The updates' shape. -/
abbrev S64x8192 : Shape := ⟨2, ![64, 8192]⟩
/-- The scatter indices' shape: one (row, col) pair per update element. -/
abbrev S64x8192x2 : Shape := ⟨3, ![64, 8192, 2]⟩

/-- The operand index with coordinates `(a, b)`: a match on the axis literal, so a coordinate of it computes by `rfl`. -/
abbrev ix2' (a : Fin 64) (b : Fin 4096) : S64x4096.Idx := fun | ⟨0, _⟩ => a | ⟨1, _⟩ => b
/-- The scatter-indices index with coordinates `(a, b, k)`, likewise a match on the axis literal. -/
abbrev ix3' (a : Fin 64) (b : Fin 8192) (k : Fin 2) : S64x8192x2.Idx := fun | ⟨0, _⟩ => a | ⟨1, _⟩ => b | ⟨2, _⟩ => k

/-- With these dimension numbers the start of update index `j`'s window on operand axis 0 (axis 1) is the index array
    at `(j 0, j 1, 0)` (at `(j 0, j 1, 1)`) read signed, and its window coordinate is 0 on every operand axis. -/
theorem start_window_rowcol (d : ScatterDims S64x4096 S64x8192x2 S64x8192)
    (hd1 : d.updateWindowDims = []) (hd2 : d.insertedWindowDims = [0, 1]) (hd3 : d.scatterDimsToOperandDims = [0, 1])
    (hd4 : d.indexVectorDim = 2) (idx : IVec S64x8192x2 32) (j : S64x8192.Idx) :
    d.start j idx 0 = (idx (ix3' (j 0) (j 1) 0)).toInt ∧ d.start j idx 1 = (idx (ix3' (j 0) (j 1) 1)).toInt ∧
      ∀ a, d.window j a = 0 := by
  obtain ⟨uw, iw, sd, iv, wf⟩ := d
  simp only at hd1 hd2 hd3 hd4
  subst hd1 hd2 hd3 hd4
  refine ⟨?_, ?_, ?_⟩
  · unfold ScatterDims.start
    rw [dif_pos (show (0 : Fin S64x4096.rank) ∈ ([0, 1] : List (Fin S64x4096.rank)) by decide)]
    congr 2
    funext b
    match b with
    | ⟨0, _⟩ => rfl
    | ⟨1, _⟩ => rfl
    | ⟨2, _⟩ => rfl
  · unfold ScatterDims.start
    rw [dif_pos (show (1 : Fin S64x4096.rank) ∈ ([0, 1] : List (Fin S64x4096.rank)) by decide)]
    congr 2
    funext b
    match b with
    | ⟨0, _⟩ => rfl
    | ⟨1, _⟩ => rfl
    | ⟨2, _⟩ => rfl
  · intro a
    unfold ScatterDims.window
    rw [dif_neg ((by decide : ∀ a : Fin S64x4096.rank, a ∉ S64x4096.kept [0, 1]) a)]

/-- Start plus window coordinate on operand axis `a`: the index array at `(j 0, j 1, a)`, read signed. -/
theorem start_add_window_rowcol (d : ScatterDims S64x4096 S64x8192x2 S64x8192)
    (hd1 : d.updateWindowDims = []) (hd2 : d.insertedWindowDims = [0, 1]) (hd3 : d.scatterDimsToOperandDims = [0, 1])
    (hd4 : d.indexVectorDim = 2) (idx : IVec S64x8192x2 32) (j : S64x8192.Idx) (a : Fin S64x4096.rank) :
    d.start j idx a + (d.window j a : Int) = (idx (ix3' (j 0) (j 1) a)).toInt := by
  obtain ⟨h0, h1, hw⟩ := start_window_rowcol d hd1 hd2 hd3 hd4 idx j
  rw [hw a]
  match a with
  | ⟨0, _⟩ => exact (Int.add_zero _).trans h0
  | ⟨1, _⟩ => exact (Int.add_zero _).trans h1

/-- A (row, col) pair inside the operand: the update lands there. -/
theorem resultIdx?_rowcol_some (d : ScatterDims S64x4096 S64x8192x2 S64x8192)
    (hd1 : d.updateWindowDims = []) (hd2 : d.insertedWindowDims = [0, 1]) (hd3 : d.scatterDimsToOperandDims = [0, 1])
    (hd4 : d.indexVectorDim = 2) (idx : IVec S64x8192x2 32) (j : S64x8192.Idx)
    (hr : 0 ≤ (idx (ix3' (j 0) (j 1) 0)).toInt ∧ (idx (ix3' (j 0) (j 1) 0)).toInt < 64)
    (hc : 0 ≤ (idx (ix3' (j 0) (j 1) 1)).toInt ∧ (idx (ix3' (j 0) (j 1) 1)).toInt < 4096) :
    d.resultIdx? j idx
      = some (ix2' ⟨(idx (ix3' (j 0) (j 1) 0)).toInt.toNat, by omega⟩ ⟨(idx (ix3' (j 0) (j 1) 1)).toInt.toNat, by omega⟩) := by
  have key := start_add_window_rowcol d hd1 hd2 hd3 hd4 idx j
  unfold ScatterDims.resultIdx?
  simp only [key]
  have hall : ∀ a : Fin S64x4096.rank, 0 ≤ (idx (ix3' (j 0) (j 1) a)).toInt ∧ (idx (ix3' (j 0) (j 1) a)).toInt < (S64x4096.size a : Int) := by
    intro a
    match a with
    | ⟨0, _⟩ => exact hr
    | ⟨1, _⟩ => exact hc
  rw [dif_pos hall]
  congr 1
  funext a
  match a with
  | ⟨0, _⟩ => rfl
  | ⟨1, _⟩ => rfl

/-- A column at or past the operand's 4096 columns: the update is dropped. -/
theorem resultIdx?_rowcol_none (d : ScatterDims S64x4096 S64x8192x2 S64x8192)
    (hd1 : d.updateWindowDims = []) (hd2 : d.insertedWindowDims = [0, 1]) (hd3 : d.scatterDimsToOperandDims = [0, 1])
    (hd4 : d.indexVectorDim = 2) (idx : IVec S64x8192x2 32) (j : S64x8192.Idx)
    (hc : 4096 ≤ (idx (ix3' (j 0) (j 1) 1)).toInt) : d.resultIdx? j idx = none := by
  have key := start_add_window_rowcol d hd1 hd2 hd3 hd4 idx j
  unfold ScatterDims.resultIdx?
  simp only [key]
  rw [dif_neg]
  intro hall
  have h1 : (idx (ix3' (j 0) (j 1) 1)).toInt < (4096 : Int) := (hall 1).2
  omega

/-- A (row, col) pair outside the operand on either axis: the update is dropped. -/
theorem resultIdx?_rowcol_none_of (d : ScatterDims S64x4096 S64x8192x2 S64x8192)
    (hd1 : d.updateWindowDims = []) (hd2 : d.insertedWindowDims = [0, 1]) (hd3 : d.scatterDimsToOperandDims = [0, 1])
    (hd4 : d.indexVectorDim = 2) (idx : IVec S64x8192x2 32) (j : S64x8192.Idx)
    (h : ¬ ((0 ≤ (idx (ix3' (j 0) (j 1) 0)).toInt ∧ (idx (ix3' (j 0) (j 1) 0)).toInt < 64) ∧
            (0 ≤ (idx (ix3' (j 0) (j 1) 1)).toInt ∧ (idx (ix3' (j 0) (j 1) 1)).toInt < 4096))) :
    d.resultIdx? j idx = none := by
  have key := start_add_window_rowcol d hd1 hd2 hd3 hd4 idx j
  unfold ScatterDims.resultIdx?
  simp only [key]
  rw [dif_neg]
  intro hall
  exact h ⟨hall 0, hall 1⟩

/-- Update index `j` lands at operand index `i` exactly when its (row, col) pair, read signed, is `i`'s coordinates. -/
theorem resultIdx?_rowcol_eq_some_iff (d : ScatterDims S64x4096 S64x8192x2 S64x8192)
    (hd1 : d.updateWindowDims = []) (hd2 : d.insertedWindowDims = [0, 1]) (hd3 : d.scatterDimsToOperandDims = [0, 1])
    (hd4 : d.indexVectorDim = 2) (idx : IVec S64x8192x2 32) (j : S64x8192.Idx) (i : S64x4096.Idx) :
    d.resultIdx? j idx = some i ↔
      (idx (ix3' (j 0) (j 1) 0)).toInt = ((i 0).val : Int) ∧ (idx (ix3' (j 0) (j 1) 1)).toInt = ((i 1).val : Int) := by
  have hi0 : (i 0).val < 64 := (i 0).isLt
  have hi1 : (i 1).val < 4096 := (i 1).isLt
  constructor
  · intro h
    by_cases hin : (0 ≤ (idx (ix3' (j 0) (j 1) 0)).toInt ∧ (idx (ix3' (j 0) (j 1) 0)).toInt < 64) ∧
            (0 ≤ (idx (ix3' (j 0) (j 1) 1)).toInt ∧ (idx (ix3' (j 0) (j 1) 1)).toInt < 4096)
    · rw [resultIdx?_rowcol_some d hd1 hd2 hd3 hd4 idx j hin.1 hin.2] at h
      have he := Option.some.inj h
      have e0 : (idx (ix3' (j 0) (j 1) 0)).toInt.toNat = (i 0).val := congrArg (fun k : S64x4096.Idx => (k 0).val) he
      have e1 : (idx (ix3' (j 0) (j 1) 1)).toInt.toNat = (i 1).val := congrArg (fun k : S64x4096.Idx => (k 1).val) he
      omega
    · rw [resultIdx?_rowcol_none_of d hd1 hd2 hd3 hd4 idx j hin] at h
      exact absurd h (by simp)
  · rintro ⟨e0, e1⟩
    rw [resultIdx?_rowcol_some d hd1 hd2 hd3 hd4 idx j (by omega) (by omega)]
    congr 1
    funext a
    match a with
    | ⟨0, _⟩ => exact Fin.ext (by show (idx (ix3' (j 0) (j 1) 0)).toInt.toNat = (i 0).val; omega)
    | ⟨1, _⟩ => exact Fin.ext (by show (idx (ix3' (j 0) (j 1) 1)).toInt.toNat = (i 1).val; omega)

end Cert.ScatterSet
-- ==== Proof.LibPrefixCount.lean ====
/-
  A RUNNING COUNT ALONG THE ROWS OF A 0/1 MASK. The inclusive prefix sum of a widened [n × m] mask along its second
  axis is a windowed sum: a window of one row and m columns, at unit strides, over the operand padded with m − 1 zero
  columns on the left. The window of result element (p, q) covers padded columns q … q + m − 1, that is the operand's
  columns q − (m − 1) … q of row p, of which those below zero are padding. So its sum is the number of set bits of row
  p at columns 0 … q.

  The argument: a left fold of word addition that does not wrap is the sum of the values (toNat_foldl_addi); over the
  row-major positions of a shape that is the sum over the shape's multi-indices (toNat_foldl_addi_rowMajor); position
  (0, k) of the window contributes 1 exactly when m − 1 ≤ q + k and the bit at column q + k − (m − 1) of row p is set
  (toNat_windowTerm); and k ↦ q + k − (m − 1) matches those positions with the columns q' ≤ q whose bit is set.
-/
import Idealize.ShloMosaic.PureOps
import Idealize.ShloMosaic.Lib.StableHlo.Predicate
import Mathlib.Algebra.BigOperators.Fin

namespace Cert.PrefixCount

open Idealize.ShloMosaic Idealize.ShloMosaic.StableHlo.Predicate

/-- A left fold of word addition over a list, from any word: when accumulator plus values stay below 2³² nothing wraps, and
    the result's value is the accumulator's plus the sum of the values. -/
theorem toNat_foldl_addi {ι : Type} (g : ι → BitVec 32) :
    ∀ (l : List ι) (a : BitVec 32), a.toNat + (l.map fun n => (g n).toNat).sum < 2 ^ 32 →
      (l.foldl (fun r n => IntOp.addi r (g n)) a).toNat = a.toNat + (l.map fun n => (g n).toNat).sum
  | [], a, _ => by simp
  | x :: l, a, h => by
    rw [List.map_cons, List.sum_cons] at h
    have hx : (IntOp.addi a (g x)).toNat = a.toNat + (g x).toNat := by
      show (a + g x).toNat = _
      rw [BitVec.toNat_add]; exact Nat.mod_eq_of_lt (by omega)
    rw [List.foldl_cons, List.map_cons, List.sum_cons, toNat_foldl_addi g l _ (by rw [hx]; omega), hx]; omega

/-- Folded from zero over the row-major positions of a shape `W`, reading a function of the multi-index at each position: the
    sum of that function's values over all multi-indices of `W` (row-major numbering is a bijection, and a sum does not
    depend on the order). -/
theorem toNat_foldl_addi_rowMajor (W : Shape) (G : W.Idx → BitVec 32) (hS : ∑ i, (G i).toNat < 2 ^ 32) :
    ((List.finRange W.numel).foldl (fun r n => IntOp.addi r (G (W.rowMajor.symm n))) 0#32).toNat = ∑ i, (G i).toNat := by
  have e : ((List.finRange W.numel).map fun n => (G (W.rowMajor.symm n)).toNat).sum = ∑ i, (G i).toNat := by
    rw [← Fin.sum_univ_def]
    exact Equiv.sum_comp W.rowMajor.symm (fun i => (G i).toNat)
  rw [toNat_foldl_addi _ _ _ (by rw [e]; simpa using hS), e]; simp

section Window
variable {n m lo1 : Nat}

/-- The operand column that position `k` of the window of result column `q` covers, `q + k − lo1` (when `q + k < lo1` the
    position is padding; the truncated difference is then 0, still a column, and is not read). Never past `q`, as `k ≤ lo1`. -/
def col (hlo : lo1 + 1 = m) (q k : Fin m) : Fin m := ⟨q.val + k.val - lo1, by have := q.isLt; have := k.isLt; omega⟩

/-- The word the window of result element (p, q) reads at its position `i`: with `P a` the padded coordinate
    (result coordinate times stride, plus window coordinate) on axis `a`, the widened mask at `P − lo` when that is inside the
    operand on every axis, else zero (padding). -/
def windowTerm (mask : IVec ⟨2, ![n, m]⟩ 1) (hw : 1 < 32) (p : Fin n) (q : Fin m) (lo1 : Nat)
    (i : (⟨2, ![1, m]⟩ : Shape).Idx) : BitVec 32 :=
  if hin : ∀ a : Fin 2, (![0, lo1] : Fin 2 → Nat) a ≤ (ij p q a).val * (![1, 1] : Fin 2 → Nat) a + (i a).val ∧
      (ij p q a).val * (![1, 1] : Fin 2 → Nat) a + (i a).val - (![0, lo1] : Fin 2 → Nat) a < (![n, m] : Fin 2 → Nat) a
  then extui 32 mask hw (fun a => ⟨(ij p q a).val * (![1, 1] : Fin 2 → Nat) a + (i a).val - (![0, lo1] : Fin 2 → Nat) a, (hin a).2⟩)
  else 0#32

/-- Position `i = (0, k)` of the window of (p, q) contributes 1 when it is not padding (`lo1 ≤ q + k`) and the bit of row `p`
    at column `q + k − lo1` is set, else 0. On the row axis the window has one position and no padding, so the row is `p`;
    on the column axis `q + k − lo1 ≤ q < m`, so a position is outside the operand only by falling in the low padding. -/
theorem toNat_windowTerm (hlo : lo1 + 1 = m) (mask : IVec ⟨2, ![n, m]⟩ 1) (hw : 1 < 32) (p : Fin n) (q : Fin m)
    (i : (⟨2, ![1, m]⟩ : Shape).Idx) :
    (windowTerm mask hw p q lo1 i).toNat = if lo1 ≤ q.val + (i 1).val ∧ mask (ij p (col hlo q (i 1))) = 1#1 then 1 else 0 := by
  have hk : (i 1).val < m := (i 1).isLt
  have h0 : (i 0).val < 1 := (i 0).isLt
  have hp := p.isLt
  have hq := q.isLt
  unfold windowTerm
  by_cases hc : lo1 ≤ q.val + (i 1).val
  · have hin : ∀ a : Fin 2, (![0, lo1] : Fin 2 → Nat) a ≤ (ij p q a).val * (![1, 1] : Fin 2 → Nat) a + (i a).val ∧
        (ij p q a).val * (![1, 1] : Fin 2 → Nat) a + (i a).val - (![0, lo1] : Fin 2 → Nat) a < (![n, m] : Fin 2 → Nat) a := by
      refine Fin.forall_fin_two.2 ⟨?_, ?_⟩
      · show 0 ≤ p.val * 1 + (i 0).val ∧ p.val * 1 + (i 0).val - 0 < n
        omega
      · show lo1 ≤ q.val * 1 + (i 1).val ∧ q.val * 1 + (i 1).val - lo1 < m
        omega
    rw [dif_pos hin]
    have hidx : (fun a : Fin 2 => (⟨(ij p q a).val * (![1, 1] : Fin 2 → Nat) a + (i a).val - (![0, lo1] : Fin 2 → Nat) a, (hin a).2⟩ : Fin ((![n, m] : Fin 2 → Nat) a)))
        = ij p (col hlo q (i 1)) := by
      funext a
      match a with
      | ⟨0, _⟩ => exact Fin.ext (by show p.val * 1 + (i 0).val - 0 = p.val; omega)
      | ⟨1, _⟩ => exact Fin.ext (by show q.val * 1 + (i 1).val - lo1 = q.val + (i 1).val - lo1; omega)
    rw [hidx]
    show ((mask (ij p (col hlo q (i 1)))).setWidth 32).toNat = _
    rw [toNat_setWidth_bit]
    simp only [hc, true_and]
  · rw [dif_neg (fun hin => hc (by have h1 : lo1 ≤ q.val * 1 + (i 1).val := (hin 1).1; omega))]
    simp [hc]

end Window

/-- THE PREFIX COUNT: the windowed sum (window [1, m], unit strides, low padding [0, m − 1], no high padding) of a widened
    [n × m] mask from a zero initial value is, at (p, q), the number of columns `q' ≤ q` whose bit is set in row `p`
    (`m` below 2³², so the count does not wrap). -/
theorem toNat_reduceWindow_prefix_count {n m lo1 : Nat} (hm : m < 2 ^ 32) (hlo : lo1 + 1 = m) (mask : IVec ⟨2, ![n, m]⟩ 1) (hw : 1 < 32)
    (h : (⟨2, ![n, m]⟩ : Shape).ReduceWindows (![1, m] : Fin 2 → Nat) ![1, 1] ![0, lo1] ![0, 0] ⟨2, ![n, m]⟩)
    {u : Shape} (hu : 0 < u.numel) (init : u.Idx → BitVec 32) (hinit : init (Shape.Idx.first hu) = 0#32)
    (p : Fin n) (q : Fin m) :
    (Host.reduceWindow IntOp.addi (![1, m] : Fin 2 → Nat) ![1, 1] ![0, lo1] ![0, 0] (extui 32 mask hw) init h hu (ij p q)).toNat
      = (Finset.univ.filter fun q' : Fin m => q' ≤ q ∧ mask (ij p q') = 1#1).card := by
  classical
  -- the windowed sum is the fold of word addition, from zero, of the window's terms in row-major order
  unfold Host.reduceWindow
  simp only [hinit]
  show ((List.finRange (⟨2, ![1, m]⟩ : Shape).numel).foldl
    (fun r k => IntOp.addi r (windowTerm mask hw p q lo1 ((⟨2, ![1, m]⟩ : Shape).rowMajor.symm k))) 0#32).toNat = _
  have hsum : ∑ i : (⟨2, ![1, m]⟩ : Shape).Idx, (windowTerm mask hw p q lo1 i).toNat
      = (Finset.univ.filter fun q' : Fin m => q' ≤ q ∧ mask (ij p q') = 1#1).card := by
    -- each term is 0 or 1, so the sum counts the window positions that read a set bit;
    -- k ↦ q + k − lo1 and q' ↦ q' + lo1 − q match them with the columns q' ≤ q whose bit is set
    simp only [toNat_windowTerm hlo]
    rw [← Finset.card_filter]
    have hq := q.isLt
    refine Finset.card_bij' (fun i _ => col hlo q (i 1))
      (fun q' hq' => i1q ⟨q'.val + lo1 - q.val, by
        have h1 : q'.val ≤ q.val := (Finset.mem_filter.1 hq').2.1
        omega⟩) ?_ ?_ ?_ ?_
    · intro i hi
      have hi' := (Finset.mem_filter.1 hi).2
      have hk : (i 1).val < m := (i 1).isLt
      refine Finset.mem_filter.2 ⟨Finset.mem_univ _, ?_, hi'.2⟩
      show q.val + (i 1).val - lo1 ≤ q.val
      omega
    · intro q' hq'
      have h1 : q'.val ≤ q.val := (Finset.mem_filter.1 hq').2.1
      have h2 := (Finset.mem_filter.1 hq').2.2
      have hcol : col hlo q (⟨q'.val + lo1 - q.val, by omega⟩ : Fin m) = q' := Fin.ext (by show q.val + (q'.val + lo1 - q.val) - lo1 = q'.val; omega)
      refine Finset.mem_filter.2 ⟨Finset.mem_univ _, ?_, ?_⟩
      · show lo1 ≤ q.val + (q'.val + lo1 - q.val)
        omega
      · show mask (ij p (col hlo q (⟨q'.val + lo1 - q.val, _⟩ : Fin m))) = 1#1
        rw [hcol]; exact h2
    · intro i hi
      have hi' := (Finset.mem_filter.1 hi).2
      have hk : (i 1).val < m := (i 1).isLt
      have h0 : (i 0).val < 1 := (i 0).isLt
      funext a
      match a with
      | ⟨0, _⟩ => exact Fin.ext (by show 0 = (i 0).val; omega)
      | ⟨1, _⟩ => exact Fin.ext (by show q.val + (i 1).val - lo1 + lo1 - q.val = (i 1).val; omega)
    · intro q' hq'
      have h1 : q'.val ≤ q.val := (Finset.mem_filter.1 hq').2.1
      exact Fin.ext (by show q.val + (q'.val + lo1 - q.val) - lo1 = q'.val; omega)
  -- the count is at most m < 2³², so the fold does not wrap and is that sum
  rw [toNat_foldl_addi_rowMajor _ _ (by rw [hsum]; exact lt_of_le_of_lt (Finset.card_le_univ _) (by simpa using hm)), hsum]

end Cert.PrefixCount
-- ==== Proof.KerY.lean ====
/-
  The kernel's host code compacts the labels of each row without a sort.

  A position is SCORED when its label is not the ignore word. The running count of scored positions along a row
  (an inclusive prefix sum of the 0/1 mask) numbers the scored positions 1, 2, 3, …; a scored position's SLOT is
  its number minus one, an ignored position's slot is 4096, one past the last column of the result. The result
  starts as zeros and every position writes its label at (row, slot); a write at column 4096 is outside the result
  and is dropped. So slot t of row b ends up holding the label at the t-th scored position of row b: `yKer = ySpec`.

  `yKer` is the composition of exactly the host operations the program runs for this, one definition per operation
  or per few operations.
-/
import proofs.«417459_j46256797778252_2_alg».proof.Proof.Spec
import proofs.«417459_j46256797778252_2_alg».proof.Proof.LibScatterSet
import proofs.«417459_j46256797778252_2_alg».proof.Proof.LibPrefixCount
import proofs.«417459_j46256797778252_2_alg».proof.Proof.Gen.KernelIdeal
import Idealize.ShloMosaic.Lib.StableHlo.Predicate
import Idealize.ShloMosaic.Lib.ValueIdx
import Idealize.ShloMosaic.Lib.Pipeline.Value

noncomputable section

namespace Cert.KerY

open Idealize.ShloMosaic Idealize.ShloMosaic.StableHlo.Predicate Cert.KernelIdeal Cert.Crf
open Cert.KernelIdeal.Facts₀ Cert.KernelIdeal.Facts

/-! ## The host operations, one value at a time -/

/-- The ignore word at every position (the constant -100 and its broadcast). -/
def ignV : IVec S64x8192 32 :=
  broadcastInDim S64x8192 ![] bcast_S_S64x8192 (constantI S_ 32 4294967196#32)

/-- The scored mask: one bit per position, set when the label is not the ignore word. -/
def scoredMask (lab : IVec S64x8192 32) : IVec S64x8192 1 := cmpi .ne lab ignV

/-- The scored mask widened to 32-bit words (0 or 1). -/
def scoredWord (lab : IVec S64x8192 32) : IVec S64x8192 32 := extui 32 (scoredMask lab) natLt_1_32

/-- The prefix sum's initial value: the scalar zero (the constant and its rank-0 broadcast). -/
def cumInit : IVec S_ 32 := broadcastInDim S_ ![] bcast_S_S_ (constantI S_ 32 0#32)

/-- The running count: the inclusive prefix sum of the widened mask along each row, as a windowed sum. -/
def runCount (lab : IVec S64x8192 32) : IVec S64x8192 32 :=
  Host.reduceWindow IntOp.addi ![1, 8192] ![1, 1] ![0, 8191] ![0, 0] (scoredWord lab) cumInit
    reduceWindows_S64x8192_S64x8192_w1s1p0_0_w8192s1p8191_0 h_S_

/-- The word one at every position. -/
def onesV : IVec S64x8192 32 := broadcastInDim S64x8192 ![] bcast_S_S64x8192 (constantI S_ 32 1#32)

/-- The running count minus one. -/
def countPred (lab : IVec S64x8192 32) : IVec S64x8192 32 := subi (runCount lab) onesV

/-- The out-of-range column 4096 at every position (the constant, its conversion to itself, and its broadcast). -/
def dropV : IVec S64x8192 32 := broadcastInDim S64x8192 ![] bcast_S_S64x8192 (id (constantI S_ 32 4096#32))

/-- The slot: the running count minus one at a scored position, 4096 at an ignored one. -/
def slot (lab : IVec S64x8192 32) : IVec S64x8192 32 := select (scoredMask lab) (countPred lab) dropV

/-- The row numbers: 0 … 63 down the rows, constant along each row (iota, as a column, then as the rectangle). -/
def rowNum : IVec S64x8192 32 :=
  broadcastInDim S64x8192 ![0, 1] bcast_S64x1_S64x8192_0_1 (broadcastInDim S64x1 ![0] bcast_S64_S64x1_0 (iotaInDim S64 32 0))

/-- The result's starting value: zeros. -/
def zerosV : IVec S64x4096 32 := broadcastInDim S64x4096 ![] bcast_S_S64x4096 (constantI S_ 32 0#32)

/-- The word zero at every position. -/
def zeroV : IVec S64x8192 32 := broadcastInDim S64x8192 ![] bcast_S_S64x8192 (constantI S_ 32 0#32)

/-- The row numbers with a negative one moved up by the number of rows, 64 (none is negative). -/
def rowNorm : IVec S64x8192 32 :=
  select (cmpi .slt rowNum zeroV)
    (addi rowNum (broadcastInDim S64x8192 ![] bcast_S_S64x8192 (constantI S_ 32 64#32))) rowNum

/-- The slots with a negative one moved up by the number of columns, 4096 (none is negative). -/
def slotNorm (lab : IVec S64x8192 32) : IVec S64x8192 32 :=
  select (cmpi .slt (slot lab) zeroV)
    (addi (slot lab) (broadcastInDim S64x8192 ![] bcast_S_S64x8192 (constantI S_ 32 4096#32))) (slot lab)

/-- The row numbers as the first component of an index pair. -/
def rowComp : IVec S64x8192x1 32 := broadcastInDim S64x8192x1 ![0, 1] bcast_S64x8192_S64x8192x1_0_1 rowNorm

/-- The slots as the second component of an index pair. -/
def slotComp (lab : IVec S64x8192 32) : IVec S64x8192x1 32 :=
  broadcastInDim S64x8192x1 ![0, 1] bcast_S64x8192_S64x8192x1_0_1 (slotNorm lab)

/-- The index pairs (row, slot), one per position. -/
def idxPairs (lab : IVec S64x8192 32) : IVec S64x8192x2 32 :=
  concatenate S64x8192x2 2 [⟨S64x8192x1, rowComp⟩, ⟨S64x8192x1, slotComp lab⟩]
    concatenates_S64x8192x1_S64x8192x1_S64x8192x2_d2

/-- The compacted labels: zeros with every position's label written at its (row, slot) pair. -/
def yKer (lab : IVec S64x8192 32) : IVec S64x4096 32 :=
  Host.scatter scatter_S64x4096_S64x8192x2_S64x8192_n_01_01_2 (fun _ b => b) zerosV (idxPairs lab) lab

/-! ## The values read at a position -/

/-- The number of scored positions of row `p` at columns `0 … q`. -/
def cnt (lab : IVec S64x8192 32) (p : Fin 64) (q : Fin 8192) : Nat :=
  (Finset.univ.filter fun q' : Fin 8192 => q' ≤ q ∧ lab (ij p q') ≠ IGN).card

theorem cnt_le (lab : IVec S64x8192 32) (p : Fin 64) (q : Fin 8192) : cnt lab p q ≤ 8192 := by
  unfold cnt
  exact (Finset.card_filter_le _ _).trans (by simp)

theorem cnt_pos (lab : IVec S64x8192 32) (p : Fin 64) (q : Fin 8192) (h : lab (ij p q) ≠ IGN) : 1 ≤ cnt lab p q := by
  unfold cnt
  exact Finset.card_pos.2 ⟨q, Finset.mem_filter.2 ⟨Finset.mem_univ _, le_refl _, h⟩⟩

/-- The count grows strictly from a position to a later scored position. -/
theorem cnt_lt_of_lt (lab : IVec S64x8192 32) (p : Fin 64) (q q' : Fin 8192) (hlt : q < q') (h : lab (ij p q') ≠ IGN) :
    cnt lab p q < cnt lab p q' := by
  unfold cnt
  apply Finset.card_lt_card
  refine ⟨?_, ?_⟩
  · intro x hx
    have hx' := (Finset.mem_filter.1 hx).2
    exact Finset.mem_filter.2 ⟨Finset.mem_univ _, le_trans hx'.1 (le_of_lt hlt), hx'.2⟩
  · intro hsub
    have hmem : q' ∈ Finset.univ.filter fun x : Fin 8192 => x ≤ q ∧ lab (ij p x) ≠ IGN :=
      hsub (Finset.mem_filter.2 ⟨Finset.mem_univ _, le_refl _, h⟩)
    exact absurd (Finset.mem_filter.1 hmem).2.1 (not_le.2 hlt)

/-- The mask bit is set exactly at a scored position. -/
theorem scoredMask_eq_one_iff (lab : IVec S64x8192 32) (i : S64x8192.Idx) : scoredMask lab i = 1#1 ↔ lab i ≠ IGN := by
  show IntOp.cmpi .ne (lab i) IGN = 1#1 ↔ _
  unfold IntOp.cmpi
  rw [ofBool_eq_one_iff]
  exact bne_iff_ne

/-- The running count at (p, q) is the number of scored positions of row p up to q. -/
theorem toNat_runCount (lab : IVec S64x8192 32) (p : Fin 64) (q : Fin 8192) : (runCount lab (ij p q)).toNat = cnt lab p q := by
  have h := Cert.PrefixCount.toNat_reduceWindow_prefix_count (n := 64) (m := 8192) (lo1 := 8191) (by decide) rfl
    (scoredMask lab) natLt_1_32 reduceWindows_S64x8192_S64x8192_w1s1p0_0_w8192s1p8191_0 h_S_ cumInit rfl p q
  unfold cnt
  refine Eq.trans h ?_
  congr 1
  apply Finset.filter_congr
  intro x _
  rw [scoredMask_eq_one_iff]

theorem runCount_apply (lab : IVec S64x8192 32) (p : Fin 64) (q : Fin 8192) :
    runCount lab (ij p q) = BitVec.ofNat 32 (cnt lab p q) := by
  apply BitVec.eq_of_toNat_eq
  have := cnt_le lab p q
  rw [toNat_runCount, BitVec.toNat_ofNat, Nat.mod_eq_of_lt (by omega)]

/-- A scored position's slot is its running count minus one. -/
theorem slot_apply_scored (lab : IVec S64x8192 32) (p : Fin 64) (q : Fin 8192) (h : lab (ij p q) ≠ IGN) :
    slot lab (ij p q) = BitVec.ofNat 32 (cnt lab p q - 1) := by
  show Scalar.select (scoredMask lab (ij p q)) (IntOp.subi (runCount lab (ij p q)) 1#32) 4096#32 = _
  rw [(scoredMask_eq_one_iff lab (ij p q)).2 h, ValueIdx.select_one, runCount_apply]
  have := cnt_le lab p q
  exact sub_one_ofNat _ (cnt_pos lab p q h) (by omega)

/-- An ignored position's slot is 4096. -/
theorem slot_apply_ignored (lab : IVec S64x8192 32) (p : Fin 64) (q : Fin 8192) (h : lab (ij p q) = IGN) :
    slot lab (ij p q) = 4096#32 := by
  show Scalar.select (scoredMask lab (ij p q)) (IntOp.subi (runCount lab (ij p q)) 1#32) 4096#32 = _
  have hne : ¬ scoredMask lab (ij p q) = 1#1 := fun e => (scoredMask_eq_one_iff lab (ij p q)).1 e h
  rw [ValueIdx.eq_zero_of_ne_one hne, ValueIdx.select_zero]

/-- Moving a negative word up never binds on a word below 2³¹. -/
theorem select_slt_zero (a b : BitVec 32) (ha : a.toNat < 2 ^ 31) : Scalar.select (IntOp.cmpi .slt a 0#32) b a = a := by
  have hne : ¬ IntOp.cmpi .slt a 0#32 = 1#1 := by
    rw [slt_iff_toNat ha (by decide)]
    simp
  rw [ValueIdx.eq_zero_of_ne_one hne, ValueIdx.select_zero]

theorem slotNorm_apply (lab : IVec S64x8192 32) (i : S64x8192.Idx) (h : (slot lab i).toNat < 2 ^ 31) :
    slotNorm lab i = slot lab i :=
  select_slt_zero _ _ h

/-- The row number at (p, q) is p. -/
theorem rowNum_apply (p : Fin 64) (q : Fin 8192) : rowNum (ij p q) = BitVec.ofNat 32 p.val :=
  bcast_rows bcast_S64_S64x1_0 bcast_S64x1_S64x8192_0_1 (iotaInDim S64 32 0) p q

theorem rowNorm_apply (p : Fin 64) (q : Fin 8192) : rowNorm (ij p q) = BitVec.ofNat 32 p.val := by
  have h : rowNorm (ij p q) = rowNum (ij p q) :=
    select_slt_zero _ _ (by rw [rowNum_apply, BitVec.toNat_ofNat]; have := p.isLt; omega)
  rw [h, rowNum_apply]

/-- A rectangle given a trailing axis of extent one reads, at (p, q, 0), the rectangle at (p, q). -/
theorem bcast_unit3 {α : Type} (x : S64x8192.Idx → α) (p : Fin 64) (q : Fin 8192) :
    broadcastInDim S64x8192x1 ![0, 1] bcast_S64x8192_S64x8192x1_0_1 x (ValueIdx.ix3 p q (0 : Fin 1)) = x (ij p q) := by
  simp only [broadcastInDim]
  congr 1
  funext a
  match a with
  | ⟨0, _⟩ =>
    apply Fin.ext
    split
    · next h1 => change (64 : Nat) = 1 at h1; omega
    · rfl
  | ⟨1, _⟩ =>
    apply Fin.ext
    split
    · next h1 => change (8192 : Nat) = 1 at h1; omega
    · rfl

/-- The first component of the index pair of position (p, q) is the row number. -/
theorem idxPairs_row (lab : IVec S64x8192 32) (p : Fin 64) (q : Fin 8192) :
    idxPairs lab (Cert.ScatterSet.ix3' p q 0) = rowNorm (ij p q) := by
  have h := concatenate_pair_apply_left (t := S64x8192x2) (s₁ := S64x8192x1) (s₂ := S64x8192x1) 2 rowComp (slotComp lab)
    concatenates_S64x8192x1_S64x8192x1_S64x8192x2_d2 (Cert.ScatterSet.ix3' p q 0) rfl (ValueIdx.ix3 p q (0 : Fin 1))
    (by intro b; match b with | ⟨0, _⟩ => rfl | ⟨1, _⟩ => rfl | ⟨2, _⟩ => rfl)
  exact h.trans (bcast_unit3 rowNorm p q)

/-- The second component of the index pair of position (p, q) is the slot. -/
theorem idxPairs_slot (lab : IVec S64x8192 32) (p : Fin 64) (q : Fin 8192) :
    idxPairs lab (Cert.ScatterSet.ix3' p q 1) = slotNorm lab (ij p q) := by
  have h := concatenate_pair_apply_right (t := S64x8192x2) (s₁ := S64x8192x1) (s₂ := S64x8192x1) 2 rowComp (slotComp lab)
    concatenates_S64x8192x1_S64x8192x1_S64x8192x2_d2 (Cert.ScatterSet.ix3' p q 1) rfl rfl (ValueIdx.ix3 p q (0 : Fin 1))
    (by intro b hb; match b with | ⟨0, _⟩ => rfl | ⟨1, _⟩ => rfl | ⟨2, _⟩ => exact absurd rfl hb)
    rfl
  exact h.trans (bcast_unit3 (slotNorm lab) p q)

/-- Position (p, q) writes at result index `i` exactly when p is `i`'s row, the position is scored, and its running count
    is `i`'s column plus one. -/
theorem lands_iff (lab : IVec S64x8192 32) (p : Fin 64) (q : Fin 8192) (i : S64x4096.Idx) :
    scatter_S64x4096_S64x8192x2_S64x8192_n_01_01_2.resultIdx? (ij p q) (idxPairs lab) = some i ↔
      p = i 0 ∧ lab (ij p q) ≠ IGN ∧ cnt lab p q = (i 1).val + 1 := by
  rw [Cert.ScatterSet.resultIdx?_rowcol_eq_some_iff _ rfl rfl rfl rfl]
  show (idxPairs lab (Cert.ScatterSet.ix3' p q 0)).toInt = ((i 0).val : Int) ∧
      (idxPairs lab (Cert.ScatterSet.ix3' p q 1)).toInt = ((i 1).val : Int) ↔ _
  rw [idxPairs_row, idxPairs_slot, rowNorm_apply]
  have hp := p.isLt
  have hi1 : (i 1).val < 4096 := (i 1).isLt
  have hc := cnt_le lab p q
  rw [toInt_ofNat_small p.val (by omega)]
  by_cases h : lab (ij p q) ≠ IGN
  · have hpos := cnt_pos lab p q h
    have hs := slot_apply_scored lab p q h
    rw [slotNorm_apply lab _ (by rw [hs, BitVec.toNat_ofNat]; omega), hs, toInt_ofNat_small _ (by omega)]
    constructor
    · rintro ⟨e0, e1⟩
      exact ⟨Fin.ext (by omega), h, by omega⟩
    · rintro ⟨e0, _, e1⟩
      exact ⟨by rw [e0], by omega⟩
  · have h' : lab (ij p q) = IGN := not_not.1 h
    have hs := slot_apply_ignored lab p q h'
    rw [slotNorm_apply lab _ (by rw [hs]; decide), hs]
    constructor
    · rintro ⟨_, e1⟩
      have h4 : (4096#32 : BitVec 32).toInt = 4096 := by decide
      omega
    · rintro ⟨_, hh, _⟩
      exact absurd hh h

/-- The compaction without a sort is the compaction by the stable sort: slot t of row b holds the label at the t-th scored
    position of row b. That position is scored and its running count is t + 1, so it writes at (b, t); it is the only one
    that does, the running count being strictly increasing along the scored positions of a row, and ignored positions
    writing at column 4096, outside the result. -/
theorem yKer_eq (lab : IVec S64x8192 32)
    (hcount : ∀ b, (Finset.univ.filter fun q : Fin 8192 => lab (ij b q) ≠ IGN).card = 4096)
    (hscored : ∀ b t, lab (ij b (pos lab b t)) ≠ IGN)
    (hrank : ∀ b t, (Finset.univ.filter fun q : Fin 8192 => q ≤ pos lab b t ∧ lab (ij b q) ≠ IGN).card = t.val + 1) :
    yKer lab = ySpec lab := by
  funext j
  show yKer lab j = lab (ij (j 0) (pos lab (j 0) (j 1)))
  unfold yKer
  apply Cert.ScatterSet.scatter_set_of_unique
  · exact (lands_iff lab (j 0) (pos lab (j 0) (j 1)) j).2 ⟨rfl, hscored _ _, hrank _ _⟩
  · intro j' hj'
    obtain ⟨p, q, rfl⟩ : ∃ p q, j' = ij p q := ⟨j' 0, j' 1, (ij_eta j').symm⟩
    obtain ⟨e0, hsc, hcnt⟩ := (lands_iff lab p q j).1 hj'
    subst e0
    have hs : cnt lab (j 0) (pos lab (j 0) (j 1)) = (j 1).val + 1 := hrank _ _
    rcases lt_trichotomy q (pos lab (j 0) (j 1)) with h | h | h
    · have := cnt_lt_of_lt lab (j 0) q _ h (hscored _ _)
      omega
    · rw [h]
    · have := cnt_lt_of_lt lab (j 0) _ q h hsc
      omega

end Cert.KerY

end
-- ==== Proof.KITail2.lean ====
/-
  THE SECOND HALF OF THE HOST TAIL, from any contents.

  After the region the program finishes on the host: the per-state log-softmax of the start arcs (the first 42 of the
  1848 arc scores) and of the transition and final arcs (the other 1806, viewed [42 × 43]); the gold labels shifted
  from labels to states (y − 1, a negative state wrapped by + 42); the start arc of each row's first state, the
  transition arcs of its consecutive states (the two state columns concatenated into index pairs and gathered from the
  [42 × 42] block, then summed along the row), the final arc of its last state; their sum, plus the row's emission
  score; and the total over the rows divided by the number of scored positions. These are the same operations, on
  the same values, as the language-model score lmScore and the closing total of the specification: each buffer of
  the tail holds the specification's value of the same name.

  The tail is read in stretches. For each stretch: from ANY contents in which the few buffers the stretch reads hold
  the specification's values, the buffers it writes hold the specification's values afterwards, and the buffers a later
  stretch still needs are not written. The last stretch is cut before and after its one concatenation. Chaining the
  stretches gives the result buffer after the whole tail (tail2).
-/
import proofs.«417459_j46256797778252_2_alg».proof.Proof.Gen.KernelIdeal.Launch
import proofs.«417459_j46256797778252_2_alg».proof.Proof.Spec
import proofs.«417459_j46256797778252_2_alg».proof.Proof.Gen.ReferenceIdeal
import Idealize.ShloMosaic.Lib.StableHlo.Run

noncomputable section

namespace Cert.KernelIdeal.HF2

open Idealize.ShloMosaic Idealize.ShloMosaic.StableHlo Cert.KernelIdeal Cert.KernelIdeal.Gen Cert.Crf

variable {F : FTy → Type} [FloatOps F]

/-- Running two lines in a row is running the second from what the first leaves. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The last stretch's first 35 operations, its 36th (the concatenation), and the 24 after it. -/
abbrev ops8a : List (HloOp τ sig (Elt F)) := hostOps1_8.take 35
abbrev ops8b : List (HloOp τ sig (Elt F)) := (hostOps1_8.drop 35).take 1
abbrev ops8c : List (HloOp τ sig (Elt F)) := hostOps1_8.drop 36

/-- The last stretch is the three pieces in a row. -/
theorem ops8_split : (hostOps1_8 : List (HloOp τ sig (Elt F))) = ops8a ++ (ops8b ++ ops8c) := by
  have h1 : (hostOps1_8 : List (HloOp τ sig (Elt F))).drop 36 = (hostOps1_8.drop 35).drop 1 := by rw [List.drop_drop]
  rw [ops8c, h1, ops8b, List.take_append_drop, ops8a, List.take_append_drop]

/-- Writes a piece of the last stretch as the literal list of its operations. -/
local macro "chunk_lists" : tactic =>
  `(tactic| simp only [ops8a, ops8b, ops8c, hostOps1_8, List.take_succ_cons, List.take_zero, List.drop_succ_cons, List.drop_zero])

/-! ## The log-softmax of the start arcs (14 operations) -/

theorem s5 (W : Valuation τ sig (Elt F)) (A : (⟨S1848, .f32⟩ : BufTy).Contents (Elt F)) (y : (⟨S64x4096, .i32⟩ : BufTy).Contents (Elt F))
    (h27 : W (Proc.devRef .tc main_v27) = lm_main_v12 A y) :
    StableHlo.after hostOps1_5 W (Proc.devRef .tc main_v28) = lm_main_v13 A y := by
  after_results_simp
  rw [h27]
  rfl

theorem k5_arg1 (W : Valuation τ sig (Elt F)) :
    StableHlo.after hostOps1_5 W (Proc.devRef .tc main_arg1) = W (Proc.devRef .tc main_arg1) := by
  after_results_simp

theorem k5_v26 (W : Valuation τ sig (Elt F)) :
    StableHlo.after hostOps1_5 W (Proc.devRef .tc main_v26) = W (Proc.devRef .tc main_v26) := by
  after_results_simp

theorem k5_v3 (W : Valuation τ sig (Elt F)) :
    StableHlo.after hostOps1_5 W (Proc.devRef .tc main_v3) = W (Proc.devRef .tc main_v3) := by
  after_results_simp

theorem k5_v1 (W : Valuation τ sig (Elt F)) :
    StableHlo.after hostOps1_5 W (Proc.devRef .tc main_v1) = W (Proc.devRef .tc main_v1) := by
  after_results_simp

/-! ## The transition and final arcs, sliced and viewed [42 × 43] (2 operations) -/

theorem s6 (W : Valuation τ sig (Elt F)) (A : (⟨S1848, .f32⟩ : BufTy).Contents (Elt F)) (y : (⟨S64x4096, .i32⟩ : BufTy).Contents (Elt F))
    (hA : W (Proc.devRef .tc main_arg1) = A) :
    StableHlo.after hostOps1_6 W (Proc.devRef .tc main_v30) = lm_main_v15 A y := by
  after_results_simp
  rw [hA]
  rfl

theorem k6_v28 (W : Valuation τ sig (Elt F)) :
    StableHlo.after hostOps1_6 W (Proc.devRef .tc main_v28) = W (Proc.devRef .tc main_v28) := by
  after_results_simp

theorem k6_v26 (W : Valuation τ sig (Elt F)) :
    StableHlo.after hostOps1_6 W (Proc.devRef .tc main_v26) = W (Proc.devRef .tc main_v26) := by
  after_results_simp

theorem k6_v3 (W : Valuation τ sig (Elt F)) :
    StableHlo.after hostOps1_6 W (Proc.devRef .tc main_v3) = W (Proc.devRef .tc main_v3) := by
  after_results_simp

theorem k6_v1 (W : Valuation τ sig (Elt F)) :
    StableHlo.after hostOps1_6 W (Proc.devRef .tc main_v1) = W (Proc.devRef .tc main_v1) := by
  after_results_simp

/-! ## Their row-wise log-softmax (15 operations) -/

theorem s7 (W : Valuation τ sig (Elt F)) (A : (⟨S1848, .f32⟩ : BufTy).Contents (Elt F)) (y : (⟨S64x4096, .i32⟩ : BufTy).Contents (Elt F))
    (h30 : W (Proc.devRef .tc main_v30) = lm_main_v15 A y) :
    StableHlo.after hostOps1_7 W (Proc.devRef .tc main_v31) = lm_main_v16 A y := by
  after_results_simp
  rw [h30]
  rfl

theorem k7_v28 (W : Valuation τ sig (Elt F)) :
    StableHlo.after hostOps1_7 W (Proc.devRef .tc main_v28) = W (Proc.devRef .tc main_v28) := by
  after_results_simp

theorem k7_v26 (W : Valuation τ sig (Elt F)) :
    StableHlo.after hostOps1_7 W (Proc.devRef .tc main_v26) = W (Proc.devRef .tc main_v26) := by
  after_results_simp

theorem k7_v3 (W : Valuation τ sig (Elt F)) :
    StableHlo.after hostOps1_7 W (Proc.devRef .tc main_v3) = W (Proc.devRef .tc main_v3) := by
  after_results_simp

theorem k7_v1 (W : Valuation τ sig (Elt F)) :
    StableHlo.after hostOps1_7 W (Proc.devRef .tc main_v1) = W (Proc.devRef .tc main_v1) := by
  after_results_simp

/-! ## The last stretch up to the concatenation (35 operations): the arc blocks, the states, the start arcs read, the two state columns -/

theorem s8a_v32 (W : Valuation τ sig (Elt F)) (A : (⟨S1848, .f32⟩ : BufTy).Contents (Elt F)) (y : (⟨S64x4096, .i32⟩ : BufTy).Contents (Elt F))
    (h31 : W (Proc.devRef .tc main_v31) = lm_main_v16 A y) :
    StableHlo.after ops8a W (Proc.devRef .tc main_v32) = lm_main_v17 A y := by
  chunk_lists
  after_results_simp
  rw [h31]
  rfl

theorem s8a_v34 (W : Valuation τ sig (Elt F)) (A : (⟨S1848, .f32⟩ : BufTy).Contents (Elt F)) (y : (⟨S64x4096, .i32⟩ : BufTy).Contents (Elt F))
    (h31 : W (Proc.devRef .tc main_v31) = lm_main_v16 A y) :
    StableHlo.after ops8a W (Proc.devRef .tc main_v34) = lm_main_v19 A y := by
  chunk_lists
  after_results_simp
  rw [h31]
  rfl

theorem s8a_v36 (W : Valuation τ sig (Elt F)) (A : (⟨S1848, .f32⟩ : BufTy).Contents (Elt F)) (y : (⟨S64x4096, .i32⟩ : BufTy).Contents (Elt F))
    (h26 : W (Proc.devRef .tc main_v26) = y) :
    StableHlo.after ops8a W (Proc.devRef .tc main_v36) = lm_main_v21 A y := by
  chunk_lists
  after_results_simp
  rw [h26]
  rfl

theorem s8a_v45 (W : Valuation τ sig (Elt F)) (A : (⟨S1848, .f32⟩ : BufTy).Contents (Elt F)) (y : (⟨S64x4096, .i32⟩ : BufTy).Contents (Elt F))
    (h26 : W (Proc.devRef .tc main_v26) = y) (h28 : W (Proc.devRef .tc main_v28) = lm_main_v13 A y) :
    StableHlo.after ops8a W (Proc.devRef .tc main_v45) = lm_main_v30 A y := by
  chunk_lists
  after_results_simp
  rw [h26, h28]
  rfl

theorem s8a_v58 (W : Valuation τ sig (Elt F)) (A : (⟨S1848, .f32⟩ : BufTy).Contents (Elt F)) (y : (⟨S64x4096, .i32⟩ : BufTy).Contents (Elt F))
    (h26 : W (Proc.devRef .tc main_v26) = y) :
    StableHlo.after ops8a W (Proc.devRef .tc main_v58) = lm_main_v43 A y := by
  chunk_lists
  after_results_simp
  rw [h26]
  rfl

theorem s8a_v59 (W : Valuation τ sig (Elt F)) (A : (⟨S1848, .f32⟩ : BufTy).Contents (Elt F)) (y : (⟨S64x4096, .i32⟩ : BufTy).Contents (Elt F))
    (h26 : W (Proc.devRef .tc main_v26) = y) :
    StableHlo.after ops8a W (Proc.devRef .tc main_v59) = lm_main_v44 A y := by
  chunk_lists
  after_results_simp
  rw [h26]
  rfl

theorem k8a_v3 (W : Valuation τ sig (Elt F)) :
    StableHlo.after ops8a W (Proc.devRef .tc main_v3) = W (Proc.devRef .tc main_v3) := by
  chunk_lists
  after_results_simp

theorem k8a_v1 (W : Valuation τ sig (Elt F)) :
    StableHlo.after ops8a W (Proc.devRef .tc main_v1) = W (Proc.devRef .tc main_v1) := by
  chunk_lists
  after_results_simp

/-! ## The concatenation of the two state columns into index pairs (1 operation) -/

theorem s8b (W : Valuation τ sig (Elt F)) (A : (⟨S1848, .f32⟩ : BufTy).Contents (Elt F)) (y : (⟨S64x4096, .i32⟩ : BufTy).Contents (Elt F))
    (h58 : W (Proc.devRef .tc main_v58) = lm_main_v43 A y) (h59 : W (Proc.devRef .tc main_v59) = lm_main_v44 A y) :
    StableHlo.after ops8b W (Proc.devRef .tc main_v60) = lm_main_v45 A y := by
  chunk_lists
  after_results
  rw [h58, h59]
  rfl

theorem k8b_v32 (W : Valuation τ sig (Elt F)) :
    StableHlo.after ops8b W (Proc.devRef .tc main_v32) = W (Proc.devRef .tc main_v32) := by
  chunk_lists
  after_results_simp

theorem k8b_v34 (W : Valuation τ sig (Elt F)) :
    StableHlo.after ops8b W (Proc.devRef .tc main_v34) = W (Proc.devRef .tc main_v34) := by
  chunk_lists
  after_results_simp

theorem k8b_v36 (W : Valuation τ sig (Elt F)) :
    StableHlo.after ops8b W (Proc.devRef .tc main_v36) = W (Proc.devRef .tc main_v36) := by
  chunk_lists
  after_results_simp

theorem k8b_v45 (W : Valuation τ sig (Elt F)) :
    StableHlo.after ops8b W (Proc.devRef .tc main_v45) = W (Proc.devRef .tc main_v45) := by
  chunk_lists
  after_results_simp

theorem k8b_v3 (W : Valuation τ sig (Elt F)) :
    StableHlo.after ops8b W (Proc.devRef .tc main_v3) = W (Proc.devRef .tc main_v3) := by
  chunk_lists
  after_results_simp

theorem k8b_v1 (W : Valuation τ sig (Elt F)) :
    StableHlo.after ops8b W (Proc.devRef .tc main_v1) = W (Proc.devRef .tc main_v1) := by
  chunk_lists
  after_results_simp

/-! ## The rest (24 operations): transition arcs gathered and summed, final arcs, emission score added, total and count, division -/

theorem s8c (W : Valuation τ sig (Elt F)) (A : (⟨S1848, .f32⟩ : BufTy).Contents (Elt F)) (y : (⟨S64x4096, .i32⟩ : BufTy).Contents (Elt F)) (e : (⟨S64, .f32⟩ : BufTy).Contents (Elt F)) (lab : (⟨S64x8192, .i32⟩ : BufTy).Contents (Elt F))
    (h60 : W (Proc.devRef .tc main_v60) = lm_main_v45 A y) (h32 : W (Proc.devRef .tc main_v32) = lm_main_v17 A y)
    (h34 : W (Proc.devRef .tc main_v34) = lm_main_v19 A y) (h36 : W (Proc.devRef .tc main_v36) = lm_main_v21 A y)
    (h45 : W (Proc.devRef .tc main_v45) = lm_main_v30 A y) (he : W (Proc.devRef .tc main_v3) = e)
    (hmask : W (Proc.devRef .tc main_v1) = cmpi .ne lab (broadcastInDim S64x8192 ![] bcast_S_S64x8192 (constantI S_ 32 4294967196#32))) :
    StableHlo.after ops8c W (Proc.devRef .tc main_v79) = total (lmScore A y) e lab := by
  chunk_lists
  after_results_simp
  rw [h60, h32, h34, h36, h45, he, hmask]
  rfl

/-! ## The four stretches in a row -/

/-- From any contents in which the arc scores are `A`, the gold sequences `y`, the emission scores `e`, the start arcs' slice
    already taken and the scored mask that of the labels `lab`: after the four stretches the result buffer holds the total
    of the language-model scores of `y` under `A` plus `e`, over the number of scored positions. -/
theorem tail2 (W : Valuation τ sig (Elt F)) (A : (⟨S1848, .f32⟩ : BufTy).Contents (Elt F)) (y : (⟨S64x4096, .i32⟩ : BufTy).Contents (Elt F)) (e : (⟨S64, .f32⟩ : BufTy).Contents (Elt F)) (lab : (⟨S64x8192, .i32⟩ : BufTy).Contents (Elt F))
    (hA : W (Proc.devRef .tc main_arg1) = A) (hy : W (Proc.devRef .tc main_v26) = y) (he : W (Proc.devRef .tc main_v3) = e)
    (h27 : W (Proc.devRef .tc main_v27) = extractStridedSlice S42 ![0] A slices_S1848_S42_0)
    (hmask : W (Proc.devRef .tc main_v1) = cmpi .ne lab (broadcastInDim S64x8192 ![] bcast_S_S64x8192 (constantI S_ 32 4294967196#32))) :
    StableHlo.after (hostOps1_5 ++ hostOps1_6 ++ hostOps1_7 ++ hostOps1_8) W (Proc.devRef .tc main_v79) = total (lmScore A y) e lab := by
  have h12 : W (Proc.devRef .tc main_v27) = lm_main_v12 A y := h27
  rw [ops8_split, after_app, after_app, after_app, after_app, after_app]
  -- after the start arcs' log-softmax
  have a5_28 := s5 W A y h12
  have a5_arg1 := (k5_arg1 W).trans hA
  have a5_26 := (k5_v26 W).trans hy
  have a5_3 := (k5_v3 W).trans he
  have a5_1 := (k5_v1 W).trans hmask
  -- after the slice and the view
  have a6_30 := s6 _ A y a5_arg1
  have a6_28 := (k6_v28 _).trans a5_28
  have a6_26 := (k6_v26 _).trans a5_26
  have a6_3 := (k6_v3 _).trans a5_3
  have a6_1 := (k6_v1 _).trans a5_1
  -- after the row-wise log-softmax
  have a7_31 := s7 _ A y a6_30
  have a7_28 := (k7_v28 _).trans a6_28
  have a7_26 := (k7_v26 _).trans a6_26
  have a7_3 := (k7_v3 _).trans a6_3
  have a7_1 := (k7_v1 _).trans a6_1
  -- up to the concatenation
  have a8_32 := s8a_v32 _ A y a7_31
  have a8_34 := s8a_v34 _ A y a7_31
  have a8_36 := s8a_v36 _ A y a7_26
  have a8_45 := s8a_v45 _ A y a7_26 a7_28
  have a8_58 := s8a_v58 _ A y a7_26
  have a8_59 := s8a_v59 _ A y a7_26
  have a8_3 := (k8a_v3 _).trans a7_3
  have a8_1 := (k8a_v1 _).trans a7_1
  -- the concatenation
  have b_60 := s8b _ A y a8_58 a8_59
  have b_32 := (k8b_v32 _).trans a8_32
  have b_34 := (k8b_v34 _).trans a8_34
  have b_36 := (k8b_v36 _).trans a8_36
  have b_45 := (k8b_v45 _).trans a8_45
  have b_3 := (k8b_v3 _).trans a8_3
  have b_1 := (k8b_v1 _).trans a8_1
  exact s8c _ A y e lab b_60 b_32 b_34 b_36 b_45 b_3 b_1

end Cert.KernelIdeal.HF2

end
-- ==== Proof.KITail.lean ====
/-
  What the program's host operations after the region compute.

  The region leaves the per-row emission sums in its output array and every other buffer as it found it. The
  operations after it reshape those sums to a vector of 64 rows; build the gold sequence from the labels (widen the
  scored mask, take its running count along each row, subtract one, put the out-of-range column at the ignored
  positions, pair each position's row number with its slot, and scatter the labels to those pairs over zeros); score
  the gold sequence under the arc scores; add the emission sums; sum over the rows and divide by the number of scored
  labels. This module follows the first five stretches of those operations, one stretch at a time and from any buffer
  contents, names what each leaves by the definitions of the gold sequence's pieces, and joins them with the last four
  stretches' statement into the contents of the result buffer.
-/
import proofs.«417459_j46256797778252_2_alg».proof.Proof.KIFrame
import proofs.«417459_j46256797778252_2_alg».proof.Proof.KerY
import proofs.«417459_j46256797778252_2_alg».proof.Proof.Spec
import proofs.«417459_j46256797778252_2_alg».proof.Proof.Gen.ReferenceIdeal
import proofs.«417459_j46256797778252_2_alg».proof.Proof.KITail2
import Idealize.ShloMosaic.Lib.Pipeline.FrameSuffix
import Idealize.ShloMosaic.Lib.Pipeline.Cells
import Idealize.ShloMosaic.Lib.StableHlo.Run

set_option maxRecDepth 16384

noncomputable section

namespace Cert.KernelIdeal.HF

open Cert.KernelIdeal Cert.KernelIdeal.Gen Cert.Crf
open Idealize.ShloMosaic Idealize.ShloMosaic.TcCoe Idealize.ShloMosaic.Tactic
open Idealize.ShloMosaic.StableHlo (after)
open Cert.KerY
open Idealize.ShloMosaic.Pipeline (Dat Cfg Window)

variable {F : FTy → Type} [FloatOps F]

variable (m : (ℓ : Loc nD τ sig) → Buf (Elt F) ℓ)

/-! ## The contents the tail starts from

The region leaves the three windows' arrays at what the pipeline computes and every other buffer at its
region-entry contents: the per-row emission sums in the output array, the labels and the arc scores as launched,
the scored mask as the three operations before the region computed it from the labels. -/

/-- The buffer contents the tail starts from. -/
abbrev W0 (c : Dev nD) : Valuation τ sig (Elt F) :=
  Pipeline.withArrays (cfgs 0).spec c (V0 m c) fun w => (dats m 0 c).arrAt w (cfgs 0).N

/-- The output window's array holds what the pipeline computes. -/
theorem W0_v2 (c : Dev nD) : W0 m c (Proc.devRef .tc main_v2) = (dats m 0 c).arrAt 2 cfg0.N :=
  Pipeline.withArrays_arr spec0 launch0.win.arr_inj c _ _ 2

/-- The scored mask is no window's array: it holds what the operations before the region left, the comparison of the
    labels with the ignore word. -/
theorem W0_v1 (c : Dev nD) : W0 m c (Proc.devRef .tc main_v1) = scoredMask (m ((c.tc : Thread nD τ).loc main_arg2)) := by
  refine (Pipeline.withArrays_of_ne spec0 c _ _ main_v1 (by decide)).trans ?_
  show StableHlo.after hostOps0 (fun b => m (c, b)) (Proc.devRef .tc main_v1) = _
  after_results
  rfl

/-- The arc scores are no window's array and no operation before the region writes them. -/
theorem W0_arg1 (c : Dev nD) : W0 m c (Proc.devRef .tc main_arg1) = m ((c.tc : Thread nD τ).loc main_arg1) :=
  (Pipeline.withArrays_of_ne spec0 c _ _ main_arg1 (by decide)).trans (V_main_arg1 m c)

/-- The labels are an input window's array: the pipeline never writes it. -/
theorem W0_arg2 (c : Dev nD) : W0 m c (Proc.devRef .tc main_arg2) = m ((c.tc : Thread nD τ).loc main_arg2) := by
  refine (Pipeline.withArrays_arr spec0 launch0.win.arr_inj c _ _ 1).trans ?_
  refine ((dats m 0 c).arrAt_in 1 rfl _).trans ?_
  exact V_main_arg2 m c

/-! ## The first five stretches, one at a time, from any contents -/

section Stages
variable (W : Valuation τ sig (Elt F))

/-- Stretch 1: the emission sums as a vector of 64 rows, -/
theorem st1_v3 (e : (⟨S64x1, .f32⟩ : BufTy).Contents (Elt F)) (h : W (Proc.devRef .tc main_v2) = e) :
    after hostOps1 W (Proc.devRef .tc main_v3) = shapeCast _ e shapeCasts_S64x1_S64 := by
  after_results
  rw [h]
  rfl

/-- and the scored mask widened to words. -/
theorem st1_v4 (lab : IVec S64x8192 32) (h : W (Proc.devRef .tc main_v1) = scoredMask lab) :
    after hostOps1 W (Proc.devRef .tc main_v4) = scoredWord lab := by
  after_results
  rw [h]
  rfl

theorem st1_pass {r : Ref sig .tc} (hr : r ∈ [main_v1, main_arg1, main_arg2]) :
    after hostOps1 W (Proc.devRef .tc r) = W (Proc.devRef .tc r) := by
  simp only [List.mem_cons, List.not_mem_nil, or_false] at hr
  rcases hr with rfl | rfl | rfl <;> after_results

/-- Stretch 2: the running count of scored positions along each row. -/
theorem st2_v5 (lab : IVec S64x8192 32) (h : W (Proc.devRef .tc main_v4) = scoredWord lab) :
    after hostOps1_1 W (Proc.devRef .tc main_v5) = runCount lab := by
  after_results
  simp only [StableHlo.TRef.ofBuf, StableHlo.TRef.toBuf, cast_eq]
  rw [h]
  rfl

theorem st2_pass {r : Ref sig .tc} (hr : r ∈ [main_v1, main_v3, main_arg1, main_arg2]) :
    after hostOps1_1 W (Proc.devRef .tc r) = W (Proc.devRef .tc r) := by
  simp only [List.mem_cons, List.not_mem_nil, or_false] at hr
  rcases hr with rfl | rfl | rfl | rfl <;> after_results

/-- Stretch 3: the running count minus one, -/
theorem st3_v7 (lab : IVec S64x8192 32) (h : W (Proc.devRef .tc main_v5) = runCount lab) :
    after hostOps1_2 W (Proc.devRef .tc main_v7) = countPred lab := by
  after_results
  rw [h]
  rfl

/-- and the out-of-range column as a scalar. -/
theorem st3_c1 : after hostOps1_2 W (Proc.devRef .tc main_c_1) = constantI S_ 32 4096#32 := by
  after_results

theorem st3_pass {r : Ref sig .tc} (hr : r ∈ [main_v1, main_v3, main_arg1, main_arg2]) :
    after hostOps1_2 W (Proc.devRef .tc r) = W (Proc.devRef .tc r) := by
  simp only [List.mem_cons, List.not_mem_nil, or_false] at hr
  rcases hr with rfl | rfl | rfl | rfl <;> after_results

/-- Stretch 4: each position's slot. -/
theorem st4_v8 (lab : IVec S64x8192 32) (h1 : W (Proc.devRef .tc main_v1) = scoredMask lab)
    (h7 : W (Proc.devRef .tc main_v7) = countPred lab) (hc : W (Proc.devRef .tc main_c_1) = constantI S_ 32 4096#32) :
    after hostOps1_3 W (Proc.devRef .tc main_v8) = slot lab := by
  after_results
  simp only [StableHlo.TRef.ofBuf, StableHlo.TRef.toBuf, cast_eq]
  rw [h1, h7, hc]
  rfl

theorem st4_pass {r : Ref sig .tc} (hr : r ∈ [main_v1, main_v3, main_arg1, main_arg2]) :
    after hostOps1_3 W (Proc.devRef .tc r) = W (Proc.devRef .tc r) := by
  simp only [List.mem_cons, List.not_mem_nil, or_false] at hr
  rcases hr with rfl | rfl | rfl | rfl <;> after_results

/-- Stretch 5 in three pieces: the row numbers and the zeros; the slots brought into range; the index pairs and the scatter. -/
abbrev ops5a : List (HloOp τ sig (Elt F)) :=
  [ StableHlo.nullary main_v9 (iotaInDim S64 32 0),
    StableHlo.unary main_v9 main_v10 (broadcastInDim S64x1 ![0] bcast_S64_S64x1_0 : (⟨S64, .i32⟩ : BufTy).Contents (Elt F) → (⟨S64x1, .i32⟩ : BufTy).Contents (Elt F)),
    StableHlo.unary main_v10 main_v11 (broadcastInDim S64x8192 ![0, 1] bcast_S64x1_S64x8192_0_1 : (⟨S64x1, .i32⟩ : BufTy).Contents (Elt F) → (⟨S64x8192, .i32⟩ : BufTy).Contents (Elt F)),
    StableHlo.nullary main_c_2 (constantI S_ 32 0#32),
    StableHlo.unary main_c_2 main_v12 (broadcastInDim S64x4096 ![] bcast_S_S64x4096 : (⟨S_, .i32⟩ : BufTy).Contents (Elt F) → (⟨S64x4096, .i32⟩ : BufTy).Contents (Elt F)),
    StableHlo.nullary main_c_3 (constantI S_ 32 0#32),
    StableHlo.unary main_c_3 main_v13 (broadcastInDim S64x8192 ![] bcast_S_S64x8192 : (⟨S_, .i32⟩ : BufTy).Contents (Elt F) → (⟨S64x8192, .i32⟩ : BufTy).Contents (Elt F)),
    StableHlo.binary main_v11 main_v13 main_v14 (cmpi .slt : (⟨S64x8192, .i32⟩ : BufTy).Contents (Elt F) → (⟨S64x8192, .i32⟩ : BufTy).Contents (Elt F) → (⟨S64x8192, .i1⟩ : BufTy).Contents (Elt F)),
    StableHlo.nullary main_c_4 (constantI S_ 32 64#32),
    StableHlo.unary main_c_4 main_v15 (broadcastInDim S64x8192 ![] bcast_S_S64x8192 : (⟨S_, .i32⟩ : BufTy).Contents (Elt F) → (⟨S64x8192, .i32⟩ : BufTy).Contents (Elt F)),
    StableHlo.binary main_v11 main_v15 main_v16 (addi : (⟨S64x8192, .i32⟩ : BufTy).Contents (Elt F) → (⟨S64x8192, .i32⟩ : BufTy).Contents (Elt F) → (⟨S64x8192, .i32⟩ : BufTy).Contents (Elt F)),
    StableHlo.ternary main_v14 main_v16 main_v11 main_v17 (select : (⟨S64x8192, .i1⟩ : BufTy).Contents (Elt F) → (⟨S64x8192, .i32⟩ : BufTy).Contents (Elt F) → (⟨S64x8192, .i32⟩ : BufTy).Contents (Elt F) → (⟨S64x8192, .i32⟩ : BufTy).Contents (Elt F)) ]
abbrev ops5b : List (HloOp τ sig (Elt F)) :=
  [ StableHlo.nullary main_c_5 (constantI S_ 32 0#32),
    StableHlo.unary main_c_5 main_v18 (broadcastInDim S64x8192 ![] bcast_S_S64x8192 : (⟨S_, .i32⟩ : BufTy).Contents (Elt F) → (⟨S64x8192, .i32⟩ : BufTy).Contents (Elt F)),
    StableHlo.binary main_v8 main_v18 main_v19 (cmpi .slt : (⟨S64x8192, .i32⟩ : BufTy).Contents (Elt F) → (⟨S64x8192, .i32⟩ : BufTy).Contents (Elt F) → (⟨S64x8192, .i1⟩ : BufTy).Contents (Elt F)),
    StableHlo.nullary main_c_6 (constantI S_ 32 4096#32),
    StableHlo.unary main_c_6 main_v20 (broadcastInDim S64x8192 ![] bcast_S_S64x8192 : (⟨S_, .i32⟩ : BufTy).Contents (Elt F) → (⟨S64x8192, .i32⟩ : BufTy).Contents (Elt F)),
    StableHlo.binary main_v8 main_v20 main_v21 (addi : (⟨S64x8192, .i32⟩ : BufTy).Contents (Elt F) → (⟨S64x8192, .i32⟩ : BufTy).Contents (Elt F) → (⟨S64x8192, .i32⟩ : BufTy).Contents (Elt F)),
    StableHlo.ternary main_v19 main_v21 main_v8 main_v22 (select : (⟨S64x8192, .i1⟩ : BufTy).Contents (Elt F) → (⟨S64x8192, .i32⟩ : BufTy).Contents (Elt F) → (⟨S64x8192, .i32⟩ : BufTy).Contents (Elt F) → (⟨S64x8192, .i32⟩ : BufTy).Contents (Elt F)) ]
abbrev ops5c : List (HloOp τ sig (Elt F)) :=
  [ StableHlo.unary main_v17 main_v23 (broadcastInDim S64x8192x1 ![0, 1] bcast_S64x8192_S64x8192x1_0_1 : (⟨S64x8192, .i32⟩ : BufTy).Contents (Elt F) → (⟨S64x8192x1, .i32⟩ : BufTy).Contents (Elt F)),
    StableHlo.unary main_v22 main_v24 (broadcastInDim S64x8192x1 ![0, 1] bcast_S64x8192_S64x8192x1_0_1 : (⟨S64x8192, .i32⟩ : BufTy).Contents (Elt F) → (⟨S64x8192x1, .i32⟩ : BufTy).Contents (Elt F)),
    StableHlo.binary main_v23 main_v24 main_v25 ((fun a b => concatenate S64x8192x2 2 [⟨S64x8192x1, a⟩, ⟨S64x8192x1, b⟩] concatenates_S64x8192x1_S64x8192x1_S64x8192x2_d2) : (⟨S64x8192x1, .i32⟩ : BufTy).Contents (Elt F) → (⟨S64x8192x1, .i32⟩ : BufTy).Contents (Elt F) → (⟨S64x8192x2, .i32⟩ : BufTy).Contents (Elt F)),
    StableHlo.ternary main_v12 main_v25 main_arg2 main_v26 ((fun x i u => Host.scatter scatter_S64x4096_S64x8192x2_S64x8192_n_01_01_2 (fun _ b => b) x i u) : (⟨S64x4096, .i32⟩ : BufTy).Contents (Elt F) → (⟨S64x8192x2, .i32⟩ : BufTy).Contents (Elt F) → (⟨S64x8192, .i32⟩ : BufTy).Contents (Elt F) → (⟨S64x4096, .i32⟩ : BufTy).Contents (Elt F)),
    StableHlo.unary main_arg1 main_v27 ((extractStridedSlice S42 ![0] · slices_S1848_S42_0) : (⟨S1848, .f32⟩ : BufTy).Contents (Elt F) → (⟨S42, .f32⟩ : BufTy).Contents (Elt F)) ]

theorem hostOps1_4_cut : (hostOps1_4 : List (HloOp τ sig (Elt F))) = ops5a ++ ops5b ++ ops5c := rfl

theorem c5a_v17 : after ops5a W (Proc.devRef .tc main_v17) = rowNorm := by
  after_results
  rfl

theorem c5a_v12 : after ops5a W (Proc.devRef .tc main_v12) = zerosV := by
  after_results
  rfl

theorem c5a_pass {r : Ref sig .tc} (hr : r ∈ [main_v8, main_arg2]) :
    after ops5a W (Proc.devRef .tc r) = W (Proc.devRef .tc r) := by
  simp only [List.mem_cons, List.not_mem_nil, or_false] at hr
  rcases hr with rfl | rfl <;> after_results

theorem c5b_v22 (lab : IVec S64x8192 32) (h8 : W (Proc.devRef .tc main_v8) = slot lab) :
    after ops5b W (Proc.devRef .tc main_v22) = slotNorm lab := by
  after_results
  rw [h8]
  rfl

theorem c5b_pass {r : Ref sig .tc} (hr : r ∈ [main_v17, main_v12, main_arg2]) :
    after ops5b W (Proc.devRef .tc r) = W (Proc.devRef .tc r) := by
  simp only [List.mem_cons, List.not_mem_nil, or_false] at hr
  rcases hr with rfl | rfl | rfl <;> after_results

theorem c5c_v26 (lab : IVec S64x8192 32) (h17 : W (Proc.devRef .tc main_v17) = rowNorm)
    (h22 : W (Proc.devRef .tc main_v22) = slotNorm lab) (h12 : W (Proc.devRef .tc main_v12) = zerosV)
    (h2 : W (Proc.devRef .tc main_arg2) = lab) :
    after ops5c W (Proc.devRef .tc main_v26) = yKer lab := by
  after_results
  rw [h17, h22, h12, h2]
  rfl

/-- Stretch 5: the labels scattered to their slots: the gold sequence, -/
theorem st5_v26 (lab : IVec S64x8192 32) (h8 : W (Proc.devRef .tc main_v8) = slot lab)
    (h2 : W (Proc.devRef .tc main_arg2) = lab) :
    after hostOps1_4 W (Proc.devRef .tc main_v26) = yKer lab := by
  rw [hostOps1_4_cut, StableHlo.after_append, StableHlo.after_append]
  refine c5c_v26 _ lab ?_ ?_ ?_ ?_
  · exact (c5b_pass _ (by decide)).trans (c5a_v17 _)
  · exact c5b_v22 _ lab ((c5a_pass _ (by decide)).trans h8)
  · exact (c5b_pass _ (by decide)).trans (c5a_v12 _)
  · exact (c5b_pass _ (by decide)).trans ((c5a_pass _ (by decide)).trans h2)

/-- and the start arcs' scores. -/
theorem st5_v27 (A : (⟨S1848, .f32⟩ : BufTy).Contents (Elt F)) (hA : W (Proc.devRef .tc main_arg1) = A) :
    after hostOps1_4 W (Proc.devRef .tc main_v27) = extractStridedSlice S42 ![0] A slices_S1848_S42_0 := by
  after_results
  rw [hA]

theorem st5_pass {r : Ref sig .tc} (hr : r ∈ [main_v1, main_v3, main_arg1]) :
    after hostOps1_4 W (Proc.devRef .tc r) = W (Proc.devRef .tc r) := by
  simp only [List.mem_cons, List.not_mem_nil, or_false] at hr
  rcases hr with rfl | rfl | rfl <;> after_results

/-! ## The five stretches in a row -/

/-- The first five stretches of the tail. -/
abbrev headOps : List (HloOp τ sig (Elt F)) := hostOps1 ++ hostOps1_1 ++ hostOps1_2 ++ hostOps1_3 ++ hostOps1_4

theorem head_arg1 (A : (⟨S1848, .f32⟩ : BufTy).Contents (Elt F)) (hA : W (Proc.devRef .tc main_arg1) = A) :
    after headOps W (Proc.devRef .tc main_arg1) = A := by
  simp only [headOps, StableHlo.after_append]
  exact (st5_pass _ (by decide)).trans ((st4_pass _ (by decide)).trans ((st3_pass _ (by decide)).trans
    ((st2_pass _ (by decide)).trans ((st1_pass _ (by decide)).trans hA))))

theorem head_v1 (lab : IVec S64x8192 32) (h1 : W (Proc.devRef .tc main_v1) = scoredMask lab) :
    after headOps W (Proc.devRef .tc main_v1) = scoredMask lab := by
  simp only [headOps, StableHlo.after_append]
  exact (st5_pass _ (by decide)).trans ((st4_pass _ (by decide)).trans ((st3_pass _ (by decide)).trans
    ((st2_pass _ (by decide)).trans ((st1_pass _ (by decide)).trans h1))))

theorem head_v3 (e : (⟨S64x1, .f32⟩ : BufTy).Contents (Elt F)) (h : W (Proc.devRef .tc main_v2) = e) :
    after headOps W (Proc.devRef .tc main_v3) = shapeCast _ e shapeCasts_S64x1_S64 := by
  simp only [headOps, StableHlo.after_append]
  exact (st5_pass _ (by decide)).trans ((st4_pass _ (by decide)).trans ((st3_pass _ (by decide)).trans
    ((st2_pass _ (by decide)).trans (st1_v3 _ e h))))

theorem head_v27 (A : (⟨S1848, .f32⟩ : BufTy).Contents (Elt F)) (hA : W (Proc.devRef .tc main_arg1) = A) :
    after headOps W (Proc.devRef .tc main_v27) = extractStridedSlice S42 ![0] A slices_S1848_S42_0 := by
  simp only [headOps, StableHlo.after_append]
  exact st5_v27 _ A ((st4_pass _ (by decide)).trans ((st3_pass _ (by decide)).trans
    ((st2_pass _ (by decide)).trans ((st1_pass _ (by decide)).trans hA))))

theorem head_v26 (lab : IVec S64x8192 32) (h1 : W (Proc.devRef .tc main_v1) = scoredMask lab)
    (h2 : W (Proc.devRef .tc main_arg2) = lab) :
    after headOps W (Proc.devRef .tc main_v26) = yKer lab := by
  simp only [headOps, StableHlo.after_append]
  refine st5_v26 _ lab (st4_v8 _ lab ?_ ?_ ?_) ?_
  · exact (st3_pass _ (by decide)).trans ((st2_pass _ (by decide)).trans ((st1_pass _ (by decide)).trans h1))
  · exact st3_v7 _ lab (st2_v5 _ lab (st1_v4 _ lab h1))
  · exact st3_c1 _
  · exact (st4_pass _ (by decide)).trans ((st3_pass _ (by decide)).trans
      ((st2_pass _ (by decide)).trans ((st1_pass _ (by decide)).trans h2)))

end Stages

/-! ## The join -/

/-- The tail's nine stretches are the first five followed by the last four. -/
theorem tail_flatten : List.flatten (tailOps (F := F)) = headOps ++ (hostOps1_5 ++ hostOps1_6 ++ hostOps1_7 ++ hostOps1_8) := by
  simp only [tailOps, headOps, List.flatten_cons, List.flatten_nil, List.append_nil, List.append_assoc]

/-- THE TAIL'S RESULT: the result buffer holds the rows' language-model scores of the gold sequence plus the
    emission sums the region left, summed and divided by the number of scored labels. -/
theorem tail_result (c : Dev nD) :
    Pipeline.afterTail₀ cfgs (dats (F := F) m) 0 (V0 m) tailOps c main_v79
      = total (lmScore (m ((c.tc : Thread nD τ).loc main_arg1)) (Cert.KerY.yKer (m ((c.tc : Thread nD τ).loc main_arg2))))
          (shapeCast _ ((dats m 0 c).arrAt 2 cfg0.N) shapeCasts_S64x1_S64) (m ((c.tc : Thread nD τ).loc main_arg2)) := by
  show after (List.flatten tailOps) (W0 m c) (Proc.devRef .tc main_v79) = _
  rw [tail_flatten, StableHlo.after_append]
  exact HF2.tail2 _ _ _ _ _ (head_arg1 _ _ (W0_arg1 m c)) (head_v26 _ _ (W0_v1 m c) (W0_arg2 m c))
    (head_v3 _ _ (W0_v2 m c)) (head_v27 _ _ (W0_arg1 m c)) (head_v1 _ _ (W0_v1 m c))

end Cert.KernelIdeal.HF

end
-- ==== Proof.RefStagesA2.lean ====
import proofs.«417459_j46256797778252_2_alg».proof.Proof.RefRead
import proofs.«417459_j46256797778252_2_alg».proof.Proof.RefRun
import Idealize.ShloMosaic.Lib.StableHlo.Run
import Idealize.ShloMosaic.Lib.Pipeline.Frame

noncomputable section

namespace Cert.RefStagesA2

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The three gathers of the reference program's first part, stretch by stretch

Each stretch is read off the valuation it starts from: what the buffers it reads hold is a hypothesis, what it leaves in the
buffers later stretches read is the corresponding named value, and the buffers it does not write keep their contents. -/

/-- Stretch A2: the labels taken along the sorted positions (out-of-range positions give the fill value). -/
abbrev opsA2 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S64x4096, .i32⟩) main_call2_v0) (broadcastInDim S64x4096 ![] bcast_S_S64x4096),
    TRef.binary (TRef.of (T := ⟨S64x4096, .i32⟩) main_v5) (TRef.of (T := ⟨S64x4096, .i32⟩) main_call2_v0) (TRef.of (T := ⟨S64x4096, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S64x4096, .i32⟩) main_call2_v2) (broadcastInDim S64x4096 ![] bcast_S_S64x4096),
    TRef.binary (TRef.of (T := ⟨S64x4096, .i32⟩) main_v5) (TRef.of (T := ⟨S64x4096, .i32⟩) main_call2_v2) (TRef.of (T := ⟨S64x4096, .i32⟩) main_call2_v3) addi,
    TRef.ternary (TRef.of (T := ⟨S64x4096, .i1⟩) main_call2_v1) (TRef.of (T := ⟨S64x4096, .i32⟩) main_call2_v3) (TRef.of (T := ⟨S64x4096, .i32⟩) main_v5) (TRef.of (T := ⟨S64x4096, .i32⟩) main_call2_v4) select,
    TRef.reshape (TRef.of (T := ⟨S64x4096, .i32⟩) main_call2_v4) (TRef.of (T := ⟨S64x4096x1, .i32⟩) main_call2_v5) rfl shapeCasts_S64x4096_S64x4096x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S64x4096x1, .i32⟩) main_call2_v6) (broadcastInDim S64x4096x1 ![] bcast_S_S64x4096x1),
    TRef.binary (TRef.of (T := ⟨S64x4096x1, .i32⟩) main_call2_v5) (TRef.of (T := ⟨S64x4096x1, .i32⟩) main_call2_v6) (TRef.of (T := ⟨S64x4096x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S64x4096x1, .i32⟩) main_call2_v9) (broadcastInDim S64x4096x1 ![0, 1, 2] bcast_S1x1x1_S64x4096x1_0_1_2),
    TRef.binary (TRef.of (T := ⟨S64x4096x1, .i32⟩) main_call2_v5) (TRef.of (T := ⟨S64x4096x1, .i32⟩) main_call2_v9) (TRef.of (T := ⟨S64x4096x1, .i1⟩) main_call2_v10) (cmpi .sle),
    TRef.binary (TRef.of (T := ⟨S64x4096x1, .i1⟩) main_call2_v7) (TRef.of (T := ⟨S64x4096x1, .i1⟩) main_call2_v10) (TRef.of (T := ⟨S64x4096x1, .i1⟩) main_call2_v11) andi,
    TRef.nullary (TRef.of (T := ⟨S_, .i1⟩) main_call2_c_3) (constantI S_ 1 1#1),
    TRef.binary (TRef.of (T := ⟨S64x4096x1, .i1⟩) main_call2_v11) (TRef.of (T := ⟨S_, .i1⟩) main_call2_c_3) (TRef.of (T := ⟨S64x4096, .i1⟩) main_call2_v12) (fun x v => Host.reduce IntOp.andi x v reducesTo_S64x4096x1_S64x4096_d2 h_S_),
    TRef.binary (TRef.of (T := ⟨S64x8192, .i32⟩) main_arg2) (TRef.of (T := ⟨S64x4096x1, .i32⟩) main_call2_v5) (TRef.of (T := ⟨S64x4096, .i32⟩) main_call2_v13) (fun x i => Host.gather gather_S64x8192_S64x4096x1_S64x4096_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S64x4096, .i32⟩) main_call2_v14) (broadcastInDim S64x4096 ![] bcast_S_S64x4096),
    TRef.ternary (TRef.of (T := ⟨S64x4096, .i1⟩) main_call2_v12) (TRef.of (T := ⟨S64x4096, .i32⟩) main_call2_v13) (TRef.of (T := ⟨S64x4096, .i32⟩) main_call2_v14) (TRef.of (T := ⟨S64x4096, .i32⟩) main_v6) select ]

theorem A2_v6 (W : Valuation τ sig (Elt F)) (lab : (⟨S64x8192, .i32⟩ : BufTy).Contents (Elt F)) (hL : W (Proc.devRef .tc main_arg2) = lab) (h5 : W (Proc.devRef .tc main_v5) = val_main_v5 (F := F) lab) :
    after opsA2 W (Proc.devRef .tc main_v6) = val_main_v6 (F := F) lab := by
  after_results_simp
  rw [h5, hL]
  simp only [TRef.ofBuf, TRef.toBuf, cast_eq]
  rfl

/-- No operation of this stretch writes a buffer a later stretch still reads. -/
theorem A2_keeps (W : Valuation τ sig (Elt F)) (r : Ref sig .tc) (hr : r ∈ [main_arg0, main_arg1, main_v1, main_v5]) :
    after opsA2 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl | rfl
    all_goals
      repeat' apply And.intro
      all_goals exact devRef_ne_of_ne (by decide)))

/-- Stretch A3: the emission rows taken along the sorted positions. -/
abbrev opsA3 : List (HloOp τ sig (Elt F)) :=
  [ unary main_v5 main_v7 (broadcastInDim S64x4096x1 ![0, 1] bcast_S64x4096_S64x4096x1_0_1 : (⟨S64x4096, .i32⟩ : BufTy).Contents (Elt F) → (⟨S64x4096x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S64x4096x1, .i32⟩) main_call3_v0) (broadcastInDim S64x4096x1 ![] bcast_S_S64x4096x1),
    TRef.binary (TRef.of (T := ⟨S64x4096x1, .i32⟩) main_v7) (TRef.of (T := ⟨S64x4096x1, .i32⟩) main_call3_v0) (TRef.of (T := ⟨S64x4096x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S64x4096x1, .i32⟩) main_call3_v2) (broadcastInDim S64x4096x1 ![] bcast_S_S64x4096x1),
    TRef.binary (TRef.of (T := ⟨S64x4096x1, .i32⟩) main_v7) (TRef.of (T := ⟨S64x4096x1, .i32⟩) main_call3_v2) (TRef.of (T := ⟨S64x4096x1, .i32⟩) main_call3_v3) addi,
    TRef.ternary (TRef.of (T := ⟨S64x4096x1, .i1⟩) main_call3_v1) (TRef.of (T := ⟨S64x4096x1, .i32⟩) main_call3_v3) (TRef.of (T := ⟨S64x4096x1, .i32⟩) main_v7) (TRef.of (T := ⟨S64x4096x1, .i32⟩) main_call3_v4) select,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S64x4096x1, .i32⟩) main_call3_v5) (broadcastInDim S64x4096x1 ![] bcast_S_S64x4096x1),
    TRef.binary (TRef.of (T := ⟨S64x4096x1, .i32⟩) main_call3_v4) (TRef.of (T := ⟨S64x4096x1, .i32⟩) main_call3_v5) (TRef.of (T := ⟨S64x4096x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S64x4096x1, .i32⟩) main_call3_v8) (broadcastInDim S64x4096x1 ![0, 1, 2] bcast_S1x1x1_S64x4096x1_0_1_2),
    TRef.binary (TRef.of (T := ⟨S64x4096x1, .i32⟩) main_call3_v4) (TRef.of (T := ⟨S64x4096x1, .i32⟩) main_call3_v8) (TRef.of (T := ⟨S64x4096x1, .i1⟩) main_call3_v9) (cmpi .sle),
    TRef.binary (TRef.of (T := ⟨S64x4096x1, .i1⟩) main_call3_v6) (TRef.of (T := ⟨S64x4096x1, .i1⟩) main_call3_v9) (TRef.of (T := ⟨S64x4096x1, .i1⟩) main_call3_v10) andi,
    TRef.nullary (TRef.of (T := ⟨S_, .i1⟩) main_call3_c_3) (constantI S_ 1 1#1),
    TRef.binary (TRef.of (T := ⟨S64x4096x1, .i1⟩) main_call3_v10) (TRef.of (T := ⟨S_, .i1⟩) main_call3_c_3) (TRef.of (T := ⟨S64x4096, .i1⟩) main_call3_v11) (fun x v => Host.reduce IntOp.andi x v reducesTo_S64x4096x1_S64x4096_d2 h_S_),
    TRef.binary (TRef.of (T := ⟨S64x8192x48, .f32⟩) main_arg0) (TRef.of (T := ⟨S64x4096x1, .i32⟩) main_call3_v4) (TRef.of (T := ⟨S64x4096x48, .f32⟩) main_call3_v12) (fun x i => Host.gather gather_S64x8192x48_S64x4096x1_S64x4096x48_2_1_0_0_1_2_1148 x i),
    TRef.unary (TRef.of (T := ⟨S64x4096, .i1⟩) main_call3_v11) (TRef.of (T := ⟨S64x4096x48, .i1⟩) main_call3_v13) (broadcastInDim S64x4096x48 ![0, 1] bcast_S64x4096_S64x4096x48_0_1),
    TRef.nullary (TRef.of (T := ⟨S_, .f32⟩) main_call3_cst) (constant S_ .f32 0x7FC00000#32),
    TRef.unary (TRef.of (T := ⟨S_, .f32⟩) main_call3_cst) (TRef.of (T := ⟨S64x4096x48, .f32⟩) main_call3_v14) (broadcastInDim S64x4096x48 ![] bcast_S_S64x4096x48),
    TRef.ternary (TRef.of (T := ⟨S64x4096x48, .i1⟩) main_call3_v13) (TRef.of (T := ⟨S64x4096x48, .f32⟩) main_call3_v12) (TRef.of (T := ⟨S64x4096x48, .f32⟩) main_call3_v14) (TRef.of (T := ⟨S64x4096x48, .f32⟩) main_v8) select ]

theorem A3_v8 (W : Valuation τ sig (Elt F)) (lp : (⟨S64x8192x48, .f32⟩ : BufTy).Contents (Elt F)) (lab : (⟨S64x8192, .i32⟩ : BufTy).Contents (Elt F)) (hP : W (Proc.devRef .tc main_arg0) = lp) (h5 : W (Proc.devRef .tc main_v5) = val_main_v5 (F := F) lab) :
    after opsA3 W (Proc.devRef .tc main_v8) = val_main_v8 (F := F) lp lab := by
  after_results_simp
  rw [h5, hP]
  simp only [TRef.ofBuf, TRef.toBuf, cast_eq]
  rfl

/-- No operation of this stretch writes a buffer a later stretch still reads. -/
theorem A3_keeps (W : Valuation τ sig (Elt F)) (r : Ref sig .tc) (hr : r ∈ [main_arg1, main_v1, main_v6]) :
    after opsA3 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl
    all_goals
      repeat' apply And.intro
      all_goals exact devRef_ne_of_ne (by decide)))

/-- Stretch A4: in each taken row the entry of the taken label, as a 64 × 4096 table. -/
abbrev opsA4 : List (HloOp τ sig (Elt F)) :=
  [ unary main_v6 main_v9 (broadcastInDim S64x4096x1 ![0, 1] bcast_S64x4096_S64x4096x1_0_1 : (⟨S64x4096, .i32⟩ : BufTy).Contents (Elt F) → (⟨S64x4096x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S64x4096x1, .i32⟩) main_call4_v0) (broadcastInDim S64x4096x1 ![] bcast_S_S64x4096x1),
    TRef.binary (TRef.of (T := ⟨S64x4096x1, .i32⟩) main_v9) (TRef.of (T := ⟨S64x4096x1, .i32⟩) main_call4_v0) (TRef.of (T := ⟨S64x4096x1, .i1⟩) main_call4_v1) (cmpi .slt),
    TRef.nullary (TRef.of (T := ⟨S_, .i32⟩) main_call4_c_0) (constantI S_ 32 48#32),
    TRef.unary (TRef.of (T := ⟨S_, .i32⟩) main_call4_c_0) (TRef.of (T := ⟨S64x4096x1, .i32⟩) main_call4_v2) (broadcastInDim S64x4096x1 ![] bcast_S_S64x4096x1),
    TRef.binary (TRef.of (T := ⟨S64x4096x1, .i32⟩) main_v9) (TRef.of (T := ⟨S64x4096x1, .i32⟩) main_call4_v2) (TRef.of (T := ⟨S64x4096x1, .i32⟩) main_call4_v3) addi,
    TRef.ternary (TRef.of (T := ⟨S64x4096x1, .i1⟩) main_call4_v1) (TRef.of (T := ⟨S64x4096x1, .i32⟩) main_call4_v3) (TRef.of (T := ⟨S64x4096x1, .i32⟩) main_v9) (TRef.of (T := ⟨S64x4096x1, .i32⟩) main_call4_v4) select,
    TRef.reshape (TRef.of (T := ⟨S64x4096x1, .i32⟩) main_call4_v4) (TRef.of (T := ⟨S64x4096x1x1, .i32⟩) main_call4_v5) rfl shapeCasts_S64x4096x1_S64x4096x1x1,
    TRef.nullary (TRef.of (T := ⟨S1, .i32⟩) main_call4_c_1) (constantI S1 32 47#32),
    TRef.nullary (TRef.of (T := ⟨S_, .i32⟩) main_call4_c_2) (constantI S_ 32 0#32),
    TRef.unary (TRef.of (T := ⟨S_, .i32⟩) main_call4_c_2) (TRef.of (T := ⟨S64x4096x1x1, .i32⟩) main_call4_v6) (broadcastInDim S64x4096x1x1 ![] bcast_S_S64x4096x1x1),
    TRef.binary (TRef.of (T := ⟨S64x4096x1x1, .i32⟩) main_call4_v5) (TRef.of (T := ⟨S64x4096x1x1, .i32⟩) main_call4_v6) (TRef.of (T := ⟨S64x4096x1x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S64x4096x1x1, .i32⟩) main_call4_v9) (broadcastInDim S64x4096x1x1 ![0, 1, 2, 3] bcast_S1x1x1x1_S64x4096x1x1_0_1_2_3),
    TRef.binary (TRef.of (T := ⟨S64x4096x1x1, .i32⟩) main_call4_v5) (TRef.of (T := ⟨S64x4096x1x1, .i32⟩) main_call4_v9) (TRef.of (T := ⟨S64x4096x1x1, .i1⟩) main_call4_v10) (cmpi .sle),
    TRef.binary (TRef.of (T := ⟨S64x4096x1x1, .i1⟩) main_call4_v7) (TRef.of (T := ⟨S64x4096x1x1, .i1⟩) main_call4_v10) (TRef.of (T := ⟨S64x4096x1x1, .i1⟩) main_call4_v11) andi,
    TRef.nullary (TRef.of (T := ⟨S_, .i1⟩) main_call4_c_3) (constantI S_ 1 1#1),
    TRef.binary (TRef.of (T := ⟨S64x4096x1x1, .i1⟩) main_call4_v11) (TRef.of (T := ⟨S_, .i1⟩) main_call4_c_3) (TRef.of (T := ⟨S64x4096x1, .i1⟩) main_call4_v12) (fun x v => Host.reduce IntOp.andi x v reducesTo_S64x4096x1x1_S64x4096x1_d3 h_S_),
    TRef.binary (TRef.of (T := ⟨S64x4096x48, .f32⟩) main_v8) (TRef.of (T := ⟨S64x4096x1x1, .i32⟩) main_call4_v5) (TRef.of (T := ⟨S64x4096x1, .f32⟩) main_call4_v13) (fun x i => Host.gather gather_S64x4096x48_S64x4096x1x1_S64x4096x1_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S64x4096x1, .f32⟩) main_call4_v14) (broadcastInDim S64x4096x1 ![] bcast_S_S64x4096x1),
    TRef.ternary (TRef.of (T := ⟨S64x4096x1, .i1⟩) main_call4_v12) (TRef.of (T := ⟨S64x4096x1, .f32⟩) main_call4_v13) (TRef.of (T := ⟨S64x4096x1, .f32⟩) main_call4_v14) (TRef.of (T := ⟨S64x4096x1, .f32⟩) main_v10) select,
    reshape main_v10 main_v11 rfl shapeCasts_S64x4096x1_S64x4096 ]

theorem A4_v11 (W : Valuation τ sig (Elt F)) (lp : (⟨S64x8192x48, .f32⟩ : BufTy).Contents (Elt F)) (lab : (⟨S64x8192, .i32⟩ : BufTy).Contents (Elt F)) (h6 : W (Proc.devRef .tc main_v6) = val_main_v6 (F := F) lab)
    (h8 : W (Proc.devRef .tc main_v8) = val_main_v8 (F := F) lp lab) :
    after opsA4 W (Proc.devRef .tc main_v11) = val_main_v11 (F := F) lp lab := by
  after_results_simp
  rw [h6, h8]
  simp only [TRef.ofBuf, TRef.toBuf, cast_eq]
  rfl

/-- No operation of this stretch writes a buffer a later stretch still reads. -/
theorem A4_keeps (W : Valuation τ sig (Elt F)) (r : Ref sig .tc) (hr : r ∈ [main_arg1, main_v1, main_v6]) :
    after opsA4 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl
    all_goals
      repeat' apply And.intro
      all_goals exact devRef_ne_of_ne (by decide)))

/-! ## The three stretches in a row -/

/-- From any valuation whose emission scores and labels are the arguments and whose kept-position mask and sorted positions
    are the named values, the three stretches in order leave the mask as it was, the compacted labels and the taken emission
    scores at their named values, and the language-model scores untouched. -/
theorem afterA234 (W : Valuation τ sig (Elt F)) (lp : (⟨S64x8192x48, .f32⟩ : BufTy).Contents (Elt F)) (lab : (⟨S64x8192, .i32⟩ : BufTy).Contents (Elt F))
    (hP : W (Proc.devRef .tc main_arg0) = lp) (hL : W (Proc.devRef .tc main_arg2) = lab)
    (h1 : W (Proc.devRef .tc main_v1) = val_main_v1 (F := F) lab) (h5 : W (Proc.devRef .tc main_v5) = val_main_v5 (F := F) lab) :
    after (opsA2 ++ opsA3 ++ opsA4) W (Proc.devRef .tc main_v1) = val_main_v1 (F := F) lab
      ∧ after (opsA2 ++ opsA3 ++ opsA4) W (Proc.devRef .tc main_v6) = val_main_v6 (F := F) lab
      ∧ after (opsA2 ++ opsA3 ++ opsA4) W (Proc.devRef .tc main_v11) = val_main_v11 (F := F) lp lab
      ∧ after (opsA2 ++ opsA3 ++ opsA4) W (Proc.devRef .tc main_arg1) = W (Proc.devRef .tc main_arg1) := by
  simp only [StableHlo.after_append]
  -- stretch A2
  have a6 := A2_v6 W lab hL h5
  have kP := (A2_keeps W main_arg0 (by decide)).trans hP
  have k1 := (A2_keeps W main_v1 (by decide)).trans h1
  have k5 := (A2_keeps W main_v5 (by decide)).trans h5
  have kA := A2_keeps W main_arg1 (by decide)
  clear hP hL h1 h5
  generalize W (Proc.devRef .tc main_arg1) = a at *
  generalize after opsA2 W = W1 at *
  -- stretch A3
  have a8 := A3_v8 W1 lp lab kP k5
  replace k1 := (A3_keeps W1 main_v1 (by decide)).trans k1
  replace a6 := (A3_keeps W1 main_v6 (by decide)).trans a6
  replace kA := (A3_keeps W1 main_arg1 (by decide)).trans kA
  clear kP k5
  generalize after opsA3 W1 = W2 at *
  -- stretch A4
  exact ⟨(A4_keeps W2 main_v1 (by decide)).trans k1, (A4_keeps W2 main_v6 (by decide)).trans a6,
    A4_v11 W2 lp lab a6 a8, (A4_keeps W2 main_arg1 (by decide)).trans kA⟩

/-! ## The cut -/

/-- The reference program's operations are its first 13, these three stretches, and the operations from the 83rd on. -/
theorem ops_split : (Cert.ReferenceIdeal.ValueP.ops (F := F))
    = (Cert.ReferenceIdeal.ValueP.ops (F := F)).take 13 ++ (opsA2 ++ opsA3 ++ opsA4) ++ (Cert.ReferenceIdeal.ValueP.ops (F := F)).drop 82 := rfl

end Cert.RefStagesA2

end
-- ==== Proof.RefStagesB.lean ====
import proofs.«417459_j46256797778252_2_alg».proof.Proof.RefRead
import proofs.«417459_j46256797778252_2_alg».proof.Proof.RefRun
import Idealize.ShloMosaic.Lib.StableHlo.Run
import Idealize.ShloMosaic.Lib.Pipeline.Frame

noncomputable section

namespace Cert.RefStagesB

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The operations from the language-model scores on, cut into eight stretches

Each stretch is read off the valuation it starts from: what the buffers it reads hold is a hypothesis, what it leaves in the
buffers later stretches read is the corresponding named value, and the buffers it does not write keep their contents. -/

/-- Stretch 1: the scores' first 42 entries and their log-softmax. -/
abbrev opsB1 : List (HloOp τ sig (Elt F)) :=
  [ unary main_arg1 main_v12 ((extractStridedSlice S42 ![0] · slices_S1848_S42_0) : (⟨S1848, .f32⟩ : BufTy).Contents (Elt F) → (⟨S42, .f32⟩ : BufTy).Contents (Elt F)),
    TRef.nullary (TRef.of (T := ⟨S_, .f32⟩) main_call5_cst) (constant S_ .f32 0xFF800000#32),
    TRef.binary (TRef.of (T := ⟨S42, .f32⟩) main_v12) (TRef.of (T := ⟨S_, .f32⟩) main_call5_cst) (TRef.of (T := ⟨S_, .f32⟩) main_call5_v0) (fun x v => Host.reduce FloatOps.maximumf x v reducesTo_S42_S_d0 h_S_),
    TRef.nullary (TRef.of (T := ⟨S_, .f32⟩) main_call5_cst_0) (constant S_ .f32 0xFF800000#32),
    TRef.binary (TRef.of (T := ⟨S_, .f32⟩) main_call5_cst_0) (TRef.of (T := ⟨S_, .f32⟩) main_call5_v0) (TRef.of (T := ⟨S_, .f32⟩) main_call5_v1) maximumf,
    TRef.unary (TRef.of (T := ⟨S_, .f32⟩) main_call5_v1) (TRef.of (T := ⟨S1, .f32⟩) main_call5_v2) (broadcastInDim S1 ![] bcast_S_S1),
    TRef.unary (TRef.of (T := ⟨S1, .f32⟩) main_call5_v2) (TRef.of (T := ⟨S42, .f32⟩) main_call5_v3) (broadcastInDim S42 ![0] bcast_S1_S42_0),
    TRef.binary (TRef.of (T := ⟨S42, .f32⟩) main_v12) (TRef.of (T := ⟨S42, .f32⟩) main_call5_v3) (TRef.of (T := ⟨S42, .f32⟩) main_call5_v4) subf,
    TRef.unary (TRef.of (T := ⟨S42, .f32⟩) main_call5_v4) (TRef.of (T := ⟨S42, .f32⟩) main_call5_v5) Host.exp,
    TRef.nullary (TRef.of (T := ⟨S_, .f32⟩) main_call5_cst_1) (constant S_ .f32 0x00000000#32),
    TRef.binary (TRef.of (T := ⟨S42, .f32⟩) main_call5_v5) (TRef.of (T := ⟨S_, .f32⟩) main_call5_cst_1) (TRef.of (T := ⟨S_, .f32⟩) main_call5_v6) (fun x v => Host.reduceAdd x v reducesTo_S42_S_d0 h_S_),
    TRef.unary (TRef.of (T := ⟨S_, .f32⟩) main_call5_v6) (TRef.of (T := ⟨S1, .f32⟩) main_call5_v7) (broadcastInDim S1 ![] bcast_S_S1),
    TRef.unary (TRef.of (T := ⟨S1, .f32⟩) main_call5_v7) (TRef.of (T := ⟨S1, .f32⟩) main_call5_v8) Host.log,
    TRef.unary (TRef.of (T := ⟨S1, .f32⟩) main_call5_v8) (TRef.of (T := ⟨S42, .f32⟩) main_call5_v9) (broadcastInDim S42 ![0] bcast_S1_S42_0),
    TRef.binary (TRef.of (T := ⟨S42, .f32⟩) main_call5_v4) (TRef.of (T := ⟨S42, .f32⟩) main_call5_v9) (TRef.of (T := ⟨S42, .f32⟩) main_v13) subf ]

theorem B1_v13 (W : Valuation τ sig (Elt F)) (A : (⟨S1848, .f32⟩ : BufTy).Contents (Elt F)) (hA : W (Proc.devRef .tc main_arg1) = A) :
    after opsB1 W (Proc.devRef .tc main_v13) = val_main_v13 (F := F) A := by
  subst hA
  after_results_simp
  rfl

/-- No operation of this stretch writes a buffer a later stretch still reads. -/
theorem B1_keeps (W : Valuation τ sig (Elt F)) (r : Ref sig .tc) (hr : r ∈ [main_arg1, main_v1, main_v6, main_v11]) :
    after opsB1 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl | rfl
    all_goals
      repeat' apply And.intro
      all_goals exact devRef_ne_of_ne (by decide)))

/-- Stretch 2: the remaining 1806 entries as a 42 × 43 table, its row-wise log-softmax, and the table's two parts. -/
abbrev opsB2 : List (HloOp τ sig (Elt F)) :=
  [ unary main_arg1 main_v14 ((extractStridedSlice S1806 ![42] · slices_S1848_S1806_42) : (⟨S1848, .f32⟩ : BufTy).Contents (Elt F) → (⟨S1806, .f32⟩ : BufTy).Contents (Elt F)),
    reshape main_v14 main_v15 rfl shapeCasts_S1806_S42x43,
    TRef.nullary (TRef.of (T := ⟨S_, .f32⟩) main_call6_cst) (constant S_ .f32 0xFF800000#32),
    TRef.binary (TRef.of (T := ⟨S42x43, .f32⟩) main_v15) (TRef.of (T := ⟨S_, .f32⟩) main_call6_cst) (TRef.of (T := ⟨S42, .f32⟩) main_call6_v0) (fun x v => Host.reduce FloatOps.maximumf x v reducesTo_S42x43_S42_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S42, .f32⟩) main_call6_v1) (broadcastInDim S42 ![] bcast_S_S42),
    TRef.binary (TRef.of (T := ⟨S42, .f32⟩) main_call6_v1) (TRef.of (T := ⟨S42, .f32⟩) main_call6_v0) (TRef.of (T := ⟨S42, .f32⟩) main_call6_v2) maximumf,
    TRef.unary (TRef.of (T := ⟨S42, .f32⟩) main_call6_v2) (TRef.of (T := ⟨S42x1, .f32⟩) main_call6_v3) (broadcastInDim S42x1 ![0] bcast_S42_S42x1_0),
    TRef.unary (TRef.of (T := ⟨S42x1, .f32⟩) main_call6_v3) (TRef.of (T := ⟨S42x43, .f32⟩) main_call6_v4) (broadcastInDim S42x43 ![0, 1] bcast_S42x1_S42x43_0_1),
    TRef.binary (TRef.of (T := ⟨S42x43, .f32⟩) main_v15) (TRef.of (T := ⟨S42x43, .f32⟩) main_call6_v4) (TRef.of (T := ⟨S42x43, .f32⟩) main_call6_v5) subf,
    TRef.unary (TRef.of (T := ⟨S42x43, .f32⟩) main_call6_v5) (TRef.of (T := ⟨S42x43, .f32⟩) main_call6_v6) Host.exp,
    TRef.nullary (TRef.of (T := ⟨S_, .f32⟩) main_call6_cst_1) (constant S_ .f32 0x00000000#32),
    TRef.binary (TRef.of (T := ⟨S42x43, .f32⟩) main_call6_v6) (TRef.of (T := ⟨S_, .f32⟩) main_call6_cst_1) (TRef.of (T := ⟨S42, .f32⟩) main_call6_v7) (fun x v => Host.reduceAdd x v reducesTo_S42x43_S42_d1 h_S_),
    TRef.unary (TRef.of (T := ⟨S42, .f32⟩) main_call6_v7) (TRef.of (T := ⟨S42x1, .f32⟩) main_call6_v8) (broadcastInDim S42x1 ![0] bcast_S42_S42x1_0),
    TRef.unary (TRef.of (T := ⟨S42x1, .f32⟩) main_call6_v8) (TRef.of (T := ⟨S42x1, .f32⟩) main_call6_v9) Host.log,
    TRef.unary (TRef.of (T := ⟨S42x1, .f32⟩) main_call6_v9) (TRef.of (T := ⟨S42x43, .f32⟩) main_call6_v10) (broadcastInDim S42x43 ![0, 1] bcast_S42x1_S42x43_0_1),
    TRef.binary (TRef.of (T := ⟨S42x43, .f32⟩) main_call6_v5) (TRef.of (T := ⟨S42x43, .f32⟩) main_call6_v10) (TRef.of (T := ⟨S42x43, .f32⟩) main_v16) subf,
    unary main_v16 main_v17 ((extractStridedSlice S42x42 ![0, 0] · slices_S42x43_S42x42_0_0) : (⟨S42x43, .f32⟩ : BufTy).Contents (Elt F) → (⟨S42x42, .f32⟩ : BufTy).Contents (Elt F)),
    unary main_v16 main_v18 ((extractStridedSlice S42x1 ![0, 42] · slices_S42x43_S42x1_0_42) : (⟨S42x43, .f32⟩ : BufTy).Contents (Elt F) → (⟨S42x1, .f32⟩ : BufTy).Contents (Elt F)),
    reshape main_v18 main_v19 rfl shapeCasts_S42x1_S42 ]

theorem B2_v17 (W : Valuation τ sig (Elt F)) (A : (⟨S1848, .f32⟩ : BufTy).Contents (Elt F)) (hA : W (Proc.devRef .tc main_arg1) = A) :
    after opsB2 W (Proc.devRef .tc main_v17) = val_main_v17 (F := F) A := by
  subst hA
  after_results_simp
  rfl
theorem B2_v19 (W : Valuation τ sig (Elt F)) (A : (⟨S1848, .f32⟩ : BufTy).Contents (Elt F)) (hA : W (Proc.devRef .tc main_arg1) = A) :
    after opsB2 W (Proc.devRef .tc main_v19) = val_main_v19 (F := F) A := by
  subst hA
  after_results_simp
  rfl

/-- No operation of this stretch writes a buffer a later stretch still reads. -/
theorem B2_keeps (W : Valuation τ sig (Elt F)) (r : Ref sig .tc) (hr : r ∈ [main_v1, main_v6, main_v11, main_v13]) :
    after opsB2 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl | rfl
    all_goals
      repeat' apply And.intro
      all_goals exact devRef_ne_of_ne (by decide)))

/-- Stretch 3: the compacted labels less one. -/
abbrev opsB3 : List (HloOp τ sig (Elt F)) :=
  [ nullary main_c_2 (constantI S_ 32 1#32),
    unary main_c_2 main_v20 (broadcastInDim S64x4096 ![] bcast_S_S64x4096 : (⟨S_, .i32⟩ : BufTy).Contents (Elt F) → (⟨S64x4096, .i32⟩ : BufTy).Contents (Elt F)),
    binary main_v6 main_v20 main_v21 (subi : (⟨S64x4096, .i32⟩ : BufTy).Contents (Elt F) → (⟨S64x4096, .i32⟩ : BufTy).Contents (Elt F) → (⟨S64x4096, .i32⟩ : BufTy).Contents (Elt F)) ]

theorem B3_v21 (W : Valuation τ sig (Elt F)) (lab : (⟨S64x8192, .i32⟩ : BufTy).Contents (Elt F)) (h6 : W (Proc.devRef .tc main_v6) = val_main_v6 (F := F) lab) :
    after opsB3 W (Proc.devRef .tc main_v21) = val_main_v21 (F := F) lab := by
  after_results_simp
  rw [h6]
  rfl

/-- No operation of this stretch writes a buffer a later stretch still reads. -/
theorem B3_keeps (W : Valuation τ sig (Elt F)) (r : Ref sig .tc) (hr : r ∈ [main_v1, main_v11, main_v13, main_v17, main_v19]) :
    after opsB3 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl | rfl | rfl
    all_goals
      repeat' apply And.intro
      all_goals exact devRef_ne_of_ne (by decide)))

/-- Stretch 4: the first label's score. -/
abbrev opsB4 : List (HloOp τ sig (Elt F)) :=
  [ unary main_v21 main_v22 ((extractStridedSlice S64x1 ![0, 0] · slices_S64x4096_S64x1_0_0) : (⟨S64x4096, .i32⟩ : BufTy).Contents (Elt F) → (⟨S64x1, .i32⟩ : BufTy).Contents (Elt F)),
    reshape main_v22 main_v23 rfl shapeCasts_S64x1_S64,
    nullary main_c_3 (constantI S_ 32 0#32),
    unary main_c_3 main_v24 (broadcastInDim S64 ![] bcast_S_S64 : (⟨S_, .i32⟩ : BufTy).Contents (Elt F) → (⟨S64, .i32⟩ : BufTy).Contents (Elt F)),
    binary main_v23 main_v24 main_v25 (cmpi .slt : (⟨S64, .i32⟩ : BufTy).Contents (Elt F) → (⟨S64, .i32⟩ : BufTy).Contents (Elt F) → (⟨S64, .i1⟩ : BufTy).Contents (Elt F)),
    nullary main_c_4 (constantI S_ 32 42#32),
    unary main_c_4 main_v26 (broadcastInDim S64 ![] bcast_S_S64 : (⟨S_, .i32⟩ : BufTy).Contents (Elt F) → (⟨S64, .i32⟩ : BufTy).Contents (Elt F)),
    binary main_v23 main_v26 main_v27 (addi : (⟨S64, .i32⟩ : BufTy).Contents (Elt F) → (⟨S64, .i32⟩ : BufTy).Contents (Elt F) → (⟨S64, .i32⟩ : BufTy).Contents (Elt F)),
    ternary main_v25 main_v27 main_v23 main_v28 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v28 main_v29 (broadcastInDim S64x1 ![0] bcast_S64_S64x1_0 : (⟨S64, .i32⟩ : BufTy).Contents (Elt F) → (⟨S64x1, .i32⟩ : BufTy).Contents (Elt F)),
    binary main_v13 main_v29 main_v30 ((fun x i => Host.gather gather_S42_S64x1_S64_n_0_n_n_0_1_1 x i) : (⟨S42, .f32⟩ : BufTy).Contents (Elt F) → (⟨S64x1, .i32⟩ : BufTy).Contents (Elt F) → (⟨S64, .f32⟩ : BufTy).Contents (Elt F)) ]

theorem B4_v30 (W : Valuation τ sig (Elt F)) (A : (⟨S1848, .f32⟩ : BufTy).Contents (Elt F)) (lab : (⟨S64x8192, .i32⟩ : BufTy).Contents (Elt F)) (h21 : W (Proc.devRef .tc main_v21) = val_main_v21 (F := F) lab)
    (h13 : W (Proc.devRef .tc main_v13) = val_main_v13 (F := F) A) :
    after opsB4 W (Proc.devRef .tc main_v30) = val_main_v30 (F := F) A lab := by
  after_results_simp
  rw [h21, h13]
  rfl

/-- No operation of this stretch writes a buffer a later stretch still reads. -/
theorem B4_keeps (W : Valuation τ sig (Elt F)) (r : Ref sig .tc) (hr : r ∈ [main_v1, main_v11, main_v17, main_v19, main_v21]) :
    after opsB4 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl | rfl | rfl
    all_goals
      repeat' apply And.intro
      all_goals exact devRef_ne_of_ne (by decide)))

/-- Stretch 5: the two columns of consecutive labels, wrapped into range. -/
abbrev opsB5 : List (HloOp τ sig (Elt F)) :=
  [ unary main_v21 main_v31 ((extractStridedSlice S64x4095 ![0, 0] · slices_S64x4096_S64x4095_0_0) : (⟨S64x4096, .i32⟩ : BufTy).Contents (Elt F) → (⟨S64x4095, .i32⟩ : BufTy).Contents (Elt F)),
    unary main_v21 main_v32 ((extractStridedSlice S64x4095 ![0, 1] · slices_S64x4096_S64x4095_0_1) : (⟨S64x4096, .i32⟩ : BufTy).Contents (Elt F) → (⟨S64x4095, .i32⟩ : BufTy).Contents (Elt F)),
    nullary main_c_5 (constantI S_ 32 0#32),
    unary main_c_5 main_v33 (broadcastInDim S64x4095 ![] bcast_S_S64x4095 : (⟨S_, .i32⟩ : BufTy).Contents (Elt F) → (⟨S64x4095, .i32⟩ : BufTy).Contents (Elt F)),
    binary main_v31 main_v33 main_v34 (cmpi .slt : (⟨S64x4095, .i32⟩ : BufTy).Contents (Elt F) → (⟨S64x4095, .i32⟩ : BufTy).Contents (Elt F) → (⟨S64x4095, .i1⟩ : BufTy).Contents (Elt F)),
    nullary main_c_6 (constantI S_ 32 42#32),
    unary main_c_6 main_v35 (broadcastInDim S64x4095 ![] bcast_S_S64x4095 : (⟨S_, .i32⟩ : BufTy).Contents (Elt F) → (⟨S64x4095, .i32⟩ : BufTy).Contents (Elt F)),
    binary main_v31 main_v35 main_v36 (addi : (⟨S64x4095, .i32⟩ : BufTy).Contents (Elt F) → (⟨S64x4095, .i32⟩ : BufTy).Contents (Elt F) → (⟨S64x4095, .i32⟩ : BufTy).Contents (Elt F)),
    ternary main_v34 main_v36 main_v31 main_v37 (select : (⟨S64x4095, .i1⟩ : BufTy).Contents (Elt F) → (⟨S64x4095, .i32⟩ : BufTy).Contents (Elt F) → (⟨S64x4095, .i32⟩ : BufTy).Contents (Elt F) → (⟨S64x4095, .i32⟩ : BufTy).Contents (Elt F)),
    nullary main_c_7 (constantI S_ 32 0#32),
    unary main_c_7 main_v38 (broadcastInDim S64x4095 ![] bcast_S_S64x4095 : (⟨S_, .i32⟩ : BufTy).Contents (Elt F) → (⟨S64x4095, .i32⟩ : BufTy).Contents (Elt F)),
    binary main_v32 main_v38 main_v39 (cmpi .slt : (⟨S64x4095, .i32⟩ : BufTy).Contents (Elt F) → (⟨S64x4095, .i32⟩ : BufTy).Contents (Elt F) → (⟨S64x4095, .i1⟩ : BufTy).Contents (Elt F)),
    nullary main_c_8 (constantI S_ 32 42#32),
    unary main_c_8 main_v40 (broadcastInDim S64x4095 ![] bcast_S_S64x4095 : (⟨S_, .i32⟩ : BufTy).Contents (Elt F) → (⟨S64x4095, .i32⟩ : BufTy).Contents (Elt F)),
    binary main_v32 main_v40 main_v41 (addi : (⟨S64x4095, .i32⟩ : BufTy).Contents (Elt F) → (⟨S64x4095, .i32⟩ : BufTy).Contents (Elt F) → (⟨S64x4095, .i32⟩ : BufTy).Contents (Elt F)),
    ternary main_v39 main_v41 main_v32 main_v42 (select : (⟨S64x4095, .i1⟩ : BufTy).Contents (Elt F) → (⟨S64x4095, .i32⟩ : BufTy).Contents (Elt F) → (⟨S64x4095, .i32⟩ : BufTy).Contents (Elt F) → (⟨S64x4095, .i32⟩ : BufTy).Contents (Elt F)),
    unary main_v37 main_v43 (broadcastInDim S64x4095x1 ![0, 1] bcast_S64x4095_S64x4095x1_0_1 : (⟨S64x4095, .i32⟩ : BufTy).Contents (Elt F) → (⟨S64x4095x1, .i32⟩ : BufTy).Contents (Elt F)),
    unary main_v42 main_v44 (broadcastInDim S64x4095x1 ![0, 1] bcast_S64x4095_S64x4095x1_0_1 : (⟨S64x4095, .i32⟩ : BufTy).Contents (Elt F) → (⟨S64x4095x1, .i32⟩ : BufTy).Contents (Elt F)) ]

theorem B5_v43 (W : Valuation τ sig (Elt F)) (lab : (⟨S64x8192, .i32⟩ : BufTy).Contents (Elt F)) (h21 : W (Proc.devRef .tc main_v21) = val_main_v21 (F := F) lab) :
    after opsB5 W (Proc.devRef .tc main_v43) = val_main_v43 (F := F) lab := by
  after_results_simp
  rw [h21]
  rfl
theorem B5_v44 (W : Valuation τ sig (Elt F)) (lab : (⟨S64x8192, .i32⟩ : BufTy).Contents (Elt F)) (h21 : W (Proc.devRef .tc main_v21) = val_main_v21 (F := F) lab) :
    after opsB5 W (Proc.devRef .tc main_v44) = val_main_v44 (F := F) lab := by
  after_results_simp
  rw [h21]
  rfl

/-- No operation of this stretch writes a buffer a later stretch still reads. -/
theorem B5_keeps (W : Valuation τ sig (Elt F)) (r : Ref sig .tc) (hr : r ∈ [main_v1, main_v11, main_v17, main_v19, main_v21, main_v30]) :
    after opsB5 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl | rfl | rfl | rfl
    all_goals
      repeat' apply And.intro
      all_goals exact devRef_ne_of_ne (by decide)))

/-- Stretch 6: the pairs joined, the transition scores gathered and summed, added to the first label's score. -/
abbrev opsB6 : List (HloOp τ sig (Elt F)) :=
  [ binary main_v43 main_v44 main_v45 ((fun a b => concatenate S64x4095x2 2 [⟨S64x4095x1, a⟩, ⟨S64x4095x1, b⟩] concatenates_S64x4095x1_S64x4095x1_S64x4095x2_d2) : (⟨S64x4095x1, .i32⟩ : BufTy).Contents (Elt F) → (⟨S64x4095x1, .i32⟩ : BufTy).Contents (Elt F) → (⟨S64x4095x2, .i32⟩ : BufTy).Contents (Elt F)),
    binary main_v17 main_v45 main_v46 ((fun x i => Host.gather gather_S42x42_S64x4095x2_S64x4095_n_01_n_n_01_2_11 x i) : (⟨S42x42, .f32⟩ : BufTy).Contents (Elt F) → (⟨S64x4095x2, .i32⟩ : BufTy).Contents (Elt F) → (⟨S64x4095, .f32⟩ : BufTy).Contents (Elt F)),
    nullary main_cst (constant S_ .f32 0x00000000#32),
    binary main_v46 main_cst main_v47 ((fun x v => Host.reduceAdd x v reducesTo_S64x4095_S64_d1 h_S_) : (⟨S64x4095, .f32⟩ : BufTy).Contents (Elt F) → (⟨S_, .f32⟩ : BufTy).Contents (Elt F) → (⟨S64, .f32⟩ : BufTy).Contents (Elt F)),
    binary main_v30 main_v47 main_v48 (addf : (⟨S64, .f32⟩ : BufTy).Contents (Elt F) → (⟨S64, .f32⟩ : BufTy).Contents (Elt F) → (⟨S64, .f32⟩ : BufTy).Contents (Elt F)) ]

theorem B6_v48 (W : Valuation τ sig (Elt F)) (A : (⟨S1848, .f32⟩ : BufTy).Contents (Elt F)) (lab : (⟨S64x8192, .i32⟩ : BufTy).Contents (Elt F)) (h43 : W (Proc.devRef .tc main_v43) = val_main_v43 (F := F) lab)
    (h44 : W (Proc.devRef .tc main_v44) = val_main_v44 (F := F) lab) (h17 : W (Proc.devRef .tc main_v17) = val_main_v17 (F := F) A)
    (h30 : W (Proc.devRef .tc main_v30) = val_main_v30 (F := F) A lab) :
    after opsB6 W (Proc.devRef .tc main_v48) = val_main_v48 (F := F) A lab := by
  after_results_simp
  rw [h43, h44, h17, h30]
  rfl

/-- No operation of this stretch writes a buffer a later stretch still reads. -/
theorem B6_keeps (W : Valuation τ sig (Elt F)) (r : Ref sig .tc) (hr : r ∈ [main_v1, main_v11, main_v19, main_v21]) :
    after opsB6 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl | rfl
    all_goals
      repeat' apply And.intro
      all_goals exact devRef_ne_of_ne (by decide)))

/-- Stretch 7: the last label's end score, added. -/
abbrev opsB7 : List (HloOp τ sig (Elt F)) :=
  [ unary main_v21 main_v49 ((extractStridedSlice S64x1 ![0, 4095] · slices_S64x4096_S64x1_0_4095) : (⟨S64x4096, .i32⟩ : BufTy).Contents (Elt F) → (⟨S64x1, .i32⟩ : BufTy).Contents (Elt F)),
    reshape main_v49 main_v50 rfl shapeCasts_S64x1_S64,
    nullary main_c_9 (constantI S_ 32 0#32),
    unary main_c_9 main_v51 (broadcastInDim S64 ![] bcast_S_S64 : (⟨S_, .i32⟩ : BufTy).Contents (Elt F) → (⟨S64, .i32⟩ : BufTy).Contents (Elt F)),
    binary main_v50 main_v51 main_v52 (cmpi .slt : (⟨S64, .i32⟩ : BufTy).Contents (Elt F) → (⟨S64, .i32⟩ : BufTy).Contents (Elt F) → (⟨S64, .i1⟩ : BufTy).Contents (Elt F)),
    nullary main_c_10 (constantI S_ 32 42#32),
    unary main_c_10 main_v53 (broadcastInDim S64 ![] bcast_S_S64 : (⟨S_, .i32⟩ : BufTy).Contents (Elt F) → (⟨S64, .i32⟩ : BufTy).Contents (Elt F)),
    binary main_v50 main_v53 main_v54 (addi : (⟨S64, .i32⟩ : BufTy).Contents (Elt F) → (⟨S64, .i32⟩ : BufTy).Contents (Elt F) → (⟨S64, .i32⟩ : BufTy).Contents (Elt F)),
    ternary main_v52 main_v54 main_v50 main_v55 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v55 main_v56 (broadcastInDim S64x1 ![0] bcast_S64_S64x1_0 : (⟨S64, .i32⟩ : BufTy).Contents (Elt F) → (⟨S64x1, .i32⟩ : BufTy).Contents (Elt F)),
    binary main_v19 main_v56 main_v57 ((fun x i => Host.gather gather_S42_S64x1_S64_n_0_n_n_0_1_1 x i) : (⟨S42, .f32⟩ : BufTy).Contents (Elt F) → (⟨S64x1, .i32⟩ : BufTy).Contents (Elt F) → (⟨S64, .f32⟩ : BufTy).Contents (Elt F)),
    binary main_v48 main_v57 main_v58 (addf : (⟨S64, .f32⟩ : BufTy).Contents (Elt F) → (⟨S64, .f32⟩ : BufTy).Contents (Elt F) → (⟨S64, .f32⟩ : BufTy).Contents (Elt F)) ]

theorem B7_v58 (W : Valuation τ sig (Elt F)) (A : (⟨S1848, .f32⟩ : BufTy).Contents (Elt F)) (lab : (⟨S64x8192, .i32⟩ : BufTy).Contents (Elt F)) (h21 : W (Proc.devRef .tc main_v21) = val_main_v21 (F := F) lab)
    (h19 : W (Proc.devRef .tc main_v19) = val_main_v19 (F := F) A) (h48 : W (Proc.devRef .tc main_v48) = val_main_v48 (F := F) A lab) :
    after opsB7 W (Proc.devRef .tc main_v58) = val_main_v58 (F := F) A lab := by
  after_results_simp
  rw [h21, h19, h48]
  rfl

/-- No operation of this stretch writes a buffer a later stretch still reads. -/
theorem B7_keeps (W : Valuation τ sig (Elt F)) (r : Ref sig .tc) (hr : r ∈ [main_v1, main_v11]) :
    after opsB7 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl
    all_goals
      repeat' apply And.intro
      all_goals exact devRef_ne_of_ne (by decide)))

/-- Stretch 8: the emission sums added, the total over the batch, divided by the count of kept positions. -/
abbrev opsB8 : List (HloOp τ sig (Elt F)) :=
  [ nullary main_cst_11 (constant S_ .f32 0x00000000#32),
    binary main_v11 main_cst_11 main_v59 ((fun x v => Host.reduceAdd x v reducesTo_S64x4096_S64_d1 h_S_) : (⟨S64x4096, .f32⟩ : BufTy).Contents (Elt F) → (⟨S_, .f32⟩ : BufTy).Contents (Elt F) → (⟨S64, .f32⟩ : BufTy).Contents (Elt F)),
    binary main_v58 main_v59 main_v60 (addf : (⟨S64, .f32⟩ : BufTy).Contents (Elt F) → (⟨S64, .f32⟩ : BufTy).Contents (Elt F) → (⟨S64, .f32⟩ : BufTy).Contents (Elt F)),
    unary main_v1 main_v61 ((extui 32 · natLt_1_32) : (⟨S64x8192, .i1⟩ : BufTy).Contents (Elt F) → (⟨S64x8192, .i32⟩ : BufTy).Contents (Elt F)),
    nullary main_c_12 (constantI S_ 32 0#32),
    binary main_v61 main_c_12 main_v62 ((fun x v => Host.reduce IntOp.addi x v reducesTo_S64x8192_S_d0_1 h_S_) : (⟨S64x8192, .i32⟩ : BufTy).Contents (Elt F) → (⟨S_, .i32⟩ : BufTy).Contents (Elt F) → (⟨S_, .i32⟩ : BufTy).Contents (Elt F)),
    nullary main_cst_13 (constant S_ .f32 0x00000000#32),
    binary main_v60 main_cst_13 main_v63 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v62 main_v64 (sitofp .f32 : (⟨S_, .i32⟩ : BufTy).Contents (Elt F) → (⟨S_, .f32⟩ : BufTy).Contents (Elt F)),
    binary main_v63 main_v64 main_v65 (Host.divf : (⟨S_, .f32⟩ : BufTy).Contents (Elt F) → (⟨S_, .f32⟩ : BufTy).Contents (Elt F) → (⟨S_, .f32⟩ : BufTy).Contents (Elt F)) ]

theorem B8_v65 (W : Valuation τ sig (Elt F)) (lp : (⟨S64x8192x48, .f32⟩ : BufTy).Contents (Elt F)) (A : (⟨S1848, .f32⟩ : BufTy).Contents (Elt F)) (lab : (⟨S64x8192, .i32⟩ : BufTy).Contents (Elt F)) (h11 : W (Proc.devRef .tc main_v11) = val_main_v11 (F := F) lp lab)
    (h58 : W (Proc.devRef .tc main_v58) = val_main_v58 (F := F) A lab) (h1 : W (Proc.devRef .tc main_v1) = val_main_v1 (F := F) lab) :
    after opsB8 W (Proc.devRef .tc main_v65) = val_main_v65 (F := F) lp A lab := by
  after_results_simp
  rw [h11, h58, h1]
  rfl

/-! ## The eight stretches in a row -/

/-- From any valuation whose scores, kept-position mask, compacted labels and emission scores are the named values, the
    eight stretches in order leave the program's result at its named value. -/
theorem afterB_chunks (W : Valuation τ sig (Elt F)) (lp : (⟨S64x8192x48, .f32⟩ : BufTy).Contents (Elt F)) (A : (⟨S1848, .f32⟩ : BufTy).Contents (Elt F)) (lab : (⟨S64x8192, .i32⟩ : BufTy).Contents (Elt F))
    (hA : W (Proc.devRef .tc main_arg1) = A) (h1 : W (Proc.devRef .tc main_v1) = val_main_v1 (F := F) lab)
    (h6 : W (Proc.devRef .tc main_v6) = val_main_v6 (F := F) lab) (h11 : W (Proc.devRef .tc main_v11) = val_main_v11 (F := F) lp lab) :
    after (opsB1 ++ opsB2 ++ opsB3 ++ opsB4 ++ opsB5 ++ opsB6 ++ opsB7 ++ opsB8) W (Proc.devRef .tc main_v65) = val_main_v65 (F := F) lp A lab := by
  simp only [StableHlo.after_append]
  -- stretch 1
  have a13 := B1_v13 W A hA
  have kA := (B1_keeps W main_arg1 (by decide)).trans hA
  have k1 := (B1_keeps W main_v1 (by decide)).trans h1
  have k6 := (B1_keeps W main_v6 (by decide)).trans h6
  have k11 := (B1_keeps W main_v11 (by decide)).trans h11
  clear hA h1 h6 h11
  generalize after opsB1 W = W1 at *
  -- stretch 2
  have a17 := B2_v17 W1 A kA
  have a19 := B2_v19 W1 A kA
  replace k1 := (B2_keeps W1 main_v1 (by decide)).trans k1
  replace k6 := (B2_keeps W1 main_v6 (by decide)).trans k6
  replace k11 := (B2_keeps W1 main_v11 (by decide)).trans k11
  replace a13 := (B2_keeps W1 main_v13 (by decide)).trans a13
  clear kA
  generalize after opsB2 W1 = W2 at *
  -- stretch 3
  have a21 := B3_v21 W2 lab k6
  replace k1 := (B3_keeps W2 main_v1 (by decide)).trans k1
  replace k11 := (B3_keeps W2 main_v11 (by decide)).trans k11
  replace a13 := (B3_keeps W2 main_v13 (by decide)).trans a13
  replace a17 := (B3_keeps W2 main_v17 (by decide)).trans a17
  replace a19 := (B3_keeps W2 main_v19 (by decide)).trans a19
  clear k6
  generalize after opsB3 W2 = W3 at *
  -- stretch 4
  have a30 := B4_v30 W3 A lab a21 a13
  replace k1 := (B4_keeps W3 main_v1 (by decide)).trans k1
  replace k11 := (B4_keeps W3 main_v11 (by decide)).trans k11
  replace a17 := (B4_keeps W3 main_v17 (by decide)).trans a17
  replace a19 := (B4_keeps W3 main_v19 (by decide)).trans a19
  replace a21 := (B4_keeps W3 main_v21 (by decide)).trans a21
  clear a13
  generalize after opsB4 W3 = W4 at *
  -- stretch 5
  have a43 := B5_v43 W4 lab a21
  have a44 := B5_v44 W4 lab a21
  replace k1 := (B5_keeps W4 main_v1 (by decide)).trans k1
  replace k11 := (B5_keeps W4 main_v11 (by decide)).trans k11
  replace a17 := (B5_keeps W4 main_v17 (by decide)).trans a17
  replace a19 := (B5_keeps W4 main_v19 (by decide)).trans a19
  replace a21 := (B5_keeps W4 main_v21 (by decide)).trans a21
  replace a30 := (B5_keeps W4 main_v30 (by decide)).trans a30
  generalize after opsB5 W4 = W5 at *
  -- stretch 6
  have a48 := B6_v48 W5 A lab a43 a44 a17 a30
  replace k1 := (B6_keeps W5 main_v1 (by decide)).trans k1
  replace k11 := (B6_keeps W5 main_v11 (by decide)).trans k11
  replace a19 := (B6_keeps W5 main_v19 (by decide)).trans a19
  replace a21 := (B6_keeps W5 main_v21 (by decide)).trans a21
  clear a43 a44 a17 a30
  generalize after opsB6 W5 = W6 at *
  -- stretch 7
  have a58 := B7_v58 W6 A lab a21 a19 a48
  replace k1 := (B7_keeps W6 main_v1 (by decide)).trans k1
  replace k11 := (B7_keeps W6 main_v11 (by decide)).trans k11
  clear a21 a19 a48
  generalize after opsB7 W6 = W7 at *
  -- stretch 8
  exact B8_v65 W7 lp A lab k11 a58 k1

/-! ## The cut -/

/-- The reference program's operations from the slice of the scores' first 42 entries (operation 82, counting from 0) to
    the end: 94 operations. -/
abbrev opsB : List (HloOp τ sig (Elt F)) := (Cert.ReferenceIdeal.ValueP.ops (F := F)).drop 82

/-- They are the eight stretches in a row; the first of them begins with that slice. -/
theorem opsB_eq : (opsB : List (HloOp τ sig (Elt F))) = opsB1 ++ opsB2 ++ opsB3 ++ opsB4 ++ opsB5 ++ opsB6 ++ opsB7 ++ opsB8 := rfl

/-- The operations before the cut and after it make the whole list. -/
theorem ops_eq_take_append : (Cert.ReferenceIdeal.ValueP.ops (F := F)) = (Cert.ReferenceIdeal.ValueP.ops (F := F)).take 82 ++ opsB :=
  (List.take_append_drop 82 _).symm

/-- THE SECOND PART of the reference program's run: from any valuation whose scores, kept-position mask, compacted labels
    and emission scores are the named values, the operations after the cut leave the program's result at its named value. -/
theorem afterB (W : Valuation τ sig (Elt F)) (lp : (⟨S64x8192x48, .f32⟩ : BufTy).Contents (Elt F)) (A : (⟨S1848, .f32⟩ : BufTy).Contents (Elt F)) (lab : (⟨S64x8192, .i32⟩ : BufTy).Contents (Elt F))
    (hA : W (Proc.devRef .tc main_arg1) = A) (h1 : W (Proc.devRef .tc main_v1) = val_main_v1 (F := F) lab)
    (h6 : W (Proc.devRef .tc main_v6) = val_main_v6 (F := F) lab) (h11 : W (Proc.devRef .tc main_v11) = val_main_v11 (F := F) lp lab) :
    StableHlo.after opsB W (Proc.devRef .tc main_v65) = val_main_v65 (F := F) lp A lab := by
  rw [opsB_eq]
  exact afterB_chunks W lp A lab hA h1 h6 h11

end Cert.RefStagesB

end
-- ==== Proof.RefStages.lean ====
/-
  The reference program's result is its named value.

  The run states the program's result as the fold of its 176 operations over the launch contents. The named values
  (one per operation, each a function of the three argument arrays, sharing by name) are what the value proofs read.
  This module proves the two equal, stretch by stretch: the operations are cut into consecutive stretches; for each
  stretch, from ANY valuation whose buffers the stretch reads hold their named values, the buffers it writes for later
  stretches hold theirs, and the buffers it does not write keep their contents. No step compares more than one
  stretch's worth of operations.

  Here: the first stretch (the kept-position mask, the sort keys, the stable sort and the slice of the sorted positions),
  and the join of all stretches.
-/
import proofs.«417459_j46256797778252_2_alg».proof.Proof.RefRead
import proofs.«417459_j46256797778252_2_alg».proof.Proof.RefRun
import proofs.«417459_j46256797778252_2_alg».proof.Proof.RefStagesA2
import proofs.«417459_j46256797778252_2_alg».proof.Proof.RefStagesB
import Idealize.ShloMosaic.Lib.StableHlo.Run
import Idealize.ShloMosaic.Lib.Pipeline.Frame

noncomputable section

namespace Cert.RefStages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The first stretch: operations 0 to 12 -/

/-- The mask of kept positions, the sort keys (0 where kept, 1 where not), the stable sort of the positions by key and
    the first 4096 sorted positions. -/
abbrev opsA1 : List (HloOp τ sig (Elt F)) :=
  [ nullary main_c (constantI S_ 32 4294967196#32),
    unary main_c main_v0 (broadcastInDim S64x8192 ![] bcast_S_S64x8192 : (⟨S_, .i32⟩ : BufTy).Contents (Elt F) → (⟨S64x8192, .i32⟩ : BufTy).Contents (Elt F)),
    binary main_arg2 main_v0 main_v1 (cmpi .ne : (⟨S64x8192, .i32⟩ : BufTy).Contents (Elt F) → (⟨S64x8192, .i32⟩ : BufTy).Contents (Elt F) → (⟨S64x8192, .i1⟩ : BufTy).Contents (Elt F)),
    nullary main_c_0 (constantI S_ 32 0#32),
    nullary main_c_1 (constantI S_ 32 1#32),
    TRef.unary (TRef.of (T := ⟨S_, .i32⟩) main_c_0) (TRef.of (T := ⟨S64x8192, .i32⟩) main_call0_v0) (broadcastInDim S64x8192 ![] bcast_S_S64x8192),
    TRef.unary (TRef.of (T := ⟨S_, .i32⟩) main_c_1) (TRef.of (T := ⟨S64x8192, .i32⟩) main_call0_v1) (broadcastInDim S64x8192 ![] bcast_S_S64x8192),
    TRef.ternary (TRef.of (T := ⟨S64x8192, .i1⟩) main_v1) (TRef.of (T := ⟨S64x8192, .i32⟩) main_call0_v0) (TRef.of (T := ⟨S64x8192, .i32⟩) main_call0_v1) (TRef.of (T := ⟨S64x8192, .i32⟩) main_v2) select,
    unary main_v2 main_v3 (id : (⟨S64x8192, .i32⟩ : BufTy).Contents (Elt F) → (⟨S64x8192, .i32⟩ : BufTy).Contents (Elt F)),
    TRef.nullary (TRef.of (T := ⟨S64x8192, .i32⟩) main_call1_v0) (iotaInDim S64x8192 32 1),
    TRef.binary (TRef.of (T := ⟨S64x8192, .i32⟩) main_v3) (TRef.of (T := ⟨S64x8192, .i32⟩) main_call1_v0) (TRef.of (T := ⟨S64x8192, .i32⟩) main_call1_v1_0) (fun x y => (Host.sort2 S64x8192 1 comparator_i32_i32_d1 x y).1),
    TRef.binary (TRef.of (T := ⟨S64x8192, .i32⟩) main_v3) (TRef.of (T := ⟨S64x8192, .i32⟩) main_call1_v0) (TRef.of (T := ⟨S64x8192, .i32⟩) main_v4) (fun x y => (Host.sort2 S64x8192 1 comparator_i32_i32_d1 x y).2),
    unary main_v4 main_v5 ((extractStridedSlice S64x4096 ![0, 0] · slices_S64x8192_S64x4096_0_0) : (⟨S64x8192, .i32⟩ : BufTy).Contents (Elt F) → (⟨S64x4096, .i32⟩ : BufTy).Contents (Elt F)) ]

/-- They are the first thirteen operations of the program. -/
theorem opsA1_eq : (opsA1 : List (HloOp τ sig (Elt F))) = (Cert.ReferenceIdeal.ValueP.ops (F := F)).take 13 := rfl

/-- The mask of kept positions after the first stretch. -/
theorem A1_v1 (W : Valuation τ sig (Elt F)) (lab : (⟨S64x8192, .i32⟩ : BufTy).Contents (Elt F))
    (hL : W (Proc.devRef .tc main_arg2) = lab) :
    after opsA1 W (Proc.devRef .tc main_v1) = val_main_v1 (F := F) lab := by
  subst hL
  after_results_simp
  rfl

/-- The first 4096 sorted positions after the first stretch. -/
theorem A1_v5 (W : Valuation τ sig (Elt F)) (lab : (⟨S64x8192, .i32⟩ : BufTy).Contents (Elt F))
    (hL : W (Proc.devRef .tc main_arg2) = lab) :
    after opsA1 W (Proc.devRef .tc main_v5) = val_main_v5 (F := F) lab := by
  subst hL
  after_results_simp
  rfl

/-- No operation of the first stretch writes an argument. -/
theorem A1_keeps (W : Valuation τ sig (Elt F)) (r : Ref sig .tc) (hr : r ∈ [main_arg0, main_arg1, main_arg2]) :
    after opsA1 W (Proc.devRef .tc r) = W (Proc.devRef .tc r) :=
  after_of_forall_not_mem _ _ (List.forall_iff_forall_mem.mp (by
    simp only [List.Forall, nullary_writes, unary_writes, binary_writes, ternary_writes, quaternary_writes, reshape_writes, Finset.mem_singleton]
    simp only [List.mem_cons, List.mem_nil_iff, or_false] at hr
    rcases hr with rfl | rfl | rfl
    all_goals
      repeat' apply And.intro
      all_goals exact devRef_ne_of_ne (by decide)))

/-! ## The join -/

/-- THE RESULT IS ITS NAMED VALUE: the fold of the program's operations over the launch contents, read at the result
    buffer, is the last named value at the three argument arrays. -/
theorem val_main_v65_eq (m : (ℓ : Loc Cert.ReferenceIdeal.nD Cert.ReferenceIdeal.τ Cert.ReferenceIdeal.sig) → Buf (Elt F) ℓ)
    (c : Dev Cert.ReferenceIdeal.nD) :
    Cert.ReferenceIdeal.ValueP.res_main_v65 m c
      = Cert.ReferenceIdeal.ReadP.val_main_v65 (F := F) (m ((c.tc : Thread _ _).loc Cert.ReferenceIdeal.main_arg0))
          (m ((c.tc : Thread _ _).loc Cert.ReferenceIdeal.main_arg1)) (m ((c.tc : Thread _ _).loc Cert.ReferenceIdeal.main_arg2)) := by
  unfold Cert.ReferenceIdeal.ValueP.res_main_v65
  rw [Cert.RefStagesA2.ops_split, StableHlo.after_append, StableHlo.after_append, ← opsA1_eq]
  -- the launch contents, and what the first stretch leaves
  generalize hV : (fun b => m (c, b) : Valuation τ sig (Elt F)) = V
  have hP : V (Proc.devRef .tc main_arg0) = m ((c.tc : Thread _ _).loc main_arg0) := by subst hV; rfl
  have hA : V (Proc.devRef .tc main_arg1) = m ((c.tc : Thread _ _).loc main_arg1) := by subst hV; rfl
  have hL : V (Proc.devRef .tc main_arg2) = m ((c.tc : Thread _ _).loc main_arg2) := by subst hV; rfl
  clear hV
  have h1 := A1_v1 V _ hL
  have h5 := A1_v5 V _ hL
  replace hP := (A1_keeps V main_arg0 (by decide)).trans hP
  replace hA := (A1_keeps V main_arg1 (by decide)).trans hA
  replace hL := (A1_keeps V main_arg2 (by decide)).trans hL
  generalize after opsA1 V = W1 at *
  -- the three gathers
  obtain ⟨k1, h6, h11, kA⟩ := Cert.RefStagesA2.afterA234 W1 _ _ hP hL h1 h5
  replace kA := kA.trans hA
  clear hP hL h1 h5 hA
  generalize after (Cert.RefStagesA2.opsA2 ++ Cert.RefStagesA2.opsA3 ++ Cert.RefStagesA2.opsA4) W1 = W2 at *
  -- the scores
  exact Cert.RefStagesB.afterB W2 _ _ _ kA k1 h6 h11

end Cert.RefStages

end
-- ==== Proof.RefTotal.lean ====
/-
  The reference's result is the specification's total at the reference's own gold sequence and emission scores:
  from the first slice of the arc scores on, each operation of the reference is the language-model operation of
  the same number.
-/
import proofs.«417459_j46256797778252_2_alg».proof.Proof.RefRead
import proofs.«417459_j46256797778252_2_alg».proof.Proof.Spec

noncomputable section

namespace Cert.RefValue

open Idealize.ShloMosaic Idealize.ShloMosaic.ValueIdx Idealize.ShloMosaic.StableHlo.Predicate
open Cert.ReferenceIdeal Cert.ReferenceIdeal.ReadP Cert.Crf

variable {F : FTy → Type} [FloatOps F]

/-! ## The reference's language-model operations are the specification's

  From the first slice of the arc scores on, every operation of the reference is the language-model operation
  of the same number, read at the gold sequence the reference has computed (its operation %6). One lemma per
  operation: unfold the operation on both sides and rewrite its operands by the earlier lemmas. The two sides
  cite the same side conditions, so what is left is the same term. -/

section Levels

variable (A : (⟨S1848, .f32⟩ : BufTy).Contents (Elt F)) (lab : (⟨S64x8192, .i32⟩ : BufTy).Contents (Elt F))

/-! The start arcs and their log-softmax. -/

theorem lm_v12 : val_main_v12 (F := F) A = lm_main_v12 (F := F) A (val_main_v6 (F := F) lab) := rfl

theorem lm_call5_cst : val_main_call5_cst (F := F) = lm_main_call5_cst (F := F) A (val_main_v6 (F := F) lab) := rfl

theorem lm_call5_v0 : val_main_call5_v0 (F := F) A = lm_main_call5_v0 (F := F) A (val_main_v6 (F := F) lab) := by
  unfold val_main_call5_v0 lm_main_call5_v0
  rw [lm_v12 A lab, lm_call5_cst A lab]

theorem lm_call5_cst_0 : val_main_call5_cst_0 (F := F) = lm_main_call5_cst_0 (F := F) A (val_main_v6 (F := F) lab) := rfl

theorem lm_call5_v1 : val_main_call5_v1 (F := F) A = lm_main_call5_v1 (F := F) A (val_main_v6 (F := F) lab) := by
  unfold val_main_call5_v1 lm_main_call5_v1
  rw [lm_call5_cst_0 A lab, lm_call5_v0 A lab]

theorem lm_call5_v2 : val_main_call5_v2 (F := F) A = lm_main_call5_v2 (F := F) A (val_main_v6 (F := F) lab) := by
  unfold val_main_call5_v2 lm_main_call5_v2
  rw [lm_call5_v1 A lab]

theorem lm_call5_v3 : val_main_call5_v3 (F := F) A = lm_main_call5_v3 (F := F) A (val_main_v6 (F := F) lab) := by
  unfold val_main_call5_v3 lm_main_call5_v3
  rw [lm_call5_v2 A lab]

theorem lm_call5_v4 : val_main_call5_v4 (F := F) A = lm_main_call5_v4 (F := F) A (val_main_v6 (F := F) lab) := by
  unfold val_main_call5_v4 lm_main_call5_v4
  rw [lm_v12 A lab, lm_call5_v3 A lab]

theorem lm_call5_v5 : val_main_call5_v5 (F := F) A = lm_main_call5_v5 (F := F) A (val_main_v6 (F := F) lab) := by
  unfold val_main_call5_v5 lm_main_call5_v5
  rw [lm_call5_v4 A lab]

theorem lm_call5_cst_1 : val_main_call5_cst_1 (F := F) = lm_main_call5_cst_1 (F := F) A (val_main_v6 (F := F) lab) := rfl

theorem lm_call5_v6 : val_main_call5_v6 (F := F) A = lm_main_call5_v6 (F := F) A (val_main_v6 (F := F) lab) := by
  unfold val_main_call5_v6 lm_main_call5_v6
  rw [lm_call5_v5 A lab, lm_call5_cst_1 A lab]

theorem lm_call5_v7 : val_main_call5_v7 (F := F) A = lm_main_call5_v7 (F := F) A (val_main_v6 (F := F) lab) := by
  unfold val_main_call5_v7 lm_main_call5_v7
  rw [lm_call5_v6 A lab]

theorem lm_call5_v8 : val_main_call5_v8 (F := F) A = lm_main_call5_v8 (F := F) A (val_main_v6 (F := F) lab) := by
  unfold val_main_call5_v8 lm_main_call5_v8
  rw [lm_call5_v7 A lab]

theorem lm_call5_v9 : val_main_call5_v9 (F := F) A = lm_main_call5_v9 (F := F) A (val_main_v6 (F := F) lab) := by
  unfold val_main_call5_v9 lm_main_call5_v9
  rw [lm_call5_v8 A lab]

theorem lm_v13 : val_main_v13 (F := F) A = lm_main_v13 (F := F) A (val_main_v6 (F := F) lab) := by
  unfold val_main_v13 lm_main_v13
  rw [lm_call5_v4 A lab, lm_call5_v9 A lab]

/-! The transition and final arcs, one row per state, and their row-wise log-softmax. -/

theorem lm_v14 : val_main_v14 (F := F) A = lm_main_v14 (F := F) A (val_main_v6 (F := F) lab) := rfl

theorem lm_v15 : val_main_v15 (F := F) A = lm_main_v15 (F := F) A (val_main_v6 (F := F) lab) := by
  unfold val_main_v15 lm_main_v15
  rw [lm_v14 A lab]

theorem lm_call6_cst : val_main_call6_cst (F := F) = lm_main_call6_cst (F := F) A (val_main_v6 (F := F) lab) := rfl

theorem lm_call6_v0 : val_main_call6_v0 (F := F) A = lm_main_call6_v0 (F := F) A (val_main_v6 (F := F) lab) := by
  unfold val_main_call6_v0 lm_main_call6_v0
  rw [lm_v15 A lab, lm_call6_cst A lab]

theorem lm_call6_cst_0 : val_main_call6_cst_0 (F := F) = lm_main_call6_cst_0 (F := F) A (val_main_v6 (F := F) lab) := rfl

theorem lm_call6_v1 : val_main_call6_v1 (F := F) = lm_main_call6_v1 (F := F) A (val_main_v6 (F := F) lab) := by
  unfold val_main_call6_v1 lm_main_call6_v1
  rw [lm_call6_cst_0 A lab]

theorem lm_call6_v2 : val_main_call6_v2 (F := F) A = lm_main_call6_v2 (F := F) A (val_main_v6 (F := F) lab) := by
  unfold val_main_call6_v2 lm_main_call6_v2
  rw [lm_call6_v1 A lab, lm_call6_v0 A lab]

theorem lm_call6_v3 : val_main_call6_v3 (F := F) A = lm_main_call6_v3 (F := F) A (val_main_v6 (F := F) lab) := by
  unfold val_main_call6_v3 lm_main_call6_v3
  rw [lm_call6_v2 A lab]

theorem lm_call6_v4 : val_main_call6_v4 (F := F) A = lm_main_call6_v4 (F := F) A (val_main_v6 (F := F) lab) := by
  unfold val_main_call6_v4 lm_main_call6_v4
  rw [lm_call6_v3 A lab]

theorem lm_call6_v5 : val_main_call6_v5 (F := F) A = lm_main_call6_v5 (F := F) A (val_main_v6 (F := F) lab) := by
  unfold val_main_call6_v5 lm_main_call6_v5
  rw [lm_v15 A lab, lm_call6_v4 A lab]

theorem lm_call6_v6 : val_main_call6_v6 (F := F) A = lm_main_call6_v6 (F := F) A (val_main_v6 (F := F) lab) := by
  unfold val_main_call6_v6 lm_main_call6_v6
  rw [lm_call6_v5 A lab]

theorem lm_call6_cst_1 : val_main_call6_cst_1 (F := F) = lm_main_call6_cst_1 (F := F) A (val_main_v6 (F := F) lab) := rfl

theorem lm_call6_v7 : val_main_call6_v7 (F := F) A = lm_main_call6_v7 (F := F) A (val_main_v6 (F := F) lab) := by
  unfold val_main_call6_v7 lm_main_call6_v7
  rw [lm_call6_v6 A lab, lm_call6_cst_1 A lab]

theorem lm_call6_v8 : val_main_call6_v8 (F := F) A = lm_main_call6_v8 (F := F) A (val_main_v6 (F := F) lab) := by
  unfold val_main_call6_v8 lm_main_call6_v8
  rw [lm_call6_v7 A lab]

theorem lm_call6_v9 : val_main_call6_v9 (F := F) A = lm_main_call6_v9 (F := F) A (val_main_v6 (F := F) lab) := by
  unfold val_main_call6_v9 lm_main_call6_v9
  rw [lm_call6_v8 A lab]

theorem lm_call6_v10 : val_main_call6_v10 (F := F) A = lm_main_call6_v10 (F := F) A (val_main_v6 (F := F) lab) := by
  unfold val_main_call6_v10 lm_main_call6_v10
  rw [lm_call6_v9 A lab]

theorem lm_v16 : val_main_v16 (F := F) A = lm_main_v16 (F := F) A (val_main_v6 (F := F) lab) := by
  unfold val_main_v16 lm_main_v16
  rw [lm_call6_v5 A lab, lm_call6_v10 A lab]

theorem lm_v17 : val_main_v17 (F := F) A = lm_main_v17 (F := F) A (val_main_v6 (F := F) lab) := by
  unfold val_main_v17 lm_main_v17
  rw [lm_v16 A lab]

theorem lm_v18 : val_main_v18 (F := F) A = lm_main_v18 (F := F) A (val_main_v6 (F := F) lab) := by
  unfold val_main_v18 lm_main_v18
  rw [lm_v16 A lab]

theorem lm_v19 : val_main_v19 (F := F) A = lm_main_v19 (F := F) A (val_main_v6 (F := F) lab) := by
  unfold val_main_v19 lm_main_v19
  rw [lm_v18 A lab]

/-! The gold labels shifted to states, and the start arc of each row's first state. -/

theorem lm_c_2 : val_main_c_2 (F := F) = lm_main_c_2 (F := F) A (val_main_v6 (F := F) lab) := rfl

theorem lm_v20 : val_main_v20 (F := F) = lm_main_v20 (F := F) A (val_main_v6 (F := F) lab) := by
  unfold val_main_v20 lm_main_v20
  rw [lm_c_2 A lab]

theorem lm_v21 : val_main_v21 (F := F) lab = lm_main_v21 (F := F) A (val_main_v6 (F := F) lab) := by
  unfold val_main_v21 lm_main_v21
  rw [lm_v20 A lab]

theorem lm_v22 : val_main_v22 (F := F) lab = lm_main_v22 (F := F) A (val_main_v6 (F := F) lab) := by
  unfold val_main_v22 lm_main_v22
  rw [lm_v21 A lab]

theorem lm_v23 : val_main_v23 (F := F) lab = lm_main_v23 (F := F) A (val_main_v6 (F := F) lab) := by
  unfold val_main_v23 lm_main_v23
  rw [lm_v22 A lab]

theorem lm_c_3 : val_main_c_3 (F := F) = lm_main_c_3 (F := F) A (val_main_v6 (F := F) lab) := rfl

theorem lm_v24 : val_main_v24 (F := F) = lm_main_v24 (F := F) A (val_main_v6 (F := F) lab) := by
  unfold val_main_v24 lm_main_v24
  rw [lm_c_3 A lab]

theorem lm_v25 : val_main_v25 (F := F) lab = lm_main_v25 (F := F) A (val_main_v6 (F := F) lab) := by
  unfold val_main_v25 lm_main_v25
  rw [lm_v23 A lab, lm_v24 A lab]

theorem lm_c_4 : val_main_c_4 (F := F) = lm_main_c_4 (F := F) A (val_main_v6 (F := F) lab) := rfl

theorem lm_v26 : val_main_v26 (F := F) = lm_main_v26 (F := F) A (val_main_v6 (F := F) lab) := by
  unfold val_main_v26 lm_main_v26
  rw [lm_c_4 A lab]

theorem lm_v27 : val_main_v27 (F := F) lab = lm_main_v27 (F := F) A (val_main_v6 (F := F) lab) := by
  unfold val_main_v27 lm_main_v27
  rw [lm_v23 A lab, lm_v26 A lab]

theorem lm_v28 : val_main_v28 (F := F) lab = lm_main_v28 (F := F) A (val_main_v6 (F := F) lab) := by
  unfold val_main_v28 lm_main_v28
  rw [lm_v25 A lab, lm_v27 A lab, lm_v23 A lab]

theorem lm_v29 : val_main_v29 (F := F) lab = lm_main_v29 (F := F) A (val_main_v6 (F := F) lab) := by
  unfold val_main_v29 lm_main_v29
  rw [lm_v28 A lab]

theorem lm_v30 : val_main_v30 (F := F) A lab = lm_main_v30 (F := F) A (val_main_v6 (F := F) lab) := by
  unfold val_main_v30 lm_main_v30
  rw [lm_v13 A lab, lm_v29 A lab]

/-! The transition arcs between consecutive states of each row, and their sum. -/

theorem lm_v31 : val_main_v31 (F := F) lab = lm_main_v31 (F := F) A (val_main_v6 (F := F) lab) := by
  unfold val_main_v31 lm_main_v31
  rw [lm_v21 A lab]

theorem lm_v32 : val_main_v32 (F := F) lab = lm_main_v32 (F := F) A (val_main_v6 (F := F) lab) := by
  unfold val_main_v32 lm_main_v32
  rw [lm_v21 A lab]

theorem lm_c_5 : val_main_c_5 (F := F) = lm_main_c_5 (F := F) A (val_main_v6 (F := F) lab) := rfl

theorem lm_v33 : val_main_v33 (F := F) = lm_main_v33 (F := F) A (val_main_v6 (F := F) lab) := by
  unfold val_main_v33 lm_main_v33
  rw [lm_c_5 A lab]

theorem lm_v34 : val_main_v34 (F := F) lab = lm_main_v34 (F := F) A (val_main_v6 (F := F) lab) := by
  unfold val_main_v34 lm_main_v34
  rw [lm_v31 A lab, lm_v33 A lab]

theorem lm_c_6 : val_main_c_6 (F := F) = lm_main_c_6 (F := F) A (val_main_v6 (F := F) lab) := rfl

theorem lm_v35 : val_main_v35 (F := F) = lm_main_v35 (F := F) A (val_main_v6 (F := F) lab) := by
  unfold val_main_v35 lm_main_v35
  rw [lm_c_6 A lab]

theorem lm_v36 : val_main_v36 (F := F) lab = lm_main_v36 (F := F) A (val_main_v6 (F := F) lab) := by
  unfold val_main_v36 lm_main_v36
  rw [lm_v31 A lab, lm_v35 A lab]

theorem lm_v37 : val_main_v37 (F := F) lab = lm_main_v37 (F := F) A (val_main_v6 (F := F) lab) := by
  unfold val_main_v37 lm_main_v37
  rw [lm_v34 A lab, lm_v36 A lab, lm_v31 A lab]

theorem lm_c_7 : val_main_c_7 (F := F) = lm_main_c_7 (F := F) A (val_main_v6 (F := F) lab) := rfl

theorem lm_v38 : val_main_v38 (F := F) = lm_main_v38 (F := F) A (val_main_v6 (F := F) lab) := by
  unfold val_main_v38 lm_main_v38
  rw [lm_c_7 A lab]

theorem lm_v39 : val_main_v39 (F := F) lab = lm_main_v39 (F := F) A (val_main_v6 (F := F) lab) := by
  unfold val_main_v39 lm_main_v39
  rw [lm_v32 A lab, lm_v38 A lab]

theorem lm_c_8 : val_main_c_8 (F := F) = lm_main_c_8 (F := F) A (val_main_v6 (F := F) lab) := rfl

theorem lm_v40 : val_main_v40 (F := F) = lm_main_v40 (F := F) A (val_main_v6 (F := F) lab) := by
  unfold val_main_v40 lm_main_v40
  rw [lm_c_8 A lab]

theorem lm_v41 : val_main_v41 (F := F) lab = lm_main_v41 (F := F) A (val_main_v6 (F := F) lab) := by
  unfold val_main_v41 lm_main_v41
  rw [lm_v32 A lab, lm_v40 A lab]

theorem lm_v42 : val_main_v42 (F := F) lab = lm_main_v42 (F := F) A (val_main_v6 (F := F) lab) := by
  unfold val_main_v42 lm_main_v42
  rw [lm_v39 A lab, lm_v41 A lab, lm_v32 A lab]

theorem lm_v43 : val_main_v43 (F := F) lab = lm_main_v43 (F := F) A (val_main_v6 (F := F) lab) := by
  unfold val_main_v43 lm_main_v43
  rw [lm_v37 A lab]

theorem lm_v44 : val_main_v44 (F := F) lab = lm_main_v44 (F := F) A (val_main_v6 (F := F) lab) := by
  unfold val_main_v44 lm_main_v44
  rw [lm_v42 A lab]

theorem lm_v45 : val_main_v45 (F := F) lab = lm_main_v45 (F := F) A (val_main_v6 (F := F) lab) := by
  unfold val_main_v45 lm_main_v45
  rw [lm_v43 A lab, lm_v44 A lab]

theorem lm_v46 : val_main_v46 (F := F) A lab = lm_main_v46 (F := F) A (val_main_v6 (F := F) lab) := by
  unfold val_main_v46 lm_main_v46
  rw [lm_v17 A lab, lm_v45 A lab]

theorem lm_cst : val_main_cst (F := F) = lm_main_cst (F := F) A (val_main_v6 (F := F) lab) := rfl

theorem lm_v47 : val_main_v47 (F := F) A lab = lm_main_v47 (F := F) A (val_main_v6 (F := F) lab) := by
  unfold val_main_v47 lm_main_v47
  rw [lm_v46 A lab, lm_cst A lab]

theorem lm_v48 : val_main_v48 (F := F) A lab = lm_main_v48 (F := F) A (val_main_v6 (F := F) lab) := by
  unfold val_main_v48 lm_main_v48
  rw [lm_v30 A lab, lm_v47 A lab]

/-! The final arc of each row's last state, and the row's language-model score. -/

theorem lm_v49 : val_main_v49 (F := F) lab = lm_main_v49 (F := F) A (val_main_v6 (F := F) lab) := by
  unfold val_main_v49 lm_main_v49
  rw [lm_v21 A lab]

theorem lm_v50 : val_main_v50 (F := F) lab = lm_main_v50 (F := F) A (val_main_v6 (F := F) lab) := by
  unfold val_main_v50 lm_main_v50
  rw [lm_v49 A lab]

theorem lm_c_9 : val_main_c_9 (F := F) = lm_main_c_9 (F := F) A (val_main_v6 (F := F) lab) := rfl

theorem lm_v51 : val_main_v51 (F := F) = lm_main_v51 (F := F) A (val_main_v6 (F := F) lab) := by
  unfold val_main_v51 lm_main_v51
  rw [lm_c_9 A lab]

theorem lm_v52 : val_main_v52 (F := F) lab = lm_main_v52 (F := F) A (val_main_v6 (F := F) lab) := by
  unfold val_main_v52 lm_main_v52
  rw [lm_v50 A lab, lm_v51 A lab]

theorem lm_c_10 : val_main_c_10 (F := F) = lm_main_c_10 (F := F) A (val_main_v6 (F := F) lab) := rfl

theorem lm_v53 : val_main_v53 (F := F) = lm_main_v53 (F := F) A (val_main_v6 (F := F) lab) := by
  unfold val_main_v53 lm_main_v53
  rw [lm_c_10 A lab]

theorem lm_v54 : val_main_v54 (F := F) lab = lm_main_v54 (F := F) A (val_main_v6 (F := F) lab) := by
  unfold val_main_v54 lm_main_v54
  rw [lm_v50 A lab, lm_v53 A lab]

theorem lm_v55 : val_main_v55 (F := F) lab = lm_main_v55 (F := F) A (val_main_v6 (F := F) lab) := by
  unfold val_main_v55 lm_main_v55
  rw [lm_v52 A lab, lm_v54 A lab, lm_v50 A lab]

theorem lm_v56 : val_main_v56 (F := F) lab = lm_main_v56 (F := F) A (val_main_v6 (F := F) lab) := by
  unfold val_main_v56 lm_main_v56
  rw [lm_v55 A lab]

theorem lm_v57 : val_main_v57 (F := F) A lab = lm_main_v57 (F := F) A (val_main_v6 (F := F) lab) := by
  unfold val_main_v57 lm_main_v57
  rw [lm_v19 A lab, lm_v56 A lab]

theorem lm_v58 : val_main_v58 (F := F) A lab = lm_main_v58 (F := F) A (val_main_v6 (F := F) lab) := by
  unfold val_main_v58 lm_main_v58
  rw [lm_v48 A lab, lm_v57 A lab]

end Levels

/-- The reference's result is the specification's total: the rows' language-model scores at the reference's
    gold sequence plus the reference's emission scores, summed, over the count of scored positions. The count
    and the division are the same operations on both sides. -/
theorem ref_total {F : FTy → Type} [FloatOps F] (lp : (⟨S64x8192x48, .f32⟩ : BufTy).Contents (Elt F)) (A : (⟨S1848, .f32⟩ : BufTy).Contents (Elt F)) (lab : (⟨S64x8192, .i32⟩ : BufTy).Contents (Elt F)) :
    val_main_v65 (F := F) lp A lab = total (lmScore A (val_main_v6 (F := F) lab)) (val_main_v59 (F := F) lp lab) lab := by
  unfold val_main_v65 val_main_v63 val_main_v60
  rw [lm_v58 A lab]
  rfl

end Cert.RefValue

end
-- ==== Proof.LibStableOrder.lean ====
/-
  The library's stable insertion sort is STABLE: among the positions the comparator does not separate, the sorted
  order keeps the original order. For the comparator "a set-bit position sorts before a clear-bit position" this
  says that the first sorted positions enumerate the set-bit positions in increasing order: sorted position `t` holds
  a set bit exactly when `t` is below the number of set bits, the `t`-th set-bit position has exactly `t + 1` set-bit
  positions at or below it, and a sum over the set-bit positions is the sum over the first sorted positions.
-/
import Idealize.ShloMosaic.Lib.SortFacts
import Mathlib.Order.Interval.Finset.Fin
import Mathlib.Algebra.BigOperators.Group.Finset.Basic

namespace Cert.StableOrder
open Idealize.ShloMosaic

/-! ## Stability of the insertion sort on lists -/

section lists
variable {ι : Type} [LT ι] (B : ι → ι → Bool)

/-- Inserting an element `a` that is smaller (in the original order) than every element of a list `m` with no
    inversion and stable ties keeps both properties: `a` passes exactly the leading elements that sort strictly
    before it, and by negative transitivity nothing after them sorts strictly before `a`. -/
theorem pairwise_insertBefore_stable (hasym : ∀ a b, B a b = true → B b a = false)
    (hneg : ∀ a b c, B a b = false → B b c = false → B a c = false) (a : ι) (m : List ι)
    (hm : m.Pairwise fun b c => B c b = false ∧ (B b c = false → b < c)) (ha : ∀ x ∈ m, a < x) :
    (insertBefore B a m).Pairwise fun b c => B c b = false ∧ (B b c = false → b < c) := by
  induction m with
  | nil => exact List.pairwise_singleton _ _
  | cons b m ih =>
    rw [List.pairwise_cons] at hm
    unfold insertBefore
    split
    · rename_i h
      refine List.pairwise_cons.mpr ⟨fun c hc => ?_, ih hm.2 fun x hx => ha x (List.mem_cons_of_mem b hx)⟩
      rcases List.mem_cons.mp ((perm_insertBefore B a m).mem_iff.mp hc) with rfl | hc'
      · exact ⟨hasym b c h, fun h' => absurd h (by rw [h']; exact Bool.false_ne_true)⟩
      · exact hm.1 c hc'
    · rename_i h
      have hba : B b a = false := by
        cases hb : B b a
        · rfl
        · exact absurd hb h
      refine List.pairwise_cons.mpr ⟨fun c hc => ?_, List.pairwise_cons.mpr hm⟩
      refine ⟨?_, fun _ => ha c hc⟩
      rcases List.mem_cons.mp hc with rfl | hc'
      · exact hba
      · exact hneg c b a (hm.1 c hc').1 hba

/-- The stable sort of a strictly increasing list has no inversion, and two elements the comparator does not
    separate stay in increasing order. -/
theorem pairwise_stableSort_stable (hasym : ∀ a b, B a b = true → B b a = false)
    (hneg : ∀ a b c, B a b = false → B b c = false → B a c = false) (l : List ι) (hl : l.Pairwise (· < ·)) :
    (stableSort B l).Pairwise fun b c => B c b = false ∧ (B b c = false → b < c) := by
  induction l with
  | nil => exact List.Pairwise.nil
  | cons a l ih =>
    rw [List.pairwise_cons] at hl
    unfold stableSort
    exact pairwise_insertBefore_stable B hasym hneg a _ (ih hl.2)
      fun x hx => hl.1 x ((perm_stableSort B l).mem_iff.mp hx)

end lists

/-! ## Stability of the sorting permutation -/

theorem sortedFrom_stable {n : Nat} (B : Fin n → Fin n → Bool)
    (hasym : ∀ a b, B a b = true → B b a = false)
    (hneg : ∀ a b c, B a b = false → B b c = false → B a c = false)
    (i j : Fin n) (hij : i < j) :
    B (sortedFrom B j) (sortedFrom B i) = false ∧
      (B (sortedFrom B i) (sortedFrom B j) = false → sortedFrom B i < sortedFrom B j) := by
  have hp : ∀ a b : Fin (sortPositions n B).length, a < b →
      B ((sortPositions n B).get b) ((sortPositions n B).get a) = false ∧
        (B ((sortPositions n B).get a) ((sortPositions n B).get b) = false →
          (sortPositions n B).get a < (sortPositions n B).get b) :=
    List.pairwise_iff_get.mp
      (pairwise_stableSort_stable B hasym hneg (List.finRange n) (List.sortedLT_finRange n).pairwise)
  unfold sortedFrom
  exact hp _ _ (by simp only [Fin.lt_def, Fin.val_cast]; exact hij)

/-! ## A downward-closed set of positions is an initial segment -/

/-- A decidable downward-closed predicate on `Fin n` holds at `t` exactly when `t` is below the number of positions
    where it holds. -/
theorem downClosed_iff_lt_card {n : Nat} (p : Fin n → Prop) [DecidablePred p]
    (hp : ∀ i j : Fin n, i < j → p j → p i) (t : Fin n) :
    p t ↔ t.val < (Finset.univ.filter p).card := by
  constructor
  · intro ht
    have hsub : Finset.Iic t ⊆ Finset.univ.filter p := by
      intro i hi
      rw [Finset.mem_Iic] at hi
      refine Finset.mem_filter.mpr ⟨Finset.mem_univ _, ?_⟩
      rcases lt_or_eq_of_le hi with h | h
      · exact hp i t h ht
      · exact h ▸ ht
    have := Finset.card_le_card hsub
    rw [Fin.card_Iic] at this
    omega
  · intro hlt
    by_contra hnt
    have hsub : Finset.univ.filter p ⊆ Finset.Iio t := by
      intro i hi
      rw [Finset.mem_filter] at hi
      rw [Finset.mem_Iio]
      by_contra hge
      rcases lt_or_eq_of_le (not_lt.mp hge) with h | h
      · exact hnt (hp t i h hi.2)
      · exact hnt (h ▸ hi.2)
    have := Finset.card_le_card hsub
    rw [Fin.card_Iio] at this
    omega

/-! ## The mask comparator -/

theorem mask_asymm {n : Nat} (v : Fin n → Bool) (B : Fin n → Fin n → Bool)
    (hB : ∀ a b, B a b = (v a && !v b)) (a b : Fin n) (h : B a b = true) : B b a = false := by
  rw [hB] at h ⊢
  cases hva : v a <;> cases hvb : v b <;> simp_all

theorem mask_negTrans {n : Nat} (v : Fin n → Bool) (B : Fin n → Fin n → Bool)
    (hB : ∀ a b, B a b = (v a && !v b)) (a b c : Fin n) (h₁ : B a b = false) (h₂ : B b c = false) :
    B a c = false := by
  rw [hB] at h₁ h₂ ⊢
  cases hva : v a <;> cases hvb : v b <;> cases hvc : v c <;> simp_all

/-- The sorted positions that hold a set bit are as many as the set-bit positions: the sorting permutation is a
    bijection. -/
theorem card_sorted_mask {n : Nat} (v : Fin n → Bool) (B : Fin n → Fin n → Bool) :
    (Finset.univ.filter fun t : Fin n => v (sortedFrom B t) = true).card
      = (Finset.univ.filter fun s : Fin n => v s = true).card := by
  have himg : (Finset.univ.filter fun s : Fin n => v s = true)
      = (Finset.univ.filter fun t : Fin n => v (sortedFrom B t) = true).image (sortedFrom B) := by
    ext s
    simp only [Finset.mem_filter, Finset.mem_univ, true_and, Finset.mem_image]
    constructor
    · intro hs
      obtain ⟨t, rfl⟩ := sortedFrom_surjective B s
      exact ⟨t, hs, rfl⟩
    · rintro ⟨t, ht, rfl⟩
      exact ht
  rw [himg, Finset.card_image_of_injective _ (sortedFrom_injective B)]

/-- Sorted position `t` holds a set bit exactly when `t` is below the number of set bits: the sorted positions
    holding a set bit are downward closed (no inversion) and as many as the set bits. -/
theorem sortedFrom_mask_iff {n : Nat} (v : Fin n → Bool) (B : Fin n → Fin n → Bool)
    (hB : ∀ a b, B a b = (v a && !v b)) (t : Fin n) :
    v (sortedFrom B t) = true ↔ t.val < (Finset.univ.filter fun s : Fin n => v s = true).card := by
  rw [← card_sorted_mask v B]
  refine downClosed_iff_lt_card (fun t : Fin n => v (sortedFrom B t) = true) (fun i j hij hj => ?_) t
  have h := (sortedFrom_stable B (mask_asymm v B hB) (mask_negTrans v B hB) i j hij).1
  rw [hB] at h
  have hj' : v (sortedFrom B j) = true := hj
  rw [hj'] at h
  simpa using h

/-- Below the number of set bits the sorting permutation is strictly increasing (stability), so the set-bit
    positions at or below the `t`-th sorted position are the images of the sorted positions `0, …, t`. -/
theorem sortedFrom_mask_rank {n : Nat} (v : Fin n → Bool) (B : Fin n → Fin n → Bool)
    (hB : ∀ a b, B a b = (v a && !v b)) (t : Fin n)
    (ht : t.val < (Finset.univ.filter fun s : Fin n => v s = true).card) :
    (Finset.univ.filter fun s : Fin n => v s = true ∧ s ≤ sortedFrom B t).card = t.val + 1 := by
  have hvt : v (sortedFrom B t) = true := (sortedFrom_mask_iff v B hB t).mpr ht
  -- two sorted positions of which the later holds a set bit keep their order
  have hmono : ∀ i j : Fin n, i < j → v (sortedFrom B j) = true → sortedFrom B i < sortedFrom B j := by
    intro i j hij hj
    refine (sortedFrom_stable B (mask_asymm v B hB) (mask_negTrans v B hB) i j hij).2 ?_
    rw [hB, hj]
    simp
  have himg : (Finset.univ.filter fun s : Fin n => v s = true ∧ s ≤ sortedFrom B t)
      = (Finset.Iic t).image (sortedFrom B) := by
    ext s
    simp only [Finset.mem_filter, Finset.mem_univ, true_and, Finset.mem_image, Finset.mem_Iic]
    constructor
    · rintro ⟨hs, hle⟩
      obtain ⟨i, rfl⟩ := sortedFrom_surjective B s
      refine ⟨i, ?_, rfl⟩
      by_contra hlt
      exact absurd (hmono t i (not_le.mp hlt) hs) (not_lt.mpr hle)
    · rintro ⟨i, hi, rfl⟩
      refine ⟨(sortedFrom_mask_iff v B hB i).mpr (lt_of_le_of_lt (Fin.le_def.mp hi) ht), ?_⟩
      rcases lt_or_eq_of_le hi with h | h
      · exact le_of_lt (hmono i t h hvt)
      · rw [h]
  rw [himg, Finset.card_image_of_injective _ (sortedFrom_injective B), Fin.card_Iic]

/-- The set-bit positions are the images of the first `k` sorted positions under an injective map, so the masked
    sum is the sum over those sorted positions. -/
theorem sum_mask_eq_sum_sorted {M : Type} [AddCommMonoid M] {n k : Nat} (v : Fin n → Bool) (B : Fin n → Fin n → Bool)
    (hB : ∀ a b, B a b = (v a && !v b)) (hk : (Finset.univ.filter fun s : Fin n => v s = true).card = k) (hkn : k ≤ n) (f : Fin n → M) :
    (∑ s : Fin n, if v s = true then f s else 0) = ∑ t : Fin k, f (sortedFrom B ⟨t.val, lt_of_lt_of_le t.isLt hkn⟩) := by
  have hinj : Function.Injective fun t : Fin k => sortedFrom B ⟨t.val, lt_of_lt_of_le t.isLt hkn⟩ := by
    intro t₁ t₂ h
    have := sortedFrom_injective B h
    exact Fin.ext (Fin.mk.inj_iff.mp this)
  have himg : (Finset.univ.filter fun s : Fin n => v s = true)
      = Finset.univ.image fun t : Fin k => sortedFrom B ⟨t.val, lt_of_lt_of_le t.isLt hkn⟩ := by
    ext s
    simp only [Finset.mem_filter, Finset.mem_univ, true_and, Finset.mem_image]
    constructor
    · intro hs
      obtain ⟨i, rfl⟩ := sortedFrom_surjective B s
      have hi : i.val < k := hk ▸ (sortedFrom_mask_iff v B hB i).mp hs
      exact ⟨⟨i.val, hi⟩, rfl⟩
    · rintro ⟨t, rfl⟩
      exact (sortedFrom_mask_iff v B hB _).mpr (hk ▸ t.isLt)
  rw [← Finset.sum_filter, himg, Finset.sum_image fun a _ b _ h => hinj h]

end Cert.StableOrder
-- ==== Proof.RefSort.lean ====
/-
  The reference's argsort of the keys (0 at a scored position, 1 at an ignored one), read row by row.

  Sorting two operands along the second axis of a rectangle permutes each row by the stable sorting permutation of
  that row's comparator relation, and the carried position table reads that permutation back.  On keys that are 0 at
  a scored position and 1 elsewhere, signed "less than" between the keys is "scored before unscored", so row b,
  rank t of the sorted position table is the word of the t-th scored position.  With exactly 4096 scored positions
  in the row, the first 4096 sorted positions are the scored ones in increasing order: each is scored, the t-th has
  t + 1 scored positions at or below it, and a sum over the scored positions is the sum over those ranks.
-/
import proofs.«417459_j46256797778252_2_alg».proof.Proof.Spec
import proofs.«417459_j46256797778252_2_alg».proof.Proof.LibStableOrder
import proofs.«417459_j46256797778252_2_alg».proof.Proof.Gen.ReferenceIdeal
import Idealize.ShloMosaic.Lib.SortFacts
import Idealize.ShloMosaic.Lib.StableHlo.Predicate

namespace Cert.RefSort

open Idealize.ShloMosaic Idealize.ShloMosaic.StableHlo.Predicate Cert.ReferenceIdeal Cert.Crf

/-! ## Sorting a rectangle along its second axis -/

/-- Position k of the row through (p, q) is (p, k). -/
theorem ij_along_one {n m : Nat} (p : Fin n) (q : Fin m)
    (k : Fin ((⟨2, ![n, m]⟩ : Shape).size ⟨1, Nat.one_lt_two⟩)) :
    Shape.Idx.along (s := ⟨2, ![n, m]⟩) (ij p q) ⟨1, Nat.one_lt_two⟩ k = ij p (k : Fin m) := by
  funext a
  match a with
  | ⟨0, _⟩ => rfl
  | ⟨1, _⟩ => rfl

/-- The second operand of a two-operand sort along the second axis, at row p and rank q: the operand read at the
    position the row's stable sorting permutation puts at rank q. -/
theorem sort2_snd_axis1 {n m : Nat} {α β : Type} (cmp : α × β → α × β → BitVec 1)
    (x : (⟨2, ![n, m]⟩ : Shape).Idx → α) (y : (⟨2, ![n, m]⟩ : Shape).Idx → β) (p : Fin n) (q : Fin m) :
    (Host.sort2 ⟨2, ![n, m]⟩ 1 cmp x y).2 (ij p q)
      = y (ij p (sortedFrom
          (fun k k' : Fin m => cmp (x (ij p k), y (ij p k)) (x (ij p k'), y (ij p k')) == 1#1) q)) := by
  unfold Host.sort2
  rw [dif_pos (show 1 < (⟨2, ![n, m]⟩ : Shape).rank from Nat.one_lt_two)]
  simp only [ij_along_one]
  rfl

/-! ## The keys' comparator is "scored before unscored" -/

theorem comparator_keys_eq_before (lab keys : IVec S64x8192 32)
    (hk : ∀ (b : Fin 64) (s : Fin 8192), keys (ij b s) = if lab (ij b s) ≠ IGN then 0#32 else 1#32) (b : Fin 64) :
    (fun k k' : Fin 8192 =>
        comparator_i32_i32_d1 (keys (ij b k), iotaInDim S64x8192 32 1 (ij b k))
          (keys (ij b k'), iotaInDim S64x8192 32 1 (ij b k')) == 1#1) = before lab b := by
  funext k k'
  simp only [comparator_i32_i32_d1, hk, before, scored, IntOp.cmpi]
  by_cases h1 : lab (ij b k) = IGN <;> by_cases h2 : lab (ij b k') = IGN <;> simp [h1, h2] <;> decide

theorem sort2_iota_pos (lab keys : IVec S64x8192 32) (hk : ∀ (b : Fin 64) (s : Fin 8192), keys (ij b s) = if lab (ij b s) ≠ IGN then 0#32 else 1#32) (b : Fin 64) (t : Fin 4096) :
    (Host.sort2 S64x8192 1 comparator_i32_i32_d1 keys (iotaInDim S64x8192 32 1)).2 (ij b ⟨t.val, lt_trans t.isLt (by decide)⟩) = BitVec.ofNat 32 (pos lab b t).val := by
  rw [sort2_snd_axis1, comparator_keys_eq_before lab keys hk b]
  rfl

/-! ## The first 4096 sorted positions of a row with 4096 scored positions -/

theorem card_scored (lab : IVec S64x8192 32) (b : Fin 64)
    (hcount : (Finset.univ.filter fun q : Fin 8192 => lab (ij b q) ≠ IGN).card = 4096) :
    (Finset.univ.filter fun s : Fin 8192 => scored lab b s = true).card = 4096 := by
  rw [← hcount]
  congr 1
  ext s
  simp [scored]

theorem pos_scored (lab : IVec S64x8192 32) (b : Fin 64) (hcount : (Finset.univ.filter fun q : Fin 8192 => lab (ij b q) ≠ IGN).card = 4096) (t : Fin 4096) : lab (ij b (pos lab b t)) ≠ IGN := by
  have h := (Cert.StableOrder.sortedFrom_mask_iff (scored lab b) (before lab b) (fun _ _ => rfl)
    ⟨t.val, lt_trans t.isLt (by decide)⟩).mpr (by rw [card_scored lab b hcount]; exact t.isLt)
  exact of_decide_eq_true h

theorem pos_rank (lab : IVec S64x8192 32) (b : Fin 64) (hcount : (Finset.univ.filter fun q : Fin 8192 => lab (ij b q) ≠ IGN).card = 4096) (t : Fin 4096) : (Finset.univ.filter fun q : Fin 8192 => q ≤ pos lab b t ∧ lab (ij b q) ≠ IGN).card = t.val + 1 := by
  have h := Cert.StableOrder.sortedFrom_mask_rank (scored lab b) (before lab b) (fun _ _ => rfl)
    ⟨t.val, lt_trans t.isLt (by decide)⟩ (by rw [card_scored lab b hcount]; exact t.isLt)
  rw [← h]
  congr 1
  ext q
  simp only [Finset.mem_filter, Finset.mem_univ, true_and, scored, decide_eq_true_eq]
  exact and_comm

theorem sum_scored_eq_sum_pos {M : Type} [AddCommMonoid M] (lab : IVec S64x8192 32) (b : Fin 64) (hcount : (Finset.univ.filter fun q : Fin 8192 => lab (ij b q) ≠ IGN).card = 4096) (f : Fin 8192 → M) : (∑ s : Fin 8192, if lab (ij b s) ≠ IGN then f s else 0) = ∑ t : Fin 4096, f (pos lab b t) := by
  have h := Cert.StableOrder.sum_mask_eq_sum_sorted (scored lab b) (before lab b) (fun _ _ => rfl)
    (card_scored lab b hcount) (by decide : 4096 ≤ 8192) f
  refine Eq.trans (Finset.sum_congr rfl fun s _ => ?_) h
  by_cases hs : lab (ij b s) = IGN <;> simp [scored, hs]

end Cert.RefSort
-- ==== Proof.RefGather.lean ====
/-
  Three batched gathers of the reference program, read at an index.

  Each is a take along one axis of the operand, batched over the axes in front of it: the result
  position names the batch coordinates, and the start index it reads (signed, clamped so that the
  one-element slice fits) names the coordinate on the taken axis. When the start index is already
  in range the clamp is the identity, and the gather reads the operand at that coordinate.

  The three lemmas are first proved for arbitrary extents, from the lists of axis numbers alone;
  the reference program's records are instances of them.
-/
import proofs.«417459_j46256797778252_2_alg».proof.ReferenceIdeal
import proofs.«417459_j46256797778252_2_alg».proof.Proof.Gen.ReferenceIdeal
import Idealize.ShloMosaic.Lib.ValueIdx
import Idealize.ShloMosaic.Lib.StableHlo.Predicate

namespace Cert.RefGather

open Idealize.ShloMosaic Idealize.ShloMosaic.ValueIdx Idealize.ShloMosaic.StableHlo.Predicate Cert.ReferenceIdeal

/-- A start index that is the natural number k, with k below the extent N, clamps to itself. -/
theorem clamp_of_eq {w N : Nat} (v : BitVec w) (k : Fin N) (hk : v.toInt = (k.val : Int)) (m : Nat) (hm : m = 1) :
    min v.toInt.toNat (N - m) = k.val := by
  have := k.isLt
  rw [hk, Int.toNat_natCast, hm]
  omega

/-! ## Take along axis 1 of a [B × N] operand, batched over axis 0 -/

section Rows
variable {α : Type}

/-- The dimension numbers: operand [B × N], start indices [B × T × 1], result [B × T]. -/
abbrev rowsDims (B T N : Nat)
    (wf : GatherDims.WF ⟨2, ![B, N]⟩ ⟨3, ![B, T, 1]⟩ ⟨2, ![B, T]⟩ [] [1] [0] [1] [0] 2 ![1, 1]) :
    GatherDims ⟨2, ![B, N]⟩ ⟨3, ![B, T, 1]⟩ ⟨2, ![B, T]⟩ where
  offsetDims := []
  collapsedSliceDims := [1]
  operandBatchingDims := [0]
  startIndicesBatchingDims := [0]
  startIndexMap := [1]
  indexVectorDim := 2
  sliceSizes := ![1, 1]
  wf := wf

/-- Result position (b, t) reads the operand at (b, k), k the start index at (b, t, 0). -/
theorem rows_apply {B T N w : Nat}
    (wf : GatherDims.WF ⟨2, ![B, N]⟩ ⟨3, ![B, T, 1]⟩ ⟨2, ![B, T]⟩ [] [1] [0] [1] [0] 2 ![1, 1])
    (x : (⟨2, ![B, N]⟩ : Shape).Idx → α) (idx : IVec ⟨3, ![B, T, 1]⟩ w) (b : Fin B) (t : Fin T) (k : Fin N)
    (hk : (idx (ix3 b t (0 : Fin 1))).toInt = (k.val : Int)) :
    Host.gather (rowsDims B T N wf) x idx (ij b t) = x (ij b k) := by
  unfold Host.gather
  congr 1
  funext a
  refine Fin.ext ?_
  show (rowsDims B T N wf).start (ij b t) idx a + (rowsDims B T N wf).batchCoord (ij b t) a
    + (rowsDims B T N wf).offCoord (ij b t) a = ((ij b k : (⟨2, ![B, N]⟩ : Shape).Idx) a).val
  match a with
  | ⟨0, _⟩ =>
    -- the batching axis: no start, no offset; the batch coordinate is the result's coordinate 0
    show (rowsDims B T N wf).start (ij b t) idx (0 : Fin 2) + (rowsDims B T N wf).batchCoord (ij b t) (0 : Fin 2)
      + (rowsDims B T N wf).offCoord (ij b t) (0 : Fin 2) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the taken axis: collapsed, so no offset; not batching; the start is the clamped start index
    show (rowsDims B T N wf).start (ij b t) idx (1 : Fin 2) + (rowsDims B T N wf).batchCoord (ij b t) (1 : Fin 2)
      + (rowsDims B T N wf).offCoord (ij b t) (1 : Fin 2) = k.val
    rw [GatherDims.batchCoord_eq_zero _ _ _ (show (1 : Fin 2) ∉ [0] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowsDims B T N wf).startIndexMap from List.mem_singleton.mpr rfl)]
    have hsi : (rowsDims B T N wf).siIdx (ij b t) ⟨List.idxOf (1 : Fin 2) (rowsDims B T N wf).startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    exact clamp_of_eq _ k hk _ rfl

end Rows

/-! ## Take along axis 1 of a [B × N × C] operand, batched over axis 0, whole rows of axis 2 -/

section Rows3
variable {α : Type}

/-- The dimension numbers: operand [B × N × C], start indices [B × T × 1], result [B × T × C]. -/
abbrev rows3Dims (B T N C : Nat)
    (wf : GatherDims.WF ⟨3, ![B, N, C]⟩ ⟨3, ![B, T, 1]⟩ ⟨3, ![B, T, C]⟩ [2] [1] [0] [1] [0] 2 ![1, 1, C]) :
    GatherDims ⟨3, ![B, N, C]⟩ ⟨3, ![B, T, 1]⟩ ⟨3, ![B, T, C]⟩ where
  offsetDims := [2]
  collapsedSliceDims := [1]
  operandBatchingDims := [0]
  startIndicesBatchingDims := [0]
  startIndexMap := [1]
  indexVectorDim := 2
  sliceSizes := ![1, 1, C]
  wf := wf

/-- Result position (b, t, c) reads the operand at (b, k, c), k the start index at (b, t, 0). -/
theorem rows3_apply {B T N C w : Nat}
    (wf : GatherDims.WF ⟨3, ![B, N, C]⟩ ⟨3, ![B, T, 1]⟩ ⟨3, ![B, T, C]⟩ [2] [1] [0] [1] [0] 2 ![1, 1, C])
    (x : (⟨3, ![B, N, C]⟩ : Shape).Idx → α) (idx : IVec ⟨3, ![B, T, 1]⟩ w) (b : Fin B) (t : Fin T) (c : Fin C)
    (k : Fin N) (hk : (idx (ix3 b t (0 : Fin 1))).toInt = (k.val : Int)) :
    Host.gather (rows3Dims B T N C wf) x idx (ix3 b t c) = x (ix3 b k c) := by
  unfold Host.gather
  congr 1
  funext a
  refine Fin.ext ?_
  match a with
  | ⟨0, _⟩ =>
    -- the batching axis: the batch coordinate is the result's coordinate 0
    show (rows3Dims B T N C wf).start (ix3 b t c) idx (0 : Fin 3)
      + (rows3Dims B T N C wf).batchCoord (ix3 b t c) (0 : Fin 3)
      + (rows3Dims B T N C wf).offCoord (ix3 b t c) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the taken axis: collapsed, not batching; the start is the clamped start index
    show (rows3Dims B T N C wf).start (ix3 b t c) idx (1 : Fin 3)
      + (rows3Dims B T N C wf).batchCoord (ix3 b t c) (1 : Fin 3)
      + (rows3Dims B T N C wf).offCoord (ix3 b t c) (1 : Fin 3) = k.val
    rw [GatherDims.batchCoord_eq_zero _ _ _ (show (1 : Fin 3) ∉ [0] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rows3Dims B T N C wf).startIndexMap from List.mem_singleton.mpr rfl)]
    have hsi : (rows3Dims B T N C wf).siIdx (ix3 b t c)
        ⟨List.idxOf (1 : Fin 3) (rows3Dims B T N C wf).startIndexMap,
          List.idxOf_lt_length_iff.2 (List.mem_singleton.mpr rfl)⟩ = ix3 b t (0 : Fin 1) := by
      funext e; refine Fin.ext ?_
      match e with
      | ⟨0, _⟩ => rfl
      | ⟨1, _⟩ => rfl
      | ⟨2, _⟩ => rfl
    rw [hsi]
    exact clamp_of_eq _ k hk _ rfl
  | ⟨2, _⟩ =>
    -- the kept axis: no start index, not batching; the offset is the result's coordinate 2
    show (rows3Dims B T N C wf).start (ix3 b t c) idx (2 : Fin 3)
      + (rows3Dims B T N C wf).batchCoord (ix3 b t c) (2 : Fin 3)
      + (rows3Dims B T N C wf).offCoord (ix3 b t c) (2 : Fin 3) = c.val
    rw [GatherDims.batchCoord_eq_zero _ _ _ (show (2 : Fin 3) ∉ [0] by decide)]
    unfold GatherDims.start
    rw [dif_neg (show (2 : Fin 3) ∉ (rows3Dims B T N C wf).startIndexMap from (by decide : (2 : Fin 3) ∉ [1]))]
    simp only [Nat.zero_add, Nat.add_zero]
    rfl

end Rows3

/-! ## Take along axis 2 of a [B × T × C] operand, batched over axes 0 and 1 -/

section Class
variable {α : Type}

/-- The dimension numbers: operand [B × T × C], start indices [B × T × 1 × 1], result [B × T × 1]. -/
abbrev classDims (B T C : Nat)
    (wf : GatherDims.WF ⟨3, ![B, T, C]⟩ ⟨4, ![B, T, 1, 1]⟩ ⟨3, ![B, T, 1]⟩ [] [2] [0, 1] [2] [0, 1] 3 ![1, 1, 1]) :
    GatherDims ⟨3, ![B, T, C]⟩ ⟨4, ![B, T, 1, 1]⟩ ⟨3, ![B, T, 1]⟩ where
  offsetDims := []
  collapsedSliceDims := [2]
  operandBatchingDims := [0, 1]
  startIndicesBatchingDims := [0, 1]
  startIndexMap := [2]
  indexVectorDim := 3
  sliceSizes := ![1, 1, 1]
  wf := wf

/-- Result position (b, t, 0) reads the operand at (b, t, c), c the start index at (b, t, 0, 0). -/
theorem class_apply {B T C w : Nat}
    (wf : GatherDims.WF ⟨3, ![B, T, C]⟩ ⟨4, ![B, T, 1, 1]⟩ ⟨3, ![B, T, 1]⟩ [] [2] [0, 1] [2] [0, 1] 3 ![1, 1, 1])
    (x : (⟨3, ![B, T, C]⟩ : Shape).Idx → α) (idx : IVec ⟨4, ![B, T, 1, 1]⟩ w) (b : Fin B) (t : Fin T) (c : Fin C)
    (hc : (idx (ix4 b t (0 : Fin 1) (0 : Fin 1))).toInt = (c.val : Int)) :
    Host.gather (classDims B T C wf) x idx (ix3 b t (0 : Fin 1)) = x (ix3 b t c) := by
  unfold Host.gather
  congr 1
  funext a
  refine Fin.ext ?_
  match a with
  | ⟨0, _⟩ =>
    -- the first batching axis: the batch coordinate is the result's coordinate 0
    show (classDims B T C wf).start (ix3 b t (0 : Fin 1)) idx (0 : Fin 3)
      + (classDims B T C wf).batchCoord (ix3 b t (0 : Fin 1)) (0 : Fin 3)
      + (classDims B T C wf).offCoord (ix3 b t (0 : Fin 1)) (0 : Fin 3) = b.val
    rw [GatherDims.start_batching _ _ _ _ (show (0 : Fin 3) ∈ [0, 1] by decide),
      GatherDims.offCoord_eq_zero _ _ _
        (fun h => ((GatherDims.mem_sKept _ _).mp h).2 (show (0 : Fin 3) ∈ [0, 1] by decide))]
    simp only [Nat.zero_add, Nat.add_zero]
    rfl
  | ⟨1, _⟩ =>
    -- the second batching axis: the batch coordinate is the result's coordinate 1
    show (classDims B T C wf).start (ix3 b t (0 : Fin 1)) idx (1 : Fin 3)
      + (classDims B T C wf).batchCoord (ix3 b t (0 : Fin 1)) (1 : Fin 3)
      + (classDims B T C wf).offCoord (ix3 b t (0 : Fin 1)) (1 : Fin 3) = t.val
    rw [GatherDims.start_batching _ _ _ _ (show (1 : Fin 3) ∈ [0, 1] by decide),
      GatherDims.offCoord_eq_zero _ _ _
        (fun h => ((GatherDims.mem_sKept _ _).mp h).2 (show (1 : Fin 3) ∈ [0, 1] by decide))]
    simp only [Nat.zero_add, Nat.add_zero]
    rfl
  | ⟨2, _⟩ =>
    -- the taken axis: collapsed, not batching; the start is the clamped start index
    show (classDims B T C wf).start (ix3 b t (0 : Fin 1)) idx (2 : Fin 3)
      + (classDims B T C wf).batchCoord (ix3 b t (0 : Fin 1)) (2 : Fin 3)
      + (classDims B T C wf).offCoord (ix3 b t (0 : Fin 1)) (2 : Fin 3) = c.val
    rw [GatherDims.batchCoord_eq_zero _ _ _ (show (2 : Fin 3) ∉ [0, 1] by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (classDims B T C wf).startIndexMap from List.mem_singleton.mpr rfl)]
    have hsi : (classDims B T C wf).siIdx (ix3 b t (0 : Fin 1))
        ⟨List.idxOf (2 : Fin 3) (classDims B T C wf).startIndexMap,
          List.idxOf_lt_length_iff.2 (List.mem_singleton.mpr rfl)⟩ = ix4 b t (0 : Fin 1) (0 : Fin 1) := by
      funext e; refine Fin.ext ?_
      match e with
      | ⟨0, _⟩ => rfl
      | ⟨1, _⟩ => rfl
      | ⟨2, _⟩ => rfl
      | ⟨3, _⟩ => rfl
    rw [hsi]
    exact clamp_of_eq _ c hc _ rfl

end Class

/-! ## The reference program's three gathers -/

/-- The row take of the [64 × 8192] table: position (b, t) reads (b, k), k the index at (b, t, 0). -/
theorem take_rows {α : Type} (x : S64x8192.Idx → α) (idx : IVec S64x4096x1 32) (b : Fin 64) (t : Fin 4096) (k : Fin 8192)
    (hk : (idx (ix3 b t 0)).toInt = (k.val : Int)) :
    Host.gather gather_S64x8192_S64x4096x1_S64x4096_n_1_0_0_1_2_11 x idx (ij b t) = x (ij b k) :=
  rows_apply Facts₀.gather_S64x8192_S64x4096x1_S64x4096_n_1_0_0_1_2_11_wf x idx b t k hk

/-- The row take of the [64 × 8192 × 48] table: position (b, t, c) reads (b, k, c). -/
theorem take_rows3 {α : Type} (x : S64x8192x48.Idx → α) (idx : IVec S64x4096x1 32) (b : Fin 64) (t : Fin 4096) (c : Fin 48) (k : Fin 8192)
    (hk : (idx (ix3 b t 0)).toInt = (k.val : Int)) :
    Host.gather gather_S64x8192x48_S64x4096x1_S64x4096x48_2_1_0_0_1_2_1148 x idx (ix3 b t c) = x (ix3 b k c) :=
  rows3_apply Facts₀.gather_S64x8192x48_S64x4096x1_S64x4096x48_2_1_0_0_1_2_1148_wf x idx b t c k hk

/-- The class take of the [64 × 4096 × 48] table: position (b, t, 0) reads (b, t, c), c the index at (b, t, 0, 0). -/
theorem take_class {α : Type} (x : S64x4096x48.Idx → α) (idx : IVec S64x4096x1x1 32) (b : Fin 64) (t : Fin 4096) (c : Fin 48)
    (hc : (idx (ix4 b t 0 0)).toInt = (c.val : Int)) :
    Host.gather gather_S64x4096x48_S64x4096x1x1_S64x4096x1_n_2_01_01_2_3_111 x idx (ix3 b t 0) = x (ix3 b t c) :=
  class_apply Facts₀.gather_S64x4096x48_S64x4096x1x1_S64x4096x1_n_2_01_01_2_3_111_wf x idx b t c hc

end Cert.RefGather
-- ==== Proof.RefValue.lean ====
/-
  The reference's gold sequence is the specification's: at row b and slot t it is the label at the t-th scored
  position of row b.

  The reference sorts the positions of each row stably by the key "0 if scored, 1 if ignored" and keeps the
  first 4096 sorted positions; the sorted position word at (b, t) is therefore the t-th scored position of
  row b. Its take along the positions first wraps negative indices (none here), masks the indices out of
  range (none here) and reads the labels at the rest.
-/
import proofs.«417459_j46256797778252_2_alg».proof.Proof.RefRead
import proofs.«417459_j46256797778252_2_alg».proof.Proof.Spec
import proofs.«417459_j46256797778252_2_alg».proof.Proof.RefSort
import proofs.«417459_j46256797778252_2_alg».proof.Proof.RefGather
import Idealize.ShloMosaic.Lib.Affine
import Idealize.ShloMosaic.PureOps.Reduce

noncomputable section

namespace Cert.RefValue

open Idealize.ShloMosaic Idealize.ShloMosaic.ValueIdx Idealize.ShloMosaic.StableHlo.Predicate
open Cert.ReferenceIdeal Cert.ReferenceIdeal.ReadP Cert.Crf

/-! ## Words

  A select on the bit 1 takes its first branch, on any other bit its second. A natural number below 2³¹, as a
  32-bit word, reads back signed as itself; so the negative-index wrap (add the extent when the word is
  negative) leaves it alone, and the mask "0 ≤ word ≤ M" is 1 once the number is at most M. A reduction by
  "and" from 1 over bits that are all 1 is 1. -/

theorem select_one {α : Type} (a b : α) : Scalar.select 1#1 a b = a := if_pos rfl

theorem select_of_ne {α : Type} (c : BitVec 1) (hc : c ≠ 1#1) (a b : α) : Scalar.select c a b = b := if_neg hc

theorem toInt_of_toNat_small (x : BitVec 32) (h : x.toNat < 2147483648) : x.toInt = (x.toNat : Int) :=
  BitVec.toInt_eq_toNat_of_lt (by omega)

theorem toNat_ofNat_small (n : Nat) (hn : n < 4294967296) : (BitVec.ofNat 32 n).toNat = n := by
  rw [BitVec.toNat_ofNat]; exact Nat.mod_eq_of_lt hn

theorem toInt_ofNat_small (n : Nat) (hn : n < 2147483648) : (BitVec.ofNat 32 n).toInt = (n : Int) := by
  rw [toInt_of_toNat_small _ (by rw [toNat_ofNat_small n (by omega)]; exact hn), toNat_ofNat_small n (by omega)]

/-- The negative-index wrap does nothing to a word that is not negative. -/
theorem wrap_id (x N : BitVec 32) (hx : 0 ≤ x.toInt) :
    Scalar.select (IntOp.cmpi .slt x 0#32) (IntOp.addi x N) x = x := by
  refine select_of_ne _ (fun e => ?_) _ _
  have h := IntOp.cmpi_slt.1 e
  rw [BitVec.toInt_zero] at h
  omega

/-- The in-range mask of a word between 0 and M. -/
theorem in_range_one (x M : BitVec 32) (h0 : 0 ≤ x.toInt) (hM : x.toInt ≤ M.toInt) :
    IntOp.andi (IntOp.cmpi .sge x 0#32) (IntOp.cmpi .sle x M) = 1#1 :=
  IntOp.andi_eq_one.2 ⟨IntOp.cmpi_sge.2 (by rw [BitVec.toInt_zero]; exact h0), IntOp.cmpi_sle.2 hM⟩

theorem foldl_andi_all_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi (1#1 : BitVec 1) 1#1 = 1#1 from by decide]
    exact foldl_andi_all_one x hx l

/-- A reduction by "and", from 1, of an array of bits that are all 1 is 1 at every result index. -/
theorem reduce_andi_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_all_one x hx _

/-! ## The sorted index word

  The sort keys are 0 at a scored position and 1 at an ignored one, so the sorted position word at (b, t),
  t < 4096, is the t-th scored position of row b as a 32-bit word. It is a natural number below 8192: the
  wrap leaves it alone and the in-range mask "0 ≤ word ≤ 8191" is 1. -/

theorem keys_eq (lab : IVec S64x8192 32) (b : Fin 64) (s : Fin 8192) :
    val_main_v3 (F := Ideal) lab (ij b s) = if lab (ij b s) ≠ IGN then 0#32 else 1#32 := by
  rw [val_main_v3_apply, val_main_v2_apply, val_main_v1_apply, val_main_v0_apply, val_main_c_apply,
    val_main_call0_v0_apply, val_main_c_0_apply, val_main_call0_v1_apply, val_main_c_1_apply]
  by_cases h : lab (ij b s) = IGN
  · rw [if_neg (not_not.2 h)]
    exact select_of_ne _ (fun e => IntOp.cmpi_ne.1 e h) _ _
  · rw [if_pos h, IntOp.cmpi_ne.2 h]
    exact select_one _ _

theorem pos_small (lab : IVec S64x8192 32) (b : Fin 64) (t : Fin 4096) : (pos lab b t).val < 2147483648 := by
  have := (pos lab b t).isLt; omega

theorem v5_word (lab : IVec S64x8192 32) (b : Fin 64) (t : Fin 4096) :
    val_main_v5 (F := Ideal) lab (ij b t) = BitVec.ofNat 32 (pos lab b t).val := by
  rw [val_main_v5_apply]
  have hi : idx_main_v5 (ij b t) = ij b ⟨t.val, lt_trans t.isLt (by decide)⟩ := by
    funext a; match a with | ⟨0, _⟩ => rfl | ⟨1, _⟩ => rfl
  rw [hi]
  exact Cert.RefSort.sort2_iota_pos lab (val_main_v3 (F := Ideal) lab) (keys_eq lab) b t

theorem c2v4_word (lab : IVec S64x8192 32) (b : Fin 64) (t : Fin 4096) :
    val_main_call2_v4 (F := Ideal) lab (ij b t) = BitVec.ofNat 32 (pos lab b t).val := by
  rw [val_main_call2_v4_apply, val_main_call2_v1_apply, val_main_call2_v3_apply, val_main_call2_v0_apply,
    val_main_call2_c_apply, val_main_call2_v2_apply, val_main_call2_c_0_apply, v5_word]
  exact wrap_id _ _ (by rw [toInt_ofNat_small _ (pos_small lab b t)]; exact Int.natCast_nonneg _)

theorem c2v5_word (lab : IVec S64x8192 32) (b : Fin 64) (t : Fin 4096) (k : Fin 1) :
    val_main_call2_v5 (F := Ideal) lab (ix3 b t k) = BitVec.ofNat 32 (pos lab b t).val := by
  rw [val_main_call2_v5_apply]
  have hi : idx_main_call2_v5 (ix3 b t k) = ij b t := by
    funext a
    match a with
    | ⟨0, _⟩ => exact Fin.ext (by show ((b.val * 4096 + t.val) * 1 + k.val) / 4096 = b.val; have := t.isLt; have := k.isLt; omega)
    | ⟨1, _⟩ => exact Fin.ext (by show ((b.val * 4096 + t.val) * 1 + k.val) % 4096 = t.val; have := t.isLt; have := k.isLt; omega)
  rw [hi]
  exact c2v4_word lab b t

theorem c2v11_one (lab : IVec S64x8192 32) (i : S64x4096x1.Idx) : val_main_call2_v11 (F := Ideal) lab i = 1#1 := by
  obtain ⟨b, t, k, rfl⟩ : ∃ (b : Fin 64) (t : Fin 4096) (k : Fin 1), i = ix3 b t k := ⟨i 0, i 1, i 2, eq_ix3 i⟩
  rw [val_main_call2_v11_apply, val_main_call2_v7_apply, val_main_call2_v10_apply, val_main_call2_v6_apply,
    val_main_call2_c_2_apply, val_main_call2_v9_apply, val_main_call2_v8_apply, val_main_call2_c_1_apply, c2v5_word]
  refine in_range_one _ _ ?_ ?_
  · rw [toInt_ofNat_small _ (pos_small lab b t)]; exact Int.natCast_nonneg _
  · rw [toInt_ofNat_small _ (pos_small lab b t), show (8191#32 : BitVec 32).toInt = 8191 from by decide]
    have := (pos lab b t).isLt; omega

theorem c2v12_one (lab : IVec S64x8192 32) (j : S64x4096.Idx) : val_main_call2_v12 (F := Ideal) lab j = 1#1 := by
  unfold val_main_call2_v12
  exact reduce_andi_all_one _ _ _ _ j rfl (c2v11_one lab)

theorem c2v13_eq (lab : IVec S64x8192 32) (b : Fin 64) (t : Fin 4096) :
    val_main_call2_v13 (F := Ideal) lab (ij b t) = lab (ij b (pos lab b t)) := by
  unfold val_main_call2_v13
  exact Cert.RefGather.take_rows lab (val_main_call2_v5 (F := Ideal) lab) b t (pos lab b t)
    (by rw [c2v5_word]; exact toInt_ofNat_small _ (pos_small lab b t))

/-- The reference's gold sequence: at (b, t) the label at the t-th scored position of row b. -/
theorem v6_eq (lab : IVec S64x8192 32) (b : Fin 64) (t : Fin 4096) :
    val_main_v6 (F := Ideal) lab (ij b t) = lab (ij b (pos lab b t)) := by
  rw [val_main_v6_apply, c2v12_one, c2v13_eq]
  exact select_one _ _

theorem ref_y (lab : IVec S64x8192 32) (hcount : ∀ b : Fin 64, (Finset.univ.filter fun q : Fin 8192 => lab (ij b q) ≠ IGN).card = 4096) : val_main_v6 (F := Ideal) lab = ySpec lab := by
  funext j
  obtain ⟨b, t, rfl⟩ : ∃ (b : Fin 64) (t : Fin 4096), j = ij b t := ⟨j 0, j 1, (ij_eta j).symm⟩
  exact v6_eq lab b t

end Cert.RefValue

end
-- ==== Proof.RefEmis.lean ====
/-
  The reference's emission score is the specification's: for row b, the sum over every position and class of the
  log-probability whose class is the position's label.

  The reference reads the log-probabilities at the sorted position words (the t-th scored position of row b),
  then at the gold label there, and sums over t. A scored position's label is one of 1 … 42, a class word, so it
  picks exactly its class out of the sum over the classes; an ignored position's label, the ignore word, is no
  class word and picks nothing. Summing a function over the scored positions of a row is summing it at the t-th
  scored position over t.
-/
import proofs.«417459_j46256797778252_2_alg».proof.Proof.RefValue
import Idealize.ShloMosaic.PureOps.Ideal.Laws

noncomputable section

namespace Cert.RefValue

open Idealize.ShloMosaic Idealize.ShloMosaic.ValueIdx Idealize.ShloMosaic.StableHlo.Predicate
open Cert.ReferenceIdeal Cert.ReferenceIdeal.ReadP Cert.Crf

/-! ## The emission score

  The second take reads the log-probabilities along the positions at the same sorted index word, so at
  (b, t, c) it holds the log-probability of class c at the t-th scored position of row b. The third take
  reads it along the classes at the gold label there, which is one of 1 … 42 because the position is scored:
  a class word in range, so again the wrap does nothing and the mask "0 ≤ word ≤ 47" is 1. -/

theorem v7_word (lab : IVec S64x8192 32) (b : Fin 64) (t : Fin 4096) (k : Fin 1) :
    val_main_v7 (F := Ideal) lab (ix3 b t k) = BitVec.ofNat 32 (pos lab b t).val := by
  rw [val_main_v7_apply]
  have hi : idx_main_v7 (ix3 b t k) = ij b t := by
    funext a; match a with | ⟨0, _⟩ => rfl | ⟨1, _⟩ => rfl
  rw [hi]
  exact v5_word lab b t

theorem c3v4_word (lab : IVec S64x8192 32) (b : Fin 64) (t : Fin 4096) (k : Fin 1) :
    val_main_call3_v4 (F := Ideal) lab (ix3 b t k) = BitVec.ofNat 32 (pos lab b t).val := by
  rw [val_main_call3_v4_apply, val_main_call3_v1_apply, val_main_call3_v3_apply, val_main_call3_v0_apply,
    val_main_call3_c_apply, val_main_call3_v2_apply, val_main_call3_c_0_apply, v7_word]
  exact wrap_id _ _ (by rw [toInt_ofNat_small _ (pos_small lab b t)]; exact Int.natCast_nonneg _)

theorem c3v10_one (lab : IVec S64x8192 32) (i : S64x4096x1.Idx) : val_main_call3_v10 (F := Ideal) lab i = 1#1 := by
  obtain ⟨b, t, k, rfl⟩ : ∃ (b : Fin 64) (t : Fin 4096) (k : Fin 1), i = ix3 b t k := ⟨i 0, i 1, i 2, eq_ix3 i⟩
  rw [val_main_call3_v10_apply, val_main_call3_v6_apply, val_main_call3_v9_apply, val_main_call3_v5_apply,
    val_main_call3_c_2_apply, val_main_call3_v8_apply, val_main_call3_v7_apply, val_main_call3_c_1_apply, c3v4_word]
  refine in_range_one _ _ ?_ ?_
  · rw [toInt_ofNat_small _ (pos_small lab b t)]; exact Int.natCast_nonneg _
  · rw [toInt_ofNat_small _ (pos_small lab b t), show (8191#32 : BitVec 32).toInt = 8191 from by decide]
    have := (pos lab b t).isLt; omega

theorem c3v11_one (lab : IVec S64x8192 32) (j : S64x4096.Idx) : val_main_call3_v11 (F := Ideal) lab j = 1#1 := by
  unfold val_main_call3_v11
  exact reduce_andi_all_one _ _ _ _ j rfl (c3v10_one lab)

/-- The log-probabilities taken along the positions: class c at the t-th scored position of row b. -/
theorem v8_eq (lp : FVec Ideal S64x8192x48 .f32) (lab : IVec S64x8192 32) (b : Fin 64) (t : Fin 4096) (c : Fin 48) :
    val_main_v8 (F := Ideal) lp lab (ix3 b t c) = lp (ix3 b (pos lab b t) c) := by
  rw [val_main_v8_apply, val_main_call3_v13_apply, c3v11_one, select_one]
  unfold val_main_call3_v12
  exact Cert.RefGather.take_rows3 lp (val_main_call3_v4 (F := Ideal) lab) b t c (pos lab b t)
    (by rw [c3v4_word]; exact toInt_ofNat_small _ (pos_small lab b t))

section Labels

variable (lab : IVec S64x8192 32)
  (hcount : ∀ b : Fin 64, (Finset.univ.filter fun q : Fin 8192 => lab (ij b q) ≠ IGN).card = 4096)
  (hrange : ∀ (b : Fin 64) (q : Fin 8192), lab (ij b q) = IGN ∨ (1 ≤ (lab (ij b q)).toNat ∧ (lab (ij b q)).toNat ≤ 42))

include hcount hrange

/-- The gold label at a scored position is one of 1 … 42. -/
theorem gold_range (b : Fin 64) (t : Fin 4096) :
    1 ≤ (lab (ij b (pos lab b t))).toNat ∧ (lab (ij b (pos lab b t))).toNat ≤ 42 :=
  (hrange b (pos lab b t)).resolve_left (Cert.RefSort.pos_scored lab b (hcount b) t)

theorem gold_toInt (b : Fin 64) (t : Fin 4096) :
    (lab (ij b (pos lab b t))).toInt = ((lab (ij b (pos lab b t))).toNat : Int) :=
  toInt_of_toNat_small _ (by have := (gold_range lab hcount hrange b t).2; omega)

/-- The gold label at the t-th scored position of row b, as a class. -/
def cls (b : Fin 64) (t : Fin 4096) : Fin 48 :=
  ⟨(lab (ij b (pos lab b t))).toNat, by have := (gold_range lab hcount hrange b t).2; omega⟩

omit hcount hrange in
theorem v9_eq (b : Fin 64) (t : Fin 4096) (k : Fin 1) :
    val_main_v9 (F := Ideal) lab (ix3 b t k) = lab (ij b (pos lab b t)) := by
  rw [val_main_v9_apply]
  have hi : idx_main_v9 (ix3 b t k) = ij b t := by
    funext a; match a with | ⟨0, _⟩ => rfl | ⟨1, _⟩ => rfl
  rw [hi]
  exact v6_eq lab b t

theorem c4v4_eq (b : Fin 64) (t : Fin 4096) (k : Fin 1) :
    val_main_call4_v4 (F := Ideal) lab (ix3 b t k) = lab (ij b (pos lab b t)) := by
  rw [val_main_call4_v4_apply, val_main_call4_v1_apply, val_main_call4_v3_apply, val_main_call4_v0_apply,
    val_main_call4_c_apply, val_main_call4_v2_apply, val_main_call4_c_0_apply, v9_eq]
  exact wrap_id _ _ (by rw [gold_toInt lab hcount hrange b t]; exact Int.natCast_nonneg _)

theorem c4v5_eq (b : Fin 64) (t : Fin 4096) (k k' : Fin 1) :
    val_main_call4_v5 (F := Ideal) lab (ix4 b t k k') = lab (ij b (pos lab b t)) := by
  rw [val_main_call4_v5_apply]
  have hi : idx_main_call4_v5 (ix4 b t k k') = ix3 b t (0 : Fin 1) := by
    funext a
    match a with
    | ⟨0, _⟩ => exact Fin.ext (by show (((b.val * 4096 + t.val) * 1 + k.val) * 1 + k'.val) / 4096 = b.val; have := t.isLt; have := k.isLt; have := k'.isLt; omega)
    | ⟨1, _⟩ => exact Fin.ext (by show (((b.val * 4096 + t.val) * 1 + k.val) * 1 + k'.val) / 1 % 4096 = t.val; have := t.isLt; have := k.isLt; have := k'.isLt; omega)
    | ⟨2, _⟩ => rfl
  rw [hi]
  exact c4v4_eq lab hcount hrange b t 0

theorem c4v11_one (i : S64x4096x1x1.Idx) : val_main_call4_v11 (F := Ideal) lab i = 1#1 := by
  obtain ⟨b, t, k, k', rfl⟩ : ∃ (b : Fin 64) (t : Fin 4096) (k k' : Fin 1), i = ix4 b t k k' :=
    ⟨i 0, i 1, i 2, i 3, eq_ix4 i⟩
  rw [val_main_call4_v11_apply, val_main_call4_v7_apply, val_main_call4_v10_apply, val_main_call4_v6_apply,
    val_main_call4_c_2_apply, val_main_call4_v9_apply, val_main_call4_v8_apply, val_main_call4_c_1_apply,
    c4v5_eq lab hcount hrange]
  refine in_range_one _ _ ?_ ?_
  · rw [gold_toInt lab hcount hrange b t]; exact Int.natCast_nonneg _
  · rw [gold_toInt lab hcount hrange b t, show (47#32 : BitVec 32).toInt = 47 from by decide]
    have := (gold_range lab hcount hrange b t).2; omega

theorem c4v12_one (j : S64x4096x1.Idx) : val_main_call4_v12 (F := Ideal) lab j = 1#1 := by
  unfold val_main_call4_v12
  exact reduce_andi_all_one _ _ _ _ j rfl (c4v11_one lab hcount hrange)

/-- The emission read at (b, t): the log-probability, at the t-th scored position of row b, of the gold
    label there. -/
theorem v11_eq (lp : FVec Ideal S64x8192x48 .f32) (b : Fin 64) (t : Fin 4096) :
    val_main_v11 (F := Ideal) lp lab (ij b t) = lp (ix3 b (pos lab b t) (cls lab hcount hrange b t)) := by
  rw [val_main_v11_apply]
  have hi : idx_main_v11 (ij b t) = ix3 b t (0 : Fin 1) := by
    funext a
    match a with
    | ⟨0, _⟩ => exact Fin.ext (by show (b.val * 4096 + t.val) / 4096 = b.val; have := t.isLt; omega)
    | ⟨1, _⟩ => exact Fin.ext (by show (b.val * 4096 + t.val) / 1 % 4096 = t.val; have := t.isLt; omega)
    | ⟨2, _⟩ => rfl
  rw [hi, val_main_v10_apply, c4v12_one lab hcount hrange, select_one]
  unfold val_main_call4_v13
  rw [Cert.RefGather.take_class (val_main_v8 (F := Ideal) lp lab) (val_main_call4_v5 (F := Ideal) lab) b t
    (cls lab hcount hrange b t) (by rw [c4v5_eq lab hcount hrange]; exact gold_toInt lab hcount hrange b t)]
  exact v8_eq lp lab b t _

end Labels

/-! A label that is a class word picks exactly its class out of the sum over the classes; the ignore word is no
    class word and picks nothing. -/

theorem sum_class (y : BitVec 32) (h : y.toNat < 48) (f : Fin 48 → EReal) :
    (∑ c : Fin 48, if y = BitVec.ofNat 32 c.val then f c else 0) = f ⟨y.toNat, h⟩ := by
  rw [Finset.sum_eq_single (⟨y.toNat, h⟩ : Fin 48)]
  · rw [if_pos]
    exact BitVec.eq_of_toNat_eq (by rw [toNat_ofNat_small _ (by omega)])
  · intro c _ hne
    rw [if_neg]
    intro e
    refine hne (Fin.ext ?_)
    show c.val = y.toNat
    rw [e, toNat_ofNat_small _ (by have := c.isLt; omega)]
  · intro hn
    exact absurd (Finset.mem_univ _) hn

theorem sum_class_ign (f : Fin 48 → EReal) : (∑ c : Fin 48, if IGN = BitVec.ofNat 32 c.val then f c else 0) = 0 := by
  refine Finset.sum_eq_zero fun c _ => ?_
  rw [if_neg]
  intro e
  have h : (BitVec.ofNat 32 c.val).toNat = 4294967196 := by rw [← e]; decide
  rw [toNat_ofNat_small _ (by have := c.isLt; omega)] at h
  have := c.isLt
  omega

/-- Row b: the emissions read at the scored positions, summed, are the sum over every position and class of the
    log-probability whose class is the position's label. -/
theorem e_row (lp : FVec Ideal S64x8192x48 .f32) (lab : IVec S64x8192 32)
    (hcount : ∀ b : Fin 64, (Finset.univ.filter fun q : Fin 8192 => lab (ij b q) ≠ IGN).card = 4096)
    (hrange : ∀ (b : Fin 64) (q : Fin 8192), lab (ij b q) = IGN ∨ (1 ≤ (lab (ij b q)).toNat ∧ (lab (ij b q)).toNat ≤ 42))
    (b : Fin 64) :
    (∑ t : Fin 4096, val_main_v11 (F := Ideal) lp lab (ij b t))
      = ∑ s : Fin 8192, ∑ c : Fin 48, if lab (ij b s) = BitVec.ofNat 32 c.val then lp (ix3 b s c) else (0 : EReal) := by
  have hg : ∀ t : Fin 4096, val_main_v11 (F := Ideal) lp lab (ij b t)
      = ∑ c : Fin 48, if lab (ij b (pos lab b t)) = BitVec.ofNat 32 c.val then lp (ix3 b (pos lab b t) c) else (0 : EReal) :=
    fun t => by
      rw [v11_eq lab hcount hrange lp b t]
      exact (sum_class _ _ (fun c => lp (ix3 b (pos lab b t) c))).symm
  rw [Finset.sum_congr rfl fun t _ => hg t,
    ← Cert.RefSort.sum_scored_eq_sum_pos lab b (hcount b)
      (fun s => ∑ c : Fin 48, if lab (ij b s) = BitVec.ofNat 32 c.val then lp (ix3 b s c) else (0 : EReal))]
  refine Finset.sum_congr rfl fun s _ => ?_
  by_cases h : lab (ij b s) = IGN
  · rw [if_neg (not_not.2 h), h]
    exact (sum_class_ign _).symm
  · rw [if_pos h]

theorem ref_e (lp : FVec Ideal S64x8192x48 .f32) (lab : IVec S64x8192 32) (hcount : ∀ b : Fin 64, (Finset.univ.filter fun q : Fin 8192 => lab (ij b q) ≠ IGN).card = 4096)
    (hrange : ∀ (b : Fin 64) (q : Fin 8192), lab (ij b q) = IGN ∨ (1 ≤ (lab (ij b q)).toNat ∧ (lab (ij b q)).toNat ≤ 42)) : val_main_v59 (F := Ideal) lp lab = eSpec lp lab := by
  funext j
  rw [val_main_v59_apply]
  have h0 : ∀ i, val_main_cst_11 (F := Ideal) i = (0 : EReal) := fun _ => Ideal.ofBits_zero_f32
  rw [h0, zero_add]
  refine (Finset.sum_congr rfl fun k _ => ?_).trans (e_row lp lab hcount hrange (j 0))
  exact congrArg (val_main_v11 (F := Ideal) lp lab)
    (funext fun a => match a with | ⟨0, _⟩ => rfl | ⟨1, _⟩ => rfl)

end Cert.RefValue

end
-- ==== Proof.PreFacts.lean ====
/-
  The precondition read back. The printed predicate is the conjunction of four universally quantified statements
  about the inputs; two of them concern the label array, and this module turns "the predicate is 1" into the two
  arithmetic facts they state:

  * every row of the [64 × 8192] label array has exactly 4096 entries different from the word of −100
    (the predicate sums, along each row, the mask "label ≠ −100" widened to 32 bits and compares the sum with 4096;
    the sum of a widened mask along a row is the number of set bits in that row);
  * every label is the word of −100 or lies in 1..42 (the predicate compares signed with 1 and with 42; a word
    whose signed reading lies in 1..42 has the same unsigned reading).
-/
import proofs.«417459_j46256797778252_2_alg».proof.Pre_finite_inputs
import Idealize.ShloMosaic.Lib.StableHlo.Predicate
import Idealize.ShloMosaic.Lib.ReduceAll

noncomputable section

namespace Cert.PreFacts

open Idealize.ShloMosaic Idealize.ShloMosaic.StableHlo.Predicate Cert.Pre_finite_inputs

variable [Cert.Pre_finite_inputs.Facts] {F : FTy → Type} [FloatOps F]

/-- The one index of a rank-0 array. -/
def scalarIdx : S_.Idx := fun d => d.elim0

/-- A word whose signed reading lies in 1..42 has that unsigned reading. -/
theorem toNat_of_toInt_range (w : BitVec 32) (hlo : (1#32 : BitVec 32).toInt ≤ w.toInt) (hhi : w.toInt ≤ (42#32 : BitVec 32).toInt) :
    1 ≤ w.toNat ∧ w.toNat ≤ 42 := by
  have e1 : (1#32 : BitVec 32).toInt = 1 := by decide
  have e42 : (42#32 : BitVec 32).toInt = 42 := by decide
  rw [e1] at hlo
  rw [e42] at hhi
  have hlt := w.isLt
  rw [BitVec.toInt_eq_toNat_cond] at hlo hhi
  split at hlo <;> omega

/-- Each row of the label array has exactly 4096 labels different from −100. -/
theorem count_scored (lp : FVec F S64x8192x48 .f32) (A : FVec F S1848 .f32) (lab : IVec S64x8192 32) (lens : IVec S64 32)
    (h : Cert.Pre_finite_inputs.fn (F := F) lp A lab lens = fun _ => 1#1) (b : Fin 64) :
    (Finset.univ.filter fun q : Fin 8192 => lab (ij b q) ≠ 4294967196#32).card = 4096 := by
  haveI : Subsingleton S_.Idx := ⟨fun a b => funext fun d => d.elim0⟩
  -- the predicate at its one index is a conjunction; keep the conjunct on the row counts
  have e := congrFun h scalarIdx
  dsimp only [Cert.Pre_finite_inputs.fn, Cert.Pre_finite_inputs.fn_part1] at e
  simp only [andi, IntOp.andi_eq_one] at e
  obtain ⟨⟨-, hc⟩, -⟩ := e
  -- a conjunction over all rows that is 1 is 1 at row b: the row's sum equals the word 4096
  have h1 := Host.reduce_andi_all _ _ _ _ _ hc (Shape.Idx.ofFin b)
  simp only [cmpi, cmpi_eq_iff, bcast_scalar _ Facts.h_S_, constantI] at h1
  -- the row's sum is the number of columns whose mask bit is set, and the bit is set exactly when the label is not −100
  have h2 := congrArg BitVec.toNat h1
  rw [toNat_reduce_count_cols (by decide)] at h2
  simp only [cmpi, IntOp.cmpi_ne, bcast_scalar _ Facts.h_S_, constantI, Shape.Idx.ofFin_zero] at h2
  exact h2

/-- Each label is −100 or lies in 1..42. -/
theorem label_range (lp : FVec F S64x8192x48 .f32) (A : FVec F S1848 .f32) (lab : IVec S64x8192 32) (lens : IVec S64 32)
    (h : Cert.Pre_finite_inputs.fn (F := F) lp A lab lens = fun _ => 1#1) (b : Fin 64) (q : Fin 8192) :
    lab (ij b q) = 4294967196#32 ∨ (1 ≤ (lab (ij b q)).toNat ∧ (lab (ij b q)).toNat ≤ 42) := by
  haveI : Subsingleton S_.Idx := ⟨fun a b => funext fun d => d.elim0⟩
  -- the predicate at its one index is a conjunction; keep the conjunct on the label range
  have e := congrFun h scalarIdx
  dsimp only [Cert.Pre_finite_inputs.fn, Cert.Pre_finite_inputs.fn_part1] at e
  simp only [andi, IntOp.andi_eq_one] at e
  obtain ⟨-, hr⟩ := e
  -- a conjunction over all positions that is 1 is 1 at (b, q): there the disjunction of the compares holds
  have h1 := Host.reduce_andi_all _ _ _ _ _ hr (ij b q)
  simp only [ori, andi, cmpi, IntOp.ori_eq_one, IntOp.andi_eq_one, cmpi_eq_iff, IntOp.cmpi_sge, IntOp.cmpi_sle,
    bcast_scalar _ Facts.h_S_, constantI] at h1
  rcases h1 with h1 | ⟨hlo, hhi⟩
  · exact Or.inl h1
  · exact Or.inr (toNat_of_toInt_range _ hlo hhi)

end Cert.PreFacts

end
-- ==== Proof.lean ====
/-
  The certificate's claims, assembled.

  The kernel computes the CRF path score of a batch: per row, the emission score (the sum over all positions
  and classes of the log-probability whose class is the position's label — a one-hot selection, so that an
  ignored position contributes nothing) by one pallas_call accumulating over four tiles of the positions, and
  the language-model score of the gold sequence, which it compacts from the labels by a running count and a
  scatter.  The reference sorts the positions stably by "scored first", gathers labels and emissions at the
  first 4096 sorted positions and sums them.  Under the precondition (every row has exactly 4096 scored
  labels, each in 1..42) the stable sort lists exactly the scored positions in increasing order, so both gold
  sequences are the labels at the t-th scored position and both emission scores are the same finite sum of
  extended reals up to the order of its terms; the rest of the two programs is the same chain of operations.
-/
import proofs.«417459_j46256797778252_2_alg».proof.Defs
import proofs.«417459_j46256797778252_2_alg».proof.Proof.Gen.Kernel
import proofs.«417459_j46256797778252_2_alg».proof.Proof.Gen.KernelIdeal
import proofs.«417459_j46256797778252_2_alg».proof.Proof.Gen.ReferenceIdeal
import proofs.«417459_j46256797778252_2_alg».proof.Proof.Gen.Pre_finite_inputs
import proofs.«417459_j46256797778252_2_alg».proof.Proof.KFrame
import proofs.«417459_j46256797778252_2_alg».proof.Proof.KIFrame
import proofs.«417459_j46256797778252_2_alg».proof.Proof.KIValue
import proofs.«417459_j46256797778252_2_alg».proof.Proof.KITail
import proofs.«417459_j46256797778252_2_alg».proof.Proof.KerY
import proofs.«417459_j46256797778252_2_alg».proof.Proof.RefRun
import proofs.«417459_j46256797778252_2_alg».proof.Proof.RefRead
import proofs.«417459_j46256797778252_2_alg».proof.Proof.RefStages
import proofs.«417459_j46256797778252_2_alg».proof.Proof.RefTotal
import proofs.«417459_j46256797778252_2_alg».proof.Proof.RefValue
import proofs.«417459_j46256797778252_2_alg».proof.Proof.RefEmis
import proofs.«417459_j46256797778252_2_alg».proof.Proof.RefSort
import proofs.«417459_j46256797778252_2_alg».proof.Proof.PreFacts
import proofs.«417459_j46256797778252_2_alg».proof.Proof.Spec
import Idealize.ShloMosaic.Adequacy
import Idealize.ShloMosaic.Init

set_option maxRecDepth 16384

noncomputable section

namespace Cert.Proof

open Idealize.ShloMosaic Idealize.SL.Sem Idealize.ShloMosaic.StableHlo.Predicate

/-- The word-level kernel program runs to the end and keeps its arguments. -/
theorem frame_k : Cert.frame_Kernel := fun m ρ _ => Cert.Kernel.HF.frame m ρ

/-- So does its idealization. -/
theorem frame_ki : Cert.frame_KernelIdeal := fun m ρ _ => Cert.KernelIdeal.HF.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- What the precondition says of the labels of core c: every row has 4096 scored labels, and every label is
    the ignore word or a class id in 1..42. -/
theorem pre_labels (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ b : Fin 64, (Finset.univ.filter fun q : Fin 8192 =>
        (m ((c.tc : Thread Cert.KernelIdeal.nD Cert.KernelIdeal.τ).loc Cert.KernelIdeal.main_arg2)) (ij b q) ≠ Cert.Crf.IGN).card = 4096)
    ∧ (∀ (b : Fin 64) (q : Fin 8192),
        (m ((c.tc : Thread Cert.KernelIdeal.nD Cert.KernelIdeal.τ).loc Cert.KernelIdeal.main_arg2)) (ij b q) = Cert.Crf.IGN
        ∨ (1 ≤ ((m ((c.tc : Thread Cert.KernelIdeal.nD Cert.KernelIdeal.τ).loc Cert.KernelIdeal.main_arg2)) (ij b q)).toNat
          ∧ ((m ((c.tc : Thread Cert.KernelIdeal.nD Cert.KernelIdeal.τ).loc Cert.KernelIdeal.main_arg2)) (ij b q)).toNat ≤ 42)) :=
  ⟨fun b => Cert.PreFacts.count_scored _ _ _ _ (hpre c) b, fun b q => Cert.PreFacts.label_range _ _ _ _ (hpre c) b q⟩

/-- The common result: the specification's total at the argument arrays of core c. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v79) :=
  Cert.Crf.total (F := Ideal)
    (Cert.Crf.lmScore (m ((c.tc : Thread Cert.KernelIdeal.nD Cert.KernelIdeal.τ).loc Cert.KernelIdeal.main_arg1))
      (Cert.Crf.ySpec (m ((c.tc : Thread Cert.KernelIdeal.nD Cert.KernelIdeal.τ).loc Cert.KernelIdeal.main_arg2))))
    (Cert.Crf.eSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg2))

/-- A column of 64 entries read as a vector of 64: entry i of the vector is entry (i, 0) of the column. -/
theorem shapeCast_col {α : Type} (x : Cert.KernelIdeal.S64.Idx → α) (h : Cert.KernelIdeal.S64x1.ShapeCasts Cert.KernelIdeal.S64) :
    shapeCast Cert.KernelIdeal.S64 (fun j : Cert.KernelIdeal.S64x1.Idx => x (ValueIdx.ix1 (j 0))) h = x := by
  funext i
  rw [shapeCast_apply _ h i (ixP (i 0)) (by
    rw [Shape.rowMajor_val_two, Shape.rowMajor_val_one]
    show (i 0).val * 1 + 0 = (i 0).val
    omega)]
  exact congrArg x (ValueIdx.eq_ix1 i).symm

/-- The idealized kernel ends with the specification's total. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    Pipeline.afterTail₀ Cert.KernelIdeal.cfgs (Cert.KernelIdeal.HF.dats (F := Ideal) m) 0 (Cert.KernelIdeal.HF.V0 m) Cert.KernelIdeal.HF.tailOps c Cert.KernelIdeal.main_v79
      = result m c := by
  obtain ⟨hcount, hrange⟩ := pre_labels m hpre c
  rw [Cert.KernelIdeal.HF.tail_result m c, Cert.KernelIdeal.HF.final2 m c,
    Cert.KerY.yKer_eq _ hcount (fun b t => Cert.RefSort.pos_scored _ b (hcount b) t) (fun b t => Cert.RefSort.pos_rank _ b (hcount b) t)]
  exact congrArg
    (fun e => Cert.Crf.total (F := Ideal)
      (Cert.Crf.lmScore (m ((c.tc : Thread Cert.KernelIdeal.nD Cert.KernelIdeal.τ).loc Cert.KernelIdeal.main_arg1))
        (Cert.Crf.ySpec (m ((c.tc : Thread Cert.KernelIdeal.nD Cert.KernelIdeal.τ).loc Cert.KernelIdeal.main_arg2))))
      e (m ((c.tc : Thread Cert.KernelIdeal.nD Cert.KernelIdeal.τ).loc Cert.KernelIdeal.main_arg2)))
    (shapeCast_col (Cert.Crf.eSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg2))) _)

/-- The idealized reference ends with the same total. -/
theorem reference_result (lp : FVec Ideal Cert.ReferenceIdeal.S64x8192x48 .f32) (A : FVec Ideal Cert.ReferenceIdeal.S1848 .f32) (lab : IVec Cert.ReferenceIdeal.S64x8192 32)
    (hcount : ∀ b : Fin 64, (Finset.univ.filter fun q : Fin 8192 => lab (ij b q) ≠ Cert.Crf.IGN).card = 4096)
    (hrange : ∀ (b : Fin 64) (q : Fin 8192), lab (ij b q) = Cert.Crf.IGN ∨ (1 ≤ (lab (ij b q)).toNat ∧ (lab (ij b q)).toNat ≤ 42)) :
    Cert.ReferenceIdeal.ReadP.val_main_v65 (F := Ideal) lp A lab
      = Cert.Crf.total (F := Ideal) (Cert.Crf.lmScore A (Cert.Crf.ySpec lab)) (Cert.Crf.eSpec lp lab) lab := by
  rw [Cert.RefValue.ref_total, Cert.RefValue.ref_y lab hcount, Cert.RefValue.ref_e lp lab hcount hrange]

theorem algebraic : Cert.algebraic_KernelIdeal_ReferenceIdeal := by
  intro m ρ m' ρ' hpre hagree
  refine ⟨result m, ?_, ?_⟩
  · refine (θ_run Cert.KernelIdeal.defs _ _).mono (fun r h c => ?_) (Cert.KernelIdeal.HF.run_main (F := Ideal) m ρ)
    exact ⟨(Cert.KernelIdeal.HF.res_of_post m r h c).trans (kernel_result m hpre c), Cert.KernelIdeal.HF.args_of_post m r h c⟩
  · refine (θ_run Cert.ReferenceIdeal.defs _ _).mono (fun r h c => ⟨(h c).1.trans ?_, (h c).2⟩)
      (Cert.ReferenceIdeal.ValueP.run (F := Ideal) m' ρ')
    obtain ⟨hcount, hrange⟩ := pre_labels m hpre c
    rw [Cert.RefStages.val_main_v65_eq, (hagree c).1, (hagree c).2.1, (hagree c).2.2.1]
    exact reference_result _ _ _ hcount hrange

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
